-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x2048 : Shape := ⟨2, ![512, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x2048 .f32) (main_arg1 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S8x512 : Shape := ⟨2, ![8, 512]⟩
abbrev S8 : Shape := ⟨1, ![8]⟩
abbrev S_ : Shape := ⟨0, ![]⟩
abbrev S512 : Shape := ⟨1, ![512]⟩
abbrev S1x512 : Shape := ⟨2, ![1, 512]⟩
abbrev S1 : Shape := ⟨1, ![1]⟩
abbrev S1x256 : Shape := ⟨2, ![1, 256]⟩
abbrev S512x1 : Shape := ⟨2, ![512, 1]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S512x256, .f32⟩
  | .local _ .vmem, ⟨3, _⟩ => ⟨S8x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v102 : BitVec 32 := Scalar.addi v2 c1_i32_67
  let c8_i32_68 : BitVec 32 := 8#32
  let c0_i32_69 : BitVec 32 := 0#32
  let v103 : BitVec 1 := Scalar.cmpi .eq c8_i32_68 c0_i32_69
  let c1_i32_70 : BitVec 32 := 1#32
  let v104 : BitVec 32 := Scalar.select v103 c1_i32_70 c8_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  let c1_i32_78 : BitVec 32 := 1#32
  let v113 : BitVec 32 := Scalar.muli v112 c1_i32_78
  let v114 : BitVec 32 := Scalar.addi c0_i32_79 v113
  v114.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v123 : BitVec 32 := Scalar.addi v2 c2_i32_82
  let c8_i32_83 : BitVec 32 := 8#32
  let c0_i32_84 : BitVec 32 := 0#32
  let v124 : BitVec 1 := Scalar.cmpi .eq c8_i32_83 c0_i32_84
  let c1_i32_85 : BitVec 32 := 1#32
  let v125 : BitVec 32 := Scalar.select v124 c1_i32_85 c8_i32_83
  let v126 : BitVec 32 := Scalar.remsi v123 v125
  let c0_i32_87 : BitVec 32 := 0#32
  let v128 : BitVec 1 := Scalar.cmpi .slt v126 c0_i32_87
  let c0_i32_88 : BitVec 32 := 0#32
  let v129 : BitVec 1 := Scalar.cmpi .slt v125 c0_i32_88
  let v130 : BitVec 1 := Scalar.xori v128 v129
  let c0_i32_86 : BitVec 32 := 0#32
  let v127 : BitVec 1 := Scalar.cmpi .ne v126 c0_i32_86
  let v131 : BitVec 1 := Scalar.andi v130 v127
  let v132 : BitVec 32 := Scalar.addi v126 v125
  let v133 : BitVec 32 := Scalar.select v131 v132 v126
  let c1_i32_93 : BitVec 32 := 1#32
  let v134 : BitVec 32 := Scalar.muli v133 c1_i32_93
  let v135 : BitVec 32 := Scalar.addi c0_i32_94 v134
  v135.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v144 : BitVec 32 := Scalar.addi v2 c3_i32_97
  let c8_i32_98 : BitVec 32 := 8#32
  let c0_i32_99 : BitVec 32 := 0#32
  let v145 : BitVec 1 := Scalar.cmpi .eq c8_i32_98 c0_i32_99
  let c1_i32_100 : BitVec 32 := 1#32
  let v146 : BitVec 32 := Scalar.select v145 c1_i32_100 c8_i32_98
  let v147 : BitVec 32 := Scalar.remsi v144 v146
  let c0_i32_102 : BitVec 32 := 0#32
  let v149 : BitVec 1 := Scalar.cmpi .slt v147 c0_i32_102
  let c0_i32_103 : BitVec 32 := 0#32
  let v150 : BitVec 1 := Scalar.cmpi .slt v146 c0_i32_103
  let v151 : BitVec 1 := Scalar.xori v149 v150
  let c0_i32_101 : BitVec 32 := 0#32
  let v148 : BitVec 1 := Scalar.cmpi .ne v147 c0_i32_101
  let v152 : BitVec 1 := Scalar.andi v151 v148
  let v153 : BitVec 32 := Scalar.addi v147 v146
  let v154 : BitVec 32 := Scalar.select v152 v153 v147
  let c1_i32_108 : BitVec 32 := 1#32
  let v155 : BitVec 32 := Scalar.muli v154 c1_i32_108
  let v156 : BitVec 32 := Scalar.addi c0_i32_109 v155
  v156.toNat
def k0_dev11 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v165 : BitVec 32 := Scalar.addi v2 c4_i32_112
  let c8_i32_113 : BitVec 32 := 8#32
  let c0_i32_114 : BitVec 32 := 0#32
  let v166 : BitVec 1 := Scalar.cmpi .eq c8_i32_113 c0_i32_114
  let c1_i32_115 : BitVec 32 := 1#32
  let v167 : BitVec 32 := Scalar.select v166 c1_i32_115 c8_i32_113
  let v168 : BitVec 32 := Scalar.remsi v165 v167
  let c0_i32_117 : BitVec 32 := 0#32
  let v170 : BitVec 1 := Scalar.cmpi .slt v168 c0_i32_117
  let c0_i32_118 : BitVec 32 := 0#32
  let v171 : BitVec 1 := Scalar.cmpi .slt v167 c0_i32_118
  let v172 : BitVec 1 := Scalar.xori v170 v171
  let c0_i32_116 : BitVec 32 := 0#32
  let v169 : BitVec 1 := Scalar.cmpi .ne v168 c0_i32_116
  let v173 : BitVec 1 := Scalar.andi v172 v169
  let v174 : BitVec 32 := Scalar.addi v168 v167
  let v175 : BitVec 32 := Scalar.select v173 v174 v168
  let c1_i32_123 : BitVec 32 := 1#32
  let v176 : BitVec 32 := Scalar.muli v175 c1_i32_123
  let v177 : BitVec 32 := Scalar.addi c0_i32_124 v176
  v177.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_127 : BitVec 32 := 5#32
  let v186 : BitVec 32 := Scalar.addi v2 c5_i32_127
  let c8_i32_128 : BitVec 32 := 8#32
  let c0_i32_129 : BitVec 32 := 0#32
  let v187 : BitVec 1 := Scalar.cmpi .eq c8_i32_128 c0_i32_129
  let c1_i32_130 : BitVec 32 := 1#32
  let v188 : BitVec 32 := Scalar.select v187 c1_i32_130 c8_i32_128
  let v189 : BitVec 32 := Scalar.remsi v186 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c1_i32_138 : BitVec 32 := 1#32
  let v197 : BitVec 32 := Scalar.muli v196 c1_i32_138
  let v198 : BitVec 32 := Scalar.addi c0_i32_139 v197
  v198.toNat
def k0_dev13 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_142 : BitVec 32 := 6#32
  let v207 : BitVec 32 := Scalar.addi v2 c6_i32_142
  let c8_i32_143 : BitVec 32 := 8#32
  let c0_i32_144 : BitVec 32 := 0#32
  let v208 : BitVec 1 := Scalar.cmpi .eq c8_i32_143 c0_i32_144
  let c1_i32_145 : BitVec 32 := 1#32
  let v209 : BitVec 32 := Scalar.select v208 c1_i32_145 c8_i32_143
  let v210 : BitVec 32 := Scalar.remsi v207 v209
  let c0_i32_147 : BitVec 32 := 0#32
  let v212 : BitVec 1 := Scalar.cmpi .slt v210 c0_i32_147
  let c0_i32_148 : BitVec 32 := 0#32
  let v213 : BitVec 1 := Scalar.cmpi .slt v209 c0_i32_148
  let v214 : BitVec 1 := Scalar.xori v212 v213
  let c0_i32_146 : BitVec 32 := 0#32
  let v211 : BitVec 1 := Scalar.cmpi .ne v210 c0_i32_146
  let v215 : BitVec 1 := Scalar.andi v214 v211
  let v216 : BitVec 32 := Scalar.addi v210 v209
  let v217 : BitVec 32 := Scalar.select v215 v216 v210
  let c1_i32_153 : BitVec 32 := 1#32
  let v218 : BitVec 32 := Scalar.muli v217 c1_i32_153
  let v219 : BitVec 32 := Scalar.addi c0_i32_154 v218
  v219.toNat
def k0_dev14 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_157 : BitVec 32 := 7#32
  let v228 : BitVec 32 := Scalar.addi v2 c7_i32_157
  let c8_i32_158 : BitVec 32 := 8#32
  let c0_i32_159 : BitVec 32 := 0#32
  let v229 : BitVec 1 := Scalar.cmpi .eq c8_i32_158 c0_i32_159
  let c1_i32_160 : BitVec 32 := 1#32
  let v230 : BitVec 32 := Scalar.select v229 c1_i32_160 c8_i32_158
  let v231 : BitVec 32 := Scalar.remsi v228 v230
  let c0_i32_162 : BitVec 32 := 0#32
  let v233 : BitVec 1 := Scalar.cmpi .slt v231 c0_i32_162
  let c0_i32_163 : BitVec 32 := 0#32
  let v234 : BitVec 1 := Scalar.cmpi .slt v230 c0_i32_163
  let v235 : BitVec 1 := Scalar.xori v233 v234
  let c0_i32_161 : BitVec 32 := 0#32
  let v232 : BitVec 1 := Scalar.cmpi .ne v231 c0_i32_161
  let v236 : BitVec 1 := Scalar.andi v235 v232
  let v237 : BitVec 32 := Scalar.addi v231 v230
  let v238 : BitVec 32 := Scalar.select v236 v237 v231
  let c1_i32_168 : BitVec 32 := 1#32
  let v239 : BitVec 32 := Scalar.muli v238 c1_i32_168
  let v240 : BitVec 32 := Scalar.addi c0_i32_169 v239
  v240.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  hamt_7 : (7#32 : BitVec 32).msb = false
  inb_S8_S1_1 : ∀ a, (![1] : Fin 1 → Nat) a + S1.size a ≤ S8.size a
  squeezes_S1_S_ : S1.Squeezes S_
  inb_S8x512_S1x512_1_0 : ∀ a, (![1, 0] : Fin 2 → Nat) a + S1x512.size a ≤ S8x512.size a
  squeezes_S1x512_S512 : S1x512.Squeezes S512
  inb_S8_S1_2 : ∀ a, (![2] : Fin 1 → Nat) a + S1.size a ≤ S8.size a
  inb_S8x512_S1x512_2_0 : ∀ a, (![2, 0] : Fin 2 → Nat) a + S1x512.size a ≤ S8x512.size a
  inb_S8_S1_3 : ∀ a, (![3] : Fin 1 → Nat) a + S1.size a ≤ S8.size a
  inb_S8x512_S1x512_3_0 : ∀ a, (![3, 0] : Fin 2 → Nat) a + S1x512.size a ≤ S8x512.size a
  inb_S8_S1_4 : ∀ a, (![4] : Fin 1 → Nat) a + S1.size a ≤ S8.size a
  inb_S8x512_S1x512_4_0 : ∀ a, (![4, 0] : Fin 2 → Nat) a + S1x512.size a ≤ S8x512.size a
  inb_S8_S1_5 : ∀ a, (![5] : Fin 1 → Nat) a + S1.size a ≤ S8.size a
  inb_S8x512_S1x512_5_0 : ∀ a, (![5, 0] : Fin 2 → Nat) a + S1x512.size a ≤ S8x512.size a
  inb_S8_S1_6 : ∀ a, (![6] : Fin 1 → Nat) a + S1.size a ≤ S8.size a
  inb_S8x512_S1x512_6_0 : ∀ a, (![6, 0] : Fin 2 → Nat) a + S1x512.size a ≤ S8x512.size a
  inb_S8_S1_7 : ∀ a, (![7] : Fin 1 → Nat) a + S1.size a ≤ S8.size a
  inb_S8x512_S1x512_7_0 : ∀ a, (![7, 0] : Fin 2 → Nat) a + S1x512.size a ≤ S8x512.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  inb_S8x512_S8x512_0_0 : ∀ a, (![0, 0] : Fin 2 → Nat) a + S8x512.size a ≤ S8x512.size a
  h_S8x512 : 0 < S8x512.numel
  reduces_S8x512_S512 : S8x512.Reduces [0] S512
  shapeCasts_S512_S512x1 : S512.ShapeCasts S512x1
  broadcasts_S512x1_S512x256 : S512x1.Broadcasts S512x256
  hcc0_scratch1 : 3 + S8.numel ≤ 19
  hcc0_scratch2 : 11 + S8.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S8 := SemArray.consecutive 3 S8 hcc0_scratch1
abbrev cc0_scratch2 : DmaSems sig S8 := SemArray.consecutive 11 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x2048_S512_d1 : S512x2048.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S512x1_S512x2048_0_1 : S512x1.BroadcastsInDim S512x2048 (![0, 1] : Fin 2 → Fin S512x2048.rank)

variable [Facts₀]

class Facts : Prop extends Facts₀ where

variable [Facts]
-- ==== Proof.RefSide.lean ====
import proofs.«901009_g7700000000001010_dist_rmsnorm_colshard_i_m512_n256_v7x_i8_f32_1_alg».proof.Defs
import proofs.«901009_g7700000000001010_dist_rmsnorm_colshard_i_m512_n256_v7x_i8_f32_1_alg».proof.Proof.Gen.ReferenceIdeal.Run
import proofs.«901009_g7700000000001010_dist_rmsnorm_colshard_i_m512_n256_v7x_i8_f32_1_alg».proof.Proof.Gen.ReferenceIdeal.Read

/-! The reference's run and its stages read at an index are imported here; the lemmas that identify the
reference's result with the row-normalised array follow below. -/
-- ==== Proof.Ring.lean ====
import proofs.«901009_g7700000000001010_dist_rmsnorm_colshard_i_m512_n256_v7x_i8_f32_1_alg».proof.Proof.Gen.KernelIdeal

/-! # The ring of eight devices

Device `c` addresses its peers by a shift of its own position: `fwd k c` is the device `k` places after `c` on the
ring of eight, `bwd k c` the device `k` places before it, and `neg k` the shift that undoes `k`. The kernel's fourteen
printed device chains (seven signals, seven copies) are the shifts `1 … 7`, decided over the mesh. -/

namespace Cert.KernelIdeal.Ring

open Idealize.ShloMosaic Cert.KernelIdeal Cert.KernelIdeal.Gen

/-- The device `k` places after `c`. -/
def fwd (k : Fin 8) (c : Dev nD) : Dev nD := ⟨(c.val + k.val) % 8, Nat.mod_lt _ (by decide)⟩
/-- The device `k` places before `c`. -/
def bwd (k : Fin 8) (c : Dev nD) : Dev nD := ⟨(c.val + (8 - k.val)) % 8, Nat.mod_lt _ (by decide)⟩
/-- The shift that undoes `k`. -/
def neg (k : Fin 8) : Fin 8 := ⟨(8 - k.val) % 8, Nat.mod_lt _ (by decide)⟩

theorem bwd_fwd (k : Fin 8) (c : Dev nD) : bwd k (fwd k c) = c := by revert k c; decide
theorem fwd_bwd (k : Fin 8) (c : Dev nD) : fwd k (bwd k c) = c := by revert k c; decide
theorem fwd_neg (k : Fin 8) (c : Dev nD) : fwd (neg k) c = bwd k c := by revert k c; decide
theorem bwd_neg (k : Fin 8) (c : Dev nD) : bwd (neg k) c = fwd k c := by revert k c; decide
theorem neg_neg (k : Fin 8) : neg (neg k) = k := by revert k; decide
theorem neg_ne_zero {k : Fin 8} (h : k ≠ 0) : neg k ≠ 0 := by revert k; decide
theorem fwd_zero (c : Dev nD) : fwd 0 c = c := by revert c; decide
theorem bwd_zero (c : Dev nD) : bwd 0 c = c := by revert c; decide
theorem fwd_ne_self {k : Fin 8} (h : k ≠ 0) (c : Dev nD) : fwd k c ≠ c := by revert k c; decide
theorem fwd_inj (k : Fin 8) {a b : Dev nD} (h : fwd k a = fwd k b) : a = b := by
  have := congrArg (bwd k) h; rwa [bwd_fwd, bwd_fwd] at this
theorem bwd_inj (k : Fin 8) {a b : Dev nD} (h : bwd k a = bwd k b) : a = b := by
  have := congrArg (fwd k) h; rwa [fwd_bwd, fwd_bwd] at this
/-- Two shifts of one device agree only if they are the same shift. -/
theorem fwd_left_inj (c : Dev nD) {j k : Fin 8} (h : fwd j c = fwd k c) : j = k := by revert j k c; decide
theorem bwd_left_inj (c : Dev nD) {j k : Fin 8} (h : bwd j c = bwd k c) : j = k := by revert j k c; decide

def fwdEquiv (k : Fin 8) : Dev nD ≃ Dev nD := ⟨fwd k, bwd k, bwd_fwd k, fwd_bwd k⟩
/-- Read along the ring from `c`: the shift `k` names the device `bwd k c`, and every device is named once. -/
def bwdAt (c : Dev nD) : Fin 8 ≃ Dev nD :=
  ⟨fun k => bwd k c, fun d => ⟨(c.val + (8 - d.val)) % 8, Nat.mod_lt _ (by decide)⟩, by revert c; decide, by revert c; decide⟩

/-! The printed device chains: signal `k` and copy `k` both address `fwd k c`. -/
theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 4 c := by revert c; decide +kernel
theorem dev5_eq (c : Dev nD) : (⟨k0_dev5 c, k0_dev5_lt c⟩ : Dev nD) = fwd 5 c := by revert c; decide +kernel
theorem dev6_eq (c : Dev nD) : (⟨k0_dev6 c, k0_dev6_lt c⟩ : Dev nD) = fwd 6 c := by revert c; decide +kernel
theorem dev7_eq (c : Dev nD) : (⟨k0_dev7 c, k0_dev7_lt c⟩ : Dev nD) = fwd 7 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel
theorem dev10_eq (c : Dev nD) : (⟨k0_dev10 c, k0_dev10_lt c⟩ : Dev nD) = fwd 3 c := by revert c; decide +kernel
theorem dev11_eq (c : Dev nD) : (⟨k0_dev11 c, k0_dev11_lt c⟩ : Dev nD) = fwd 4 c := by revert c; decide +kernel
theorem dev12_eq (c : Dev nD) : (⟨k0_dev12 c, k0_dev12_lt c⟩ : Dev nD) = fwd 5 c := by revert c; decide +kernel
theorem dev13_eq (c : Dev nD) : (⟨k0_dev13 c, k0_dev13_lt c⟩ : Dev nD) = fwd 6 c := by revert c; decide +kernel
theorem dev14_eq (c : Dev nD) : (⟨k0_dev14 c, k0_dev14_lt c⟩ : Dev nD) = fwd 7 c := by revert c; decide +kernel

end Cert.KernelIdeal.Ring
-- ==== Proof.Value.lean ====
import proofs.«901009_g7700000000001010_dist_rmsnorm_colshard_i_m512_n256_v7x_i8_f32_1_alg».proof.Proof.RefSide
import proofs.«901009_g7700000000001010_dist_rmsnorm_colshard_i_m512_n256_v7x_i8_f32_1_alg».proof.Proof.Gen.KernelIdeal.Skeleton
import proofs.«901009_g7700000000001010_dist_rmsnorm_colshard_i_m512_n256_v7x_i8_f32_1_alg».proof.Proof.Ring
import Idealize.ShloMosaic.Lib.ValueIdx
import Idealize.ShloMosaic.Lib.ValueLayout
import Idealize.ShloMosaic.Lib.ReduceAll
import proofs.«901009_g7700000000001010_dist_rmsnorm_colshard_i_m512_n256_v7x_i8_f32_1_alg».proof.Proof.Gen.Pre_finite_inputs_Kernel

/-! # The value bridge

The reference's result as one function of the two whole argument arrays, and each device's stored block as the
matching block of that function. -/

noncomputable section

namespace Cert.KernelIdeal.ValueBridge

open Idealize.ShloMosaic Idealize.ShloMosaic.TcCoe Idealize.SL.Sem Idealize.ShloMosaic.ValueIdx

/-- The whole array `x`, read as a function of its index. -/
abbrev XW : Type := (⟨2, ![512, 2048]⟩ : Shape).Idx → EReal
/-- The whole vector `gamma`, read as a function of its index. -/
abbrev GW : Type := (⟨1, ![2048]⟩ : Shape).Idx → EReal

/-- The row's sum of squares over all 2048 columns. -/
def rowSq (xw : XW) (r : Fin 512) : EReal := ∑ k : Fin 2048, xw (ix2 r k) * xw (ix2 r k)

/-- The reference's result: `(gamma · x) / sqrt (rowSq / 2048 + eps)`, index by index. -/
def RefG (xw : XW) (gw : GW) : XW := fun i =>
  Ideal.div (gw (ix1 (i 1)) * xw i)
    (Ideal.sqrt (Ideal.div (rowSq xw (i 0)) (Ideal.ofBits .f32 0x45000000#32) + Ideal.ofBits .f32 0x3727C5AC#32))

section Reference
open Cert.ReferenceIdeal Cert.ReferenceIdeal.Gen Cert.ReferenceIdeal.Read

/-- The reference's composed index for the row sum is `(row of i, k)`. -/
theorem idx_row (i : S512x2048.Idx) (k : Fin 2048) :
    idx_main_v1 (idx_main_v2 (idx_main_v11 i)) k = ix2 (i 0) k :=
  funext fun a => Fin.ext (by match a with | ⟨0, _⟩ => rfl | ⟨1, _⟩ => rfl)

/-- The reference's composed index for the weight is `column of i`. -/
theorem idx_gamma (i : S512x2048.Idx) : idx_main_v8 (idx_main_v9 i) = ix1 (i 1) :=
  funext fun a => Fin.ext (by match a with | ⟨0, _⟩ => rfl)

/-- The reference's composed term is `RefG`. -/
theorem ref_eq (xw : XW) (gw : GW) : val_main_v12 (F := Ideal) xw gw = RefG xw gw := by
  funext i
  rw [val_main_v12_apply, val_main_v10_apply, val_main_v9_apply, val_main_v8_apply, val_main_v11_apply,
    val_main_v7_apply, val_main_v6_apply, val_main_v4_apply, val_main_v2_apply, val_main_v1_apply,
    val_main_v3_apply, val_main_cst_0_apply, val_main_v5_apply, val_main_cst_1_apply, val_main_cst_apply]
  simp only [val_main_v0_apply, idx_row, idx_gamma, Ideal.hostDivf_def, Ideal.mulf_def, Ideal.addf_def,
    Ideal.hostUnary_sqrt_def, Ideal.ofBits_def, Ideal.ofBits_zero_f32, zero_add]
  rfl

/-- The reference runs, its result ends at `RefG` of its arguments, and its arguments end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v12)
          = RefG (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run (Cert.ReferenceIdeal.defs (F := Ideal)) _ _).mono
    (fun _ h => ⟨(h 0).1.trans ((val_main_v12_eq _ _).trans (ref_eq _ _)), (h 0).2⟩)
    (Cert.ReferenceIdeal.Value.run (F := Ideal) m' ρ')

end Reference

/-! ## The constants -/

/-- `2048.0` denotes the real `2048`. -/
theorem ofBits_2048 : Ideal.ofBits .f32 0x45000000#32 = ((2048 : ℝ) : EReal) := by
  simp [Ideal.ofBits, Ideal.ieee, -EReal.coe_mul]; norm_num

/-- The folded reciprocal `2⁻¹¹` denotes the real `1 / 2048`. -/
theorem ofBits_inv2048 : Ideal.ofBits .f32 0x3A000000#32 = ((1 / 2048 : ℝ) : EReal) := by
  simp [Ideal.ofBits, Ideal.ieee, -EReal.coe_mul]; norm_num

/-- The regulariser denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## The law over the reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With a nonnegative real sum of squares `S` and a positive regulariser `e`, the radicand `S / 2048 + e` is a
    positive real, `S · (1/2048) = S / 2048`, and a product with the reciprocal root is the quotient by the root. -/
theorem norm_law (S e : ℝ) (hS : 0 ≤ S) (he : 0 < e) (a : EReal) :
    a * Ideal.rsqrt ((S : EReal) * ((1 / 2048 : ℝ) : EReal) + (e : EReal))
      = Ideal.div a (Ideal.sqrt (Ideal.div (S : EReal) ((2048 : ℝ) : EReal) + (e : EReal))) := by
  rw [Ideal.div_coe (by norm_num : (2048 : ℝ) ≠ 0), ← EReal.coe_mul, ← EReal.coe_add]
  have ht : 0 < S * (1 / 2048) + e := by positivity
  rw [Ideal.rsqrt_coe, Ideal.sqrt_coe, if_neg (not_lt.mpr ht.le), if_neg ht.ne', if_neg (not_lt.mpr ht.le),
    Ideal.div_coe (Real.sqrt_ne_zero'.mpr ht)]
  simp only [one_div]

/-- Column `l` of block `d` is column `256 d + l` of the whole. -/
abbrev col (d : Fin 8) (l : Fin 256) : Fin 2048 := ⟨d.val * 256 + l.val, by omega⟩

/-- A sum over the 2048 columns is the sum over the 8 blocks of the sum over each block's 256 columns. -/
theorem sum_blocks {M : Type*} [AddCommMonoid M] (f : Fin 2048 → M) :
    ∑ d : Fin 8, ∑ l : Fin 256, f (col d l) = ∑ n : Fin 2048, f n := by
  rw [← Fintype.sum_prod_type']
  exact Fintype.sum_equiv (finProdFinEquiv (m := 8) (n := 256)) _ _
    (fun x => congrArg f (Fin.ext (by simp [finProdFinEquiv]; omega)))

/-! ## Two column forms of the layout operations -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The payloads at an index -/

section Payload
open Cert.KernelIdeal Cert.KernelIdeal.Gen

/-- The first payload is its operand: a cast to the same shape. -/
theorem pay1_eq (v : FVec Ideal S512x256 .f32) : k0_pay1 (F := Ideal) v = v := by
  unfold k0_pay1; exact shapeCast_self _ _

/-- The second payload is the square, entry by entry. -/
theorem pay2_apply (v : FVec Ideal S512x256 .f32) (r : Fin 512) (l : Fin 256) :
    k0_pay2 (F := Ideal) v (ix2 r l) = v (ix2 r l) * v (ix2 r l) := by
  unfold k0_pay2; rw [pay1_eq]; rfl

/-- The third payload at `(·, r)` is row `r`'s sum over the block's 256 columns. -/
theorem pay3_apply (w : FVec Ideal S512x256 .f32) (u : Fin 1) (r : Fin 512) :
    k0_pay3 (F := Ideal) w (ix2 u r) = ∑ l : Fin 256, w (ix2 r l) := by
  unfold k0_pay3
  refine (shapeCast_a_1a_apply _ _ u r).trans ?_
  refine (Ideal.multiReduction_add_single w _ reduces_S512x256_S512 _ _ (ix1 r)).trans ?_
  exact Finset.sum_congr rfl fun l _ => congrArg w (funext fun a => Fin.ext (by match a with | ⟨0, _⟩ => rfl | ⟨1, _⟩ => rfl))

/-- The fourth payload at `(p, q)` is the entry times column `q`'s weight. -/
theorem pay4_apply (v : FVec Ideal S512x256 .f32) (g : FVec Ideal S256 .f32) (p : Fin 512) (q : Fin 256) :
    k0_pay4 (F := Ideal) v g (ix2 p q) = v (ix2 p q) * g (ix1 q) := by
  unfold k0_pay4
  rw [shapeCast_self]
  show v (ix2 p q) * broadcastTo S512x256 (shapeCast S1x256 g shapeCasts_S256_S1x256) broadcasts_S1x256_S512x256 (ix2 p q) = _
  rw [broadcastTo_1b_ab_apply, shapeCast_a_1a_apply]

/-- The fifth payload at `(p, q)` is the entry times the reciprocal root of the sum over the 8 gathered rows at `p`,
    scaled by `2⁻¹¹`, plus the regulariser. -/
theorem pay5_apply (w : FVec Ideal S512x256 .f32) (comm : FVec Ideal S8x512 .f32) (p : Fin 512) (q : Fin 256) :
    k0_pay5 (F := Ideal) w comm (ix2 p q)
      = w (ix2 p q) * Ideal.rsqrt ((∑ k : Fin 8, comm (ix2 k p)) * Ideal.ofBits .f32 0x3A000000#32
          + Ideal.ofBits .f32 0x3727C5AC#32) := by
  unfold k0_pay5
  dsimp only
  rw [mulf_apply, broadcastTo_a1_ab_apply, shapeCast_a_a1_apply]
  refine congrArg (fun t => w (ix2 p q) * Ideal.rsqrt (t * Ideal.ofBits .f32 0x3A000000#32 + Ideal.ofBits .f32 0x3727C5AC#32)) ?_
  refine (Ideal.multiReduction_add_single comm _ reduces_S8x512_S512 _ _ (ix1 p)).trans ?_
  exact Finset.sum_congr rfl fun k _ => congrArg comm (funext fun a => Fin.ext (by match a with | ⟨0, _⟩ => rfl | ⟨1, _⟩ => rfl))

end Payload

/-! ## From the blocks to the whole row -/

section Bridge
open Cert.KernelIdeal Cert.KernelIdeal.Gen

/-- Every column of the whole is a column of a block. -/
theorem col_div_mod (n : Fin 2048) : col ⟨n.val / 256, by omega⟩ ⟨n.val % 256, by omega⟩ = n :=
  Fin.ext (by show n.val / 256 * 256 + n.val % 256 = n.val; omega)

/-- Entry `(p, l)` of block `d` is entry `(p, 256 d + l)` of the whole. -/
theorem blk_idx (h : Layout.Tiles ⟨2, ![512, 256]⟩ ⟨2, ![512, 2048]⟩ 1 8) (d : Fin 8) (p : Fin 512) (l : Fin 256) :
    h.idx d (ix2 p l) = ix2 p (col d l) :=
  funext fun a => Fin.ext (by match a with | ⟨0, _⟩ => rfl | ⟨1, _⟩ => rfl)

/-- With every block's entries real, every entry of the whole is real. -/
theorem entry_real (xw : XW)
    (hfin : ∀ (d : Dev Cert.KernelIdeal.nD) i, ∃ r : ℝ, (Layout.block ⟨2, ![512, 256]⟩ ⟨2, ![512, 2048]⟩ 1 8 d xw) i = (r : EReal))
    (p : Fin 512) (n : Fin 2048) : ∃ r : ℝ, xw (ix2 p n) = (r : EReal) := by
  obtain ⟨r, hr⟩ := hfin (⟨n.val / 256, by omega⟩ : Fin 8) (ix2 p (⟨n.val % 256, by omega⟩ : Fin 256))
  refine ⟨r, ?_⟩
  rw [← hr, Layout.block_apply, blk_idx, col_div_mod]

/-- … and a row's sum of squares is a nonnegative real. -/
theorem rowSq_real (xw : XW)
    (hfin : ∀ (d : Dev Cert.KernelIdeal.nD) i, ∃ r : ℝ, (Layout.block ⟨2, ![512, 256]⟩ ⟨2, ![512, 2048]⟩ 1 8 d xw) i = (r : EReal))
    (p : Fin 512) : ∃ S : ℝ, 0 ≤ S ∧ rowSq xw p = (S : EReal) := by
  choose g hg using entry_real xw hfin p
  refine ⟨∑ n, g n * g n, Finset.sum_nonneg fun n _ => mul_self_nonneg _, ?_⟩
  unfold rowSq
  rw [coe_sum]
  exact Finset.sum_congr rfl fun n _ => by rw [hg n, EReal.coe_mul]

/-- The sum over the 8 gathered rows — row `k` the sums of squares of the block `k` places before `c` — is the sum of
    squares over all 2048 columns: the rows are the blocks, each once. -/
theorem total_eq (xw : XW) (c : Dev Cert.KernelIdeal.nD) (comm : FVec Ideal Cert.KernelIdeal.S8x512 .f32)
    (hcomm : ∀ (k : Fin 8) (r : Fin 512), comm (ValueIdx.ix2 k r) = Cert.KernelIdeal.Gen.k0_pay3 (F := Ideal) (Cert.KernelIdeal.Gen.k0_pay2 (Layout.block ⟨2, ![512, 256]⟩ ⟨2, ![512, 2048]⟩ 1 8 (Cert.KernelIdeal.Ring.bwd k c) xw)) (ValueIdx.ix2 0 r))
    (p : Fin 512) : ∑ k : Fin 8, comm (ix2 k p) = rowSq xw p := by
  have h1 : ∀ k : Fin 8, comm (ix2 k p)
      = ∑ l : Fin 256, xw (ix2 p (col (Ring.bwd k c) l)) * xw (ix2 p (col (Ring.bwd k c) l)) := by
    intro k
    rw [hcomm k p, pay3_apply]
    exact Finset.sum_congr rfl fun l _ => by rw [pay2_apply, Layout.block_apply, blk_idx]
  rw [Finset.sum_congr rfl fun k _ => h1 k]
  exact (Equiv.sum_comp (Ring.bwdAt c)
      (fun d : Dev Cert.KernelIdeal.nD => ∑ l : Fin 256, xw (ix2 p (col d l)) * xw (ix2 p (col d l)))).trans
    (sum_blocks (fun n => xw (ix2 p n) * xw (ix2 p n)))

/-- Block `c` of the reference's result, at `(p, q)`. -/
theorem refG_block (xw : XW) (gw : GW) (c : Dev Cert.KernelIdeal.nD) (p : Fin 512) (q : Fin 256) :
    (Layout.block ⟨2, ![512, 256]⟩ ⟨2, ![512, 2048]⟩ 1 8 c (RefG xw gw)) (ix2 p q)
      = Ideal.div ((Layout.block ⟨1, ![256]⟩ ⟨1, ![2048]⟩ 0 8 c gw) (ix1 q) * (Layout.block ⟨2, ![512, 256]⟩ ⟨2, ![512, 2048]⟩ 1 8 c xw) (ix2 p q))
          (Ideal.sqrt (Ideal.div (rowSq xw p) (Ideal.ofBits .f32 0x45000000#32) + Ideal.ofBits .f32 0x3727C5AC#32)) := by
  rw [Layout.block_apply, Layout.block_apply, Layout.block_apply, blk_idx]
  unfold RefG
  refine congrArg (fun t => Ideal.div (gw t * _) _) ?_
  exact funext fun a => Fin.ext (by match a with | ⟨0, _⟩ => rfl)

/-- Device `c`'s stored block is block `c` of the reference's result. -/
theorem bridge (xw : XW) (gw : GW) (c : Dev Cert.KernelIdeal.nD)
    (hfin : ∀ (d : Dev Cert.KernelIdeal.nD) i, ∃ r : ℝ, (Layout.block ⟨2, ![512, 256]⟩ ⟨2, ![512, 2048]⟩ 1 8 d xw) i = (r : EReal))
    (comm : FVec Ideal Cert.KernelIdeal.S8x512 .f32)
    (hcomm : ∀ (k : Fin 8) (r : Fin 512), comm (ValueIdx.ix2 k r) = Cert.KernelIdeal.Gen.k0_pay3 (F := Ideal) (Cert.KernelIdeal.Gen.k0_pay2 (Layout.block ⟨2, ![512, 256]⟩ ⟨2, ![512, 2048]⟩ 1 8 (Cert.KernelIdeal.Ring.bwd k c) xw)) (ValueIdx.ix2 0 r)) :
    Cert.KernelIdeal.Gen.k0_pay5 (F := Ideal) (Cert.KernelIdeal.Gen.k0_pay4 (Cert.KernelIdeal.Gen.k0_pay1 (Layout.block ⟨2, ![512, 256]⟩ ⟨2, ![512, 2048]⟩ 1 8 c xw)) (Layout.block ⟨1, ![256]⟩ ⟨1, ![2048]⟩ 0 8 c gw)) comm
      = Layout.block ⟨2, ![512, 256]⟩ ⟨2, ![512, 2048]⟩ 1 8 c (RefG xw gw) := by
  funext j
  obtain ⟨p, q, rfl⟩ : ∃ (p : Fin 512) (q : Fin 256), j = ix2 p q := ⟨j 0, j 1, eq_ix2 j⟩
  obtain ⟨S, hS0, hS⟩ := rowSq_real xw hfin p
  obtain ⟨e, he, heq⟩ := ofBits_eps
  rw [pay5_apply, pay4_apply, pay1_eq, total_eq xw c comm hcomm p, refG_block, hS, heq, ofBits_inv2048, ofBits_2048,
    norm_law S e hS0 he, mul_comm]

end Bridge

/-! ## Finiteness from the precondition -/

section Finite

instance : Subsingleton Cert.Pre_finite_inputs_Kernel.S_.Idx := ⟨fun a b => funext fun d => d.elim0⟩

/-- The pattern of `+∞` denotes `⊤`. -/
theorem ofBits_inf : Ideal.ofBits .f32 0x7F800000#32 = ⊤ := by
  simp [Ideal.ofBits, Ideal.ieee]

/-- A truth value's bit is `1` exactly when it is true. -/
theorem ofBool_eq_one {b : Bool} : BitVec.ofBool b = 1#1 ↔ b = true := by cases b <;> decide

/-- An extended real whose absolute value is below `⊤` is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of every device's block of `x` is a real. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S512x256.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs_Kernel.fn] at h0
  have h1 := (IntOp.andi_eq_one.1 h0).1
  have h2 := Host.reduce_andi_all _ _ _ _ _ h1 i
  rw [cmpf_apply, broadcastInDim_apply _ _ _ i ValueIdx.ix0 (fun a => a.elim0)] at h2
  refine real_of_abs_lt_top _ ?_
  change Ideal.cmp .olt (max _ (-_)) (Ideal.ofBits .f32 0x7F800000#32) = 1#1 at h2
  rw [ofBits_inf] at h2
  exact of_decide_eq_true (ofBool_eq_one.1 h2)

end Finite

/-- info: 'Cert.KernelIdeal.ValueBridge.bridge' depends on axioms: [propext, Classical.choice, Quot.sound] -/
#guard_msgs in #print axioms Cert.KernelIdeal.ValueBridge.bridge

end Cert.KernelIdeal.ValueBridge

end
-- ==== Proof.Sched.lean ====
import proofs.«901009_g7700000000001010_dist_rmsnorm_colshard_i_m512_n256_v7x_i8_f32_1_alg».proof.Proof.Ring
import proofs.«901009_g7700000000001010_dist_rmsnorm_colshard_i_m512_n256_v7x_i8_f32_1_alg».proof.Proof.Gen.KernelIdeal.Skeleton
import proofs.«901009_g7700000000001010_dist_rmsnorm_colshard_i_m512_n256_v7x_i8_f32_1_alg».proof.Proof.Gen.KernelIdeal.Launch
import proofs.«901009_g7700000000001010_dist_rmsnorm_colshard_i_m512_n256_v7x_i8_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

/-! # The all-gather of row sums: cells, rounds, and what each device holds

Every device `c` computes the 512 row sums of squares of its block of `x` into row 0 of an 8×512 scratch, tells
each of its seven peers (one unit on the peer's barrier semaphore) that it is inside the kernel, waits for the seven
units of its own barrier, copies row 0 into row `k` of the scratch of the device `k` places after it (`k = 1 … 7`),
waits for the seven copies that land in its own rows `1 … 7`, sums the eight rows and stores the normalised block.
So at the end row `k` of device `c`'s scratch holds the row sums of the device `k` places BEFORE `c`.

The protocol in rounds, one round per cell, duties named by `Fin 8`:
* the barrier cell of `c` has the seven duties `j = 1 … 7`, duty `j` one unit paid by the device `j` places before
  `c`; with it that device hands `c` the row of its own scratch that `c`'s copy will fill, and the fact that it has
  reached round 0 of the matching receive cell;
* receive cell `k` of `c` has one duty, the copy by the device `k` places before `c`; it hands `c` its row `k`
  holding that device's row sums;
* send cell `k` of `c` has one duty, the same copy read out of `c`'s row 0; it hands back the share of row 0 lent
  to it. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' copy (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, semaphores, cells -/

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0
abbrev cM : Memref sig .tc .vmem S8x512 .f32 := Memref.whole cc0_scratch0

theorem inbS (k : Fin 8) : ∀ a, (![k.val] : Fin 1 → Nat) a + S1.size a ≤ S8.size a := by revert k; decide
theorem inbR (k : Fin 8) : ∀ a, (![k.val, 0] : Fin 2 → Nat) a + S1x512.size a ≤ S8x512.size a := by revert k; decide

/-- Row `k` of the scratch, as the kernel's copies and waits name it. -/
def rowM (k : Fin 8) : Memref sig .tc .vmem S512 .f32 :=
  ((cM : Memref sig .tc .vmem S8x512 .f32).slice (Rect.unit (s := S8x512) ![k.val, 0] S1x512.size (inbR k)) (fun _ => rfl)).squeeze S512 squeezes_S1x512_S512

/-- The runtime's barrier semaphore of collective id 0; the `k`-th send and receive DMA semaphores. -/
abbrev barS : Sem sig := (SemArray.scalar (sig.barrier 0 rfl) : Sems sig S_).sem
def sendS (k : Fin 8) : DmaSem sig := ((cc0_scratch1.slice (Rect.unit (s := S8) ![k.val] S1.size (inbS k))).squeeze S_ squeezes_S1_S_).sem
def recvS (k : Fin 8) : DmaSem sig := ((cc0_scratch2.slice (Rect.unit (s := S8) ![k.val] S1.size (inbS k))).squeeze S_ squeezes_S1_S_).sem

theorem sendS_val (k : Fin 8) : (sendS k).val = 3 + k.val := by revert k; decide
theorem recvS_val (k : Fin 8) : (recvS k).val = 11 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The index of a DMA semaphore among the eight of its array. -/
def xk (q : DmaSem sig) : Fin 8 := ⟨(q.val + 5) % 8, Nat.mod_lt _ (by decide)⟩
theorem xk_sendS (k : Fin 8) : xk (sendS k) = k := by revert k; decide
theorem xk_recvS (k : Fin 8) : xk (recvS k) = k := by revert k; decide

/-- A device's seventeen cells as this proof indexes them: the barrier, send `0 … 7`, receive `0 … 7`
    (send 0 and receive 0 are never used and have no duty). -/
def csem (j : Fin 17) : SemLoc sig :=
  if j.val = 0 then .reg barS else if h : j.val ≤ 8 then .dma (sendS ⟨j.val - 1, by omega⟩) else .dma (recvS ⟨j.val - 9, by omega⟩)
def iB : Fin 17 := 0
def iS (k : Fin 8) : Fin 17 := ⟨1 + k.val, by omega⟩
def iR (k : Fin 8) : Fin 17 := ⟨9 + k.val, by omega⟩
theorem csem_iB : csem iB = .reg barS := rfl
theorem csem_iS (k : Fin 8) : csem (iS k) = .dma (sendS k) := by revert k; decide
theorem csem_iR (k : Fin 8) : csem (iR k) = .dma (recvS k) := by revert k; decide
abbrev kcell (cj : Dev nD × Fin 17) : GSem nD τ sig := ((cj.1 : Thread nD τ), csem cj.2)
/-- The kernel's OWN (scoped) semaphores, as the launch indexes them: the sixteen DMA semaphores of its two arrays. -/
def osem (j : Fin 16) : SemLoc sig := csem ⟨j.val + 1, by omega⟩

/-- The credit of one row's copy. -/
abbrev N : ℕ := (rowM 0).view.dmaCredit

/-! ## Contents -/

/-- Device `d`'s block of `x` and of `gamma` as staged. -/
def xstg (d : Dev nD) : (cc0_stg0_0 : Ref sig .tc).ty.Contents (Elt F) :=
  (win0_0.blk (0 : Fin 1)).view.read (Elt F) ((s₀ m ρ).mem ((d : Thread nD τ).loc main_arg0))
def gstg (d : Dev nD) : (cc0_stg1_0 : Ref sig .tc).ty.Contents (Elt F) :=
  (win0_1.blk (0 : Fin 1)).view.read (Elt F) ((s₀ m ρ).mem ((d : Thread nD τ).loc main_arg1))

/-- The 512 row sums of squares of device `d`'s block, as the 1×512 vector the kernel stores. -/
def rsum (d : Dev nD) : FVec F S1x512 .f32 := k0_pay3 (k0_pay2 (xstg m ρ d))

/-- A scratch every row of which is device `d`'s row sums (only one row of it is ever spoken of). -/
def rowsOf (d : Dev nD) : (cc0_scratch0 : Ref sig .tc).ty.Contents (Elt F) := fun i => rsum m ρ d (ValueIdx.ix2 0 (i 1))

/-- Device `c`'s scratch at the end: row `k` holds the row sums of the device `k` places before `c`. -/
def commFinal (c : Dev nD) : (cc0_scratch0 : Ref sig .tc).ty.Contents (Elt F) := fun i => rsum m ρ (bwd (i 0) c) (ValueIdx.ix2 0 (i 1))

/-- Device `c`'s result block. -/
def outAt (c : Dev nD) : (cc0_stg2_0 : Ref sig .tc).ty.Contents (Elt F) :=
  k0_pay5 (k0_pay4 (k0_pay1 (xstg m ρ c)) (gstg m ρ c)) (commFinal m ρ c)

/-- The shares of row 0: the device keeps the left half for its own read of the scratch; the right half is dealt to the
    seven copies, copy `k ≤ 6` taking the left half of what copies `1 … k - 1` left (`rst (k - 1)`), copy 7 all the rest. -/
def rst : ℕ → PosShare TreeShare
  | 0 => fullShare.right
  | n + 1 => (rst n).right
def shr (k : Fin 8) : PosShare TreeShare := if k.val = 7 then rst 6 else (rst (k.val - 1)).left

/-- Row `k` of device `c`'s scratch at share `q`, holding (on that row) what `f` holds there. -/
def rowPts (c : Dev nD) (k : Fin 8) (q : PosShare TreeShare) (f : Buf (Elt F) ((rowM k).view.loc (c : Thread nD τ))) : sProp 𝕄 :=
  (rowM k).view.loc (c : Thread nD τ) ↦[(rowM k).view.set]{q} f
/-- The whole scratch of device `c`. -/
def cPts (c : Dev nD) (f : Buf (Elt F) ((c : Thread nD τ).loc cc0_scratch0)) : sProp 𝕄 :=
  ((c : Thread nD τ).loc cc0_scratch0) ↦{fullShare} f

omit [FloatOps F] in
instance rowPts_storable (c : Dev nD) (k : Fin 8) (q) (f) : BI.Storable (upEmb : UEmb _ 𝕄) (rowPts (F := F) c k q f) := by unfold rowPts; infer_instance

/-! ## The schedule -/

/-- What the device `j` places before `c` hands `c` with its unit on `c`'s barrier: the row of its scratch that `c`'s copy
    fills (row `neg j`), and that it has reached round 0 of the receive cell of that row. -/
def barPay (c : Dev nD) (j : Fin 8) : sProp 𝕄 :=
  iprop((∃ f, rowPts (bwd j c) (neg j) fullShare f) ∗ reached ER (recvCell (bwd j c) (neg j)) 0)
/-- Receive cell `k` of `c`: row `k`, holding the row sums of the device `k` places before `c`. -/
def recvPay (c : Dev nD) (k : Fin 8) : sProp 𝕄 := rowPts c k fullShare (rowsOf m ρ (bwd k c))
/-- Send cell `k` of `c`: the share of row 0 lent to copy `k`, holding `c`'s own row sums. -/
def sendPay (c : Dev nD) (k : Fin 8) : sProp 𝕄 := rowPts c 0 (shr k) (rowsOf m ρ c)

abbrev IsBar (g : GSem nD τ sig) : Prop := g.1.2 = .tc ∧ g.2 = .reg barS
abbrev IsXfer (g : GSem nD τ sig) : Prop :=
  g.1.2 = .tc ∧ ∃ k : Fin 8, k ≠ 0 ∧ (g.2 = .dma (sendS k) ∨ g.2 = .dma (recvS k))

/-- One round, round 0. -/
def ringRd : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else N
  payload g _ d := match g.2 with
    | .reg s => if s = barS then barPay g.1.1 d else iprop(emp)
    | .dma q => if 11 ≤ q.val then recvPay m ρ g.1.1 (xk q) else if 3 ≤ q.val then sendPay m ρ g.1.1 (xk q) else iprop(emp)
  amount_pos g _ _ _ := by
    by_cases h : g.2 = .reg barS
    · rw [if_pos h]; exact Nat.one_pos
    · rw [if_neg h]; exact View.dmaCredit_pos _ (by decide)

/-! ## What each device owes at launch; the levels -/

def kk (n : ℕ) : Fin 8 := ⟨n % 8, Nat.mod_lt _ (by decide)⟩

/-- What device `c` still owes of its seven copies when the last `i` of them remain (copies `8 - i … 7`): the credit
    of the receive cell each lands on. Copy `8 - i` is the last summand, so the copies peel in program order. -/
def OwS (c : Dev nD) : ℕ → CellTallies nD τ sig Unit
  | 0 => 0
  | i + 1 => OwS c i + tallyAt (recvCell (fwd (kk (7 - i)) c) (kk (7 - i))) () N
/-- … and of its seven barrier units when the last `i` of them remain, all seven copies still owed. -/
def OwB (c : Dev nD) : ℕ → CellTallies nD τ sig Unit
  | 0 => OwS c 7
  | i + 1 => OwB c i + tallyAt (barCell (fwd (kk (7 - i)) c)) () 1
/-- What device `c` owes at launch. -/
def O₀ (c : Dev nD) : CellTallies nD τ sig Unit := OwB c 7

def L (g : GSem nD τ sig) : Finset Unit := if g.1.2 = .tc then {()} else ∅
/-- Barrier cells at 1, receive cells at 2, everything else (staging, send) at 0: a device waits on its barrier owing
    only receive credit, and on its staging, send and receive cells owing nothing or only what lies above. -/
def lv (g : GSem nD τ sig) (_ : Unit) : ℕ := match g.2 with
  | .reg s => if s = barS then 1 else 0
  | .dma q => if 11 ≤ q.val then 2 else 0

/-! ## The ghost state -/

/-- Seven of a family, `k = 1 … 7`; eight of it, `k = 0 … 7`. -/
def sep7 (Φ : Fin 8 → sProp 𝕄) : sProp 𝕄 := iprop(Φ 1 ∗ Φ 2 ∗ Φ 3 ∗ Φ 4 ∗ Φ 5 ∗ Φ 6 ∗ Φ 7)
def sep8 (Φ : Fin 8 → sProp 𝕄) : sProp 𝕄 := iprop(Φ 0 ∗ sep7 Φ)

/-- Every cell's invariant, under the names the launch allocated them at, and that round 0 of every cell is reached. -/
def records (K : Dev nD × Fin 17 → ℕ) : sProp 𝕄 :=
  iprop((bigSep Finset.univ fun cj : Dev nD × Fin 17 => cellInv ER (ringRd m ρ) (K cj) (kcell cj))
    ∗ bigSep Finset.univ fun cj : Dev nD × Fin 17 => reached ER (kcell cj) 0)

instance records_persistent (K : Dev nD × Fin 17 → ℕ) : BI.Persistent (records m ρ K) := by unfold records; infer_instance

/-- Device `c`'s positions at round 0 of its seventeen cells. -/
def positions (c : Dev nD) : sProp 𝕄 :=
  iprop(atPos ER (barCell c) 0 ∅ 0 ∗ sep8 (fun k => atPos ER (sendCell c k) 0 ∅ 0) ∗ sep8 (fun k => atPos ER (recvCell c k) 0 ∅ 0))
/-- The tokens of the duties device `c` PAYS: duty `k` of the barrier of the device `k` places after it, the one duty
    of that device's receive cell `k`, the one duty of its own send cell `k`. -/
def payToks (c : Dev nD) : sProp 𝕄 :=
  iprop(sep7 (fun k => dutyTok ER (barCell (fwd k c)) 0 k) ∗ sep7 (fun k => dutyTok ER (recvCell (fwd k c) k) 0 0)
    ∗ sep7 (fun k => dutyTok ER (sendCell c k) 0 0))

def ghost (K : Dev nD × Fin 17 → ℕ) (c : Dev nD) : sProp 𝕄 := iprop(records m ρ K ∗ positions c ∗ payToks c)

/-- What device `c`'s body starts from: the ghost state at some names, the credit of its barrier's seven units and of
    its seven receive cells, and the level facts. -/
def start (c : Dev nD) : sProp 𝕄 :=
  iprop((∃ K, ghost m ρ K c) ∗ cred (tallyAt (barCell c) () 7) ∗ sep7 (fun k => cred (tallyAt (recvCell c k) () N)) ∗ levAts L lv)

def Φ₀ (c : Dev nD) : sProp 𝕄 := iprop(start m ρ c ∗ ∃ f, cPts c f)
/-- After the point: the scratch whole again at its final contents, the sixteen OWN cells at zero, closed. -/
def Φ₁ (c : Dev nD) : sProp 𝕄 :=
  iprop(cPts c (commFinal m ρ c) ∗ sep8 (fun k => semVal (sendCell c k) 0) ∗ sep8 (fun k => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Proto
-- ==== Proof.Tables.lean ====
import proofs.«901009_g7700000000001010_dist_rmsnorm_colshard_i_m512_n256_v7x_i8_f32_1_alg».proof.Proof.Sched

/-! # The schedule's tables, cell by cell

Round 0 of a barrier cell has the seven unit duties `1 … 7`; round 0 of send cell `k` and of receive cell `k`
(`k ≠ 0`) the one duty `0` of a row's credit; no cell has a later round, and send 0 and receive 0 have none at all. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem N_pos : 0 < N := View.dmaCredit_pos _ (by decide)

section Sched
variable (c : Dev nD) (k : Fin 8)

theorem send_ne_bar : (SemLoc.dma (sendS k) : SemLoc sig) ≠ .reg barS := fun h => by cases h
theorem recv_ne_bar : (SemLoc.dma (recvS k) : SemLoc sig) ≠ .reg barS := fun h => by cases h
theorem not_bar_send : ¬ IsBar (sendCell c k) := fun h => send_ne_bar k h.2
theorem not_bar_recv : ¬ IsBar (recvCell c k) := fun h => recv_ne_bar k h.2
theorem sendS_inj {j k : Fin 8} (h : sendS j = sendS k) : j = k := by revert j k; decide
theorem recvS_inj {j k : Fin 8} (h : recvS j = recvS k) : j = k := by revert j k; decide
theorem sendS_ne_recvS (j k : Fin 8) : sendS j ≠ recvS k := by revert j k; decide

theorem duties_bar : (ringRd (F := F) m ρ).duties (barCell c) 0 = Finset.univ.erase 0 := by
  dsimp only [ringRd]; exact if_pos ⟨rfl, rfl, rfl⟩
theorem duties_send (hk : k ≠ 0) : (ringRd (F := F) m ρ).duties (sendCell c k) 0 = {0} := by
  dsimp only [ringRd]; rw [if_neg (fun h => not_bar_send c k h.2)]; exact if_pos ⟨rfl, rfl, k, hk, .inl rfl⟩
theorem duties_recv (hk : k ≠ 0) : (ringRd (F := F) m ρ).duties (recvCell c k) 0 = {0} := by
  dsimp only [ringRd]; rw [if_neg (fun h => not_bar_recv c k h.2)]; exact if_pos ⟨rfl, rfl, k, hk, .inr rfl⟩
theorem duties_send0 (r : ℕ) : (ringRd (F := F) m ρ).duties (sendCell c 0) r = ∅ := by
  dsimp only [ringRd]; rw [if_neg (fun h => not_bar_send c 0 h.2), if_neg]
  rintro ⟨-, -, j, hj, h | h⟩
  · exact hj (sendS_inj (SemLoc.dma.inj h)).symm
  · exact sendS_ne_recvS 0 j (SemLoc.dma.inj h)
theorem duties_recv0 (r : ℕ) : (ringRd (F := F) m ρ).duties (recvCell c 0) r = ∅ := by
  dsimp only [ringRd]; rw [if_neg (fun h => not_bar_recv c 0 h.2), if_neg]
  rintro ⟨-, -, j, hj, h | h⟩
  · exact sendS_ne_recvS j 0 (SemLoc.dma.inj h).symm
  · exact hj (recvS_inj (SemLoc.dma.inj h)).symm
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 8) : (ringRd (F := F) m ρ).amount (barCell c) 0 d = 1 := by dsimp only [ringRd]; exact if_pos rfl
theorem amount_send (d : Fin 8) : (ringRd (F := F) m ρ).amount (sendCell c k) 0 d = N := by dsimp only [ringRd]; exact if_neg (send_ne_bar k)
theorem amount_recv (d : Fin 8) : (ringRd (F := F) m ρ).amount (recvCell c k) 0 d = N := by dsimp only [ringRd]; exact if_neg (recv_ne_bar k)

theorem expect_bar : (ringRd (F := F) m ρ).expect (barCell c) 0 = 7 := by
  unfold Schedule.expect Schedule.amountOf
  rw [duties_bar, Finset.sum_congr rfl fun d _ => amount_bar m ρ c d, Finset.sum_const, smul_eq_mul, Nat.mul_one]
  decide
theorem expect_send (hk : k ≠ 0) : (ringRd (F := F) m ρ).expect (sendCell c k) 0 = N := by
  unfold Schedule.expect Schedule.amountOf; rw [duties_send m ρ c k hk, Finset.sum_singleton, amount_send]
theorem expect_recv (hk : k ≠ 0) : (ringRd (F := F) m ρ).expect (recvCell c k) 0 = N := by
  unfold Schedule.expect Schedule.amountOf; rw [duties_recv m ρ c k hk, Finset.sum_singleton, amount_recv]

theorem payload_bar (j : Fin 8) : (ringRd (F := F) m ρ).payload (barCell c) 0 j = barPay c j := by
  dsimp only [ringRd]; exact if_pos rfl
theorem payload_send (d : Fin 8) : (ringRd (F := F) m ρ).payload (sendCell c k) 0 d = sendPay m ρ c k := by
  dsimp only [ringRd]
  rw [if_neg (by rw [sendS_val]; omega), if_pos (by rw [sendS_val]; omega), xk_sendS]
theorem payload_recv (d : Fin 8) : (ringRd (F := F) m ρ).payload (recvCell c k) 0 d = recvPay m ρ c k := by
  dsimp only [ringRd]
  rw [if_pos (by rw [recvS_val]; omega), xk_recvS]

/-- The rest of the barrier cell's round, no duty taken: the seven peers' payloads. -/
theorem rest_bar : bigSep ((ringRd (F := F) m ρ).duties (barCell c) 0 \ ∅) (fun d => (ringRd (F := F) m ρ).payload (barCell c) 0 d)
    = sep7 (fun j => barPay (F := F) c j) := by
  rw [Finset.sdiff_empty, duties_bar, bigSep_eq_bigSepL_of_eq [(1 : Fin 8), 2, 3, 4, 5, 6, 7] (by decide) (by decide)]
  simp only [bigSepL_cons_cons, bigSepL_singleton, payload_bar]
  rfl
theorem rest_send (hk : k ≠ 0) : bigSep ((ringRd (F := F) m ρ).duties (sendCell c k) 0 \ ∅) (fun d => (ringRd (F := F) m ρ).payload (sendCell c k) 0 d)
    = sendPay m ρ c k := by
  rw [Finset.sdiff_empty, duties_send m ρ c k hk, bigSep_singleton, payload_send]
theorem rest_recv (hk : k ≠ 0) : bigSep ((ringRd (F := F) m ρ).duties (recvCell c k) 0 \ ∅) (fun d => (ringRd (F := F) m ρ).payload (recvCell c k) 0 d)
    = recvPay m ρ c k := by
  rw [Finset.sdiff_empty, duties_recv m ρ c k hk, bigSep_singleton, payload_recv]

end Sched

instance ringRd_payload_storable (g : GSem nD τ sig) (r : ℕ) (d : Fin 8) :
    BI.Storable (upEmb : UEmb _ 𝕄) ((ringRd (F := F) m ρ).payload g r d) := by
  dsimp only [ringRd]
  unfold barPay recvPay sendPay
  (repeat' split) <;> first | infer_instance | exact rowPts_storable _ _ _ _

end Cert.KernelIdeal.Proto
-- ==== Proof.Staged.lean ====
import proofs.«901009_g7700000000001010_dist_rmsnorm_colshard_i_m512_n256_v7x_i8_f32_1_alg».proof.Proof.Tables

/-! # The staged blocks are the arrays

Each of the two input windows covers its whole array at block index 0 on a grid of one point, so what is staged of
device `d`'s array is the array itself, entry by entry. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged block of `x` on device `d` is device `d`'s array `x`: the window's rectangle starts at `0 · size` on
    each axis and has the array's sizes, so an entry's place in the array is its place in the block. -/
theorem xstg_eq (d : Dev nD) : xstg m ρ d = m ((d : Thread nD τ).loc main_arg0) := by
  funext i
  show (win0_0.blk (0 : Fin 1)).view.read (Elt F) (m ((d : Thread nD τ).loc main_arg0)) i = _
  rw [View.read_apply]
  show m ((d : Thread nD τ).loc main_arg0) ((win0_0.blk (0 : Fin 1)).view.emb i) = _
  refine congrArg (m ((d : Thread nD τ).loc main_arg0)) (funext fun a => Fin.ext ?_)
  show 0 * S512x256.size a + 1 * (i a).val = (i a).val
  omega

/-- The staged block of `gamma` on device `d` is device `d`'s array `gamma`. -/
theorem gstg_eq (d : Dev nD) : gstg m ρ d = m ((d : Thread nD τ).loc main_arg1) := by
  funext i
  show (win0_1.blk (0 : Fin 1)).view.read (Elt F) (m ((d : Thread nD τ).loc main_arg1)) i = _
  rw [View.read_apply]
  show m ((d : Thread nD τ).loc main_arg1) ((win0_1.blk (0 : Fin 1)).view.emb i) = _
  refine congrArg (m ((d : Thread nD τ).loc main_arg1)) (funext fun a => Fin.ext ?_)
  show 0 * S256.size a + 1 * (i a).val = (i a).val
  omega

end Cert.KernelIdeal.Proto

end
-- ==== Proof.Rows.lean ====
import proofs.«901009_g7700000000001010_dist_rmsnorm_colshard_i_m512_n256_v7x_i8_f32_1_alg».proof.Proof.Tables
import Idealize.ShloMosaic.Lib.Pipeline.Value

/-! # The scratch by rows and by shares

The 8×512 scratch of a device is the disjoint union of its eight rows; a row's points-to depends only on what a
valuation holds on that row; row 0 is halved, the left half staying with the device, the right half dealt to the seven
copies. The lemmas below cut the scratch for the protocol and put it back together. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Row 0 of the scratch as the kernel's store names it, and the whole scratch as its last load names it. -/
abbrev r00 : Rect S8x512 := Rect.unit (s := S8x512) ![0, 0] S1x512.size inb_S8x512_S1x512_0_0
abbrev rAll : Rect S8x512 := Rect.unit (s := S8x512) ![0, 0] S8x512.size inb_S8x512_S8x512_0_0

/-! ## The rows' element sets; a row's points-to by valuation and by share -/

/-- The rectangle of row `k`. -/
abbrev rowR (k : Fin 8) : Rect S8x512 := Rect.unit (s := S8x512) ![k.val, 0] S1x512.size (inbR k)

/-- A row's element set is its rectangle's. -/
theorem rowM_set (k : Fin 8) : (rowM k).view.set = (rowR k).set :=
  (View.set_reshape _ _).trans (View.set_slice_whole cc0_scratch0 _)

/-- An element of the scratch lies in row `k` exactly when its first coordinate is `k`. -/
theorem mem_rowR (k : Fin 8) (i : S8x512.Idx) : i ∈ (rowR k).set ↔ (i 0).val = k.val := by
  rw [Rect.mem_set_unit]
  have h1 : (i 1).val < 512 := (i 1).isLt
  constructor
  · intro h
    have h0 := h 0
    change k.val ≤ (i 0).val ∧ (i 0).val < k.val + 1 at h0
    omega
  · intro h a
    fin_cases a
    · change k.val ≤ (i 0).val ∧ (i 0).val < k.val + 1; omega
    · change 0 ≤ (i 1).val ∧ (i 1).val < 0 + 512; omega

theorem rowR_disjoint {k k' : Fin 8} (h : k ≠ k') : Disjoint (rowR k).set (rowR k').set := by
  rw [Finset.disjoint_left]
  intro i hi hi'
  exact h (Fin.ext (((mem_rowR k i).mp hi).symm.trans ((mem_rowR k' i).mp hi')))

theorem rowR_cover : (Finset.univ : Finset (Fin 8)).biUnion (fun k => (rowR k).set) = (Finset.univ : Finset S8x512.Idx) := by
  ext i
  rw [Finset.mem_biUnion]
  exact ⟨fun _ => Finset.mem_univ i, fun _ => ⟨⟨(i 0).val, (i 0).isLt⟩, Finset.mem_univ _, (mem_rowR _ i).mpr rfl⟩⟩

/-- The whole scratch at a share is its eight rows at that share. -/
theorem scratch_rows (c : Dev nD) (q : PosShare TreeShare) (f : Buf (Elt F) ((c : Thread nD τ).loc cc0_scratch0)) :
    ((((c : Thread nD τ).loc cc0_scratch0) ↦{q} f) : sProp 𝕄) = sep8 (fun k => rowPts c k q f) := by
  have h := pointsTo_biUnion (nD := nD) (τ := τ) (sig := sig) (Ix := Unit) (Val := Elt F) (Name := ℕ) (U := UU) (Lvl := ℕ)
    (ℓ := (c : Thread nD τ).loc cc0_scratch0) (q := q) (f := f)
    (Finset.univ : Finset (Fin 8)) (fun k => (rowR k).set) (fun k _ k' _ hkk' => rowR_disjoint hkk')
  have hc : ((((c : Thread nD τ).loc cc0_scratch0) ↦{q} f) : sProp 𝕄)
      = (((c : Thread nD τ).loc cc0_scratch0) ↦[(Finset.univ : Finset (Fin 8)).biUnion (fun k => (rowR k).set)]{q} f) :=
    congrArg (fun S => ((((c : Thread nD τ).loc cc0_scratch0) ↦[S]{q} f) : sProp 𝕄)) rowR_cover.symm
  have hr : ∀ k : Fin 8, ((((c : Thread nD τ).loc cc0_scratch0) ↦[(rowR k).set]{q} f) : sProp 𝕄) = rowPts c k q f := fun k =>
    congrArg (fun S => ((((c : Thread nD τ).loc cc0_scratch0) ↦[S]{q} f) : sProp 𝕄)) (rowM_set k).symm
  rw [hc, h, bigSep_univ_eq_bigSepL [(0 : Fin 8), 1, 2, 3, 4, 5, 6, 7] (by decide) (by decide)]
  simp only [bigSepL_cons_cons, bigSepL_singleton, hr]
  rfl

theorem mem_row (k : Fin 8) (i : S8x512.Idx) : i ∈ (rowM k).view.set ↔ (i 0).val = k.val :=
  (rowM_set k).symm ▸ mem_rowR k i

theorem bwd_val_eq (c : Dev nD) (j k : Fin 8) (h : j.val = k.val) : bwd j c = bwd k c := by rw [Fin.ext h]
theorem bwd_val_zero (c : Dev nD) (j : Fin 8) (h : j.val = (0 : Fin 8).val) : bwd j c = c := by
  rw [bwd_val_eq c j 0 h, bwd_zero]

/-- A row's points-to depends only on what the valuation holds on that row. -/
theorem rowPts_congr (c : Dev nD) (k : Fin 8) (q : PosShare TreeShare) {f g : Buf (Elt F) ((rowM k).view.loc (c : Thread nD τ))}
    (h : ∀ i : S8x512.Idx, (i 0).val = k.val → f i = g i) : (rowPts c k q f : sProp 𝕄) = rowPts c k q g := by
  unfold rowPts
  exact pointsTo_congr fun i hi => h i ((mem_row k i).mp hi)

/-- A row at a share is its two halves. -/
theorem rowPts_halves (c : Dev nD) (k : Fin 8) (q : PosShare TreeShare) (f : Buf (Elt F) ((rowM k).view.loc (c : Thread nD τ))) :
    (rowPts c k q f : sProp 𝕄) = iprop(rowPts c k q.left f ∗ rowPts c k q.right f) := by
  unfold rowPts
  have hu := pointsTo_share (nD := nD) (τ := τ) (sig := sig) (Ix := Unit) (Val := Elt F) (Name := ℕ) (U := UU) (Lvl := ℕ)
    (ℓ := (rowM k).view.loc (c : Thread nD τ)) (I := (rowM k).view.set) (f := f) (PosShare.mem_left_op_right q)
  exact BI.equiv_iff.mp ⟨hu.1, hu.2⟩

/-- Row 0 at full share: the left half, and the right half dealt in seven. -/
theorem row0_shares (c : Dev nD) (g : Buf (Elt F) ((rowM 0).view.loc (c : Thread nD τ))) :
    (rowPts c 0 fullShare g : sProp 𝕄) = iprop(rowPts c 0 fullShare.left g ∗ sep7 (fun k => rowPts c 0 (shr k) g)) := by
  have hs := fun q => rowPts_halves (F := F) c 0 q g
  rw [hs fullShare, hs fullShare.right, hs fullShare.right.right, hs fullShare.right.right.right,
    hs fullShare.right.right.right.right, hs fullShare.right.right.right.right.right,
    hs fullShare.right.right.right.right.right.right]
  rfl

/-- Where an index of a row sits in the scratch. -/
theorem rowM_emb (k : Fin 8) (y : S512.Idx) : (rowM k).view.emb y = ValueIdx.ix2 k (y 0) := by
  show (rowR k).emb (Shape.reshapeEquiv squeezes_S1x512_S512.numel_eq y) = _
  rw [Shape.reshapeEquiv_cons_one]
  funext a; fin_cases a
  · exact Fin.ext (by show k.val + 1 * 0 = k.val; omega)
  · exact Fin.ext (by show 0 + 1 * (y 0).val = (y 0).val; omega)

/-- On row 0 the final contents are the device's own row sums; on row `k` those of the device `k` places before. -/
theorem row0_final (c : Dev nD) (q : PosShare TreeShare) :
    (rowPts c 0 q (rowsOf m ρ c) : sProp 𝕄) = rowPts c 0 q (commFinal m ρ c) :=
  rowPts_congr c 0 q fun i hi => by
    exact congrArg (fun d => rsum m ρ d (ValueIdx.ix2 0 (i 1))) (bwd_val_zero c (i 0) hi).symm
theorem rowk_final (c : Dev nD) (k : Fin 8) (q : PosShare TreeShare) :
    (rowPts c k q (rowsOf m ρ (bwd k c)) : sProp 𝕄) = rowPts c k q (commFinal m ρ c) :=
  rowPts_congr c k q fun i hi => by
    exact congrArg (fun d => rsum m ρ d (ValueIdx.ix2 0 (i 1))) (bwd_val_eq c (i 0) k hi).symm

/-! ## Cutting the scratch and putting it back -/

/-- At entry: the scratch cut into row 0 and rows 1 … 7. -/
theorem start_split (c : Dev nD) (f : Buf (Elt F) ((c : Thread nD τ).loc cc0_scratch0)) :
    (cPts c f : sProp 𝕄) ⊢ iprop(rowPts c 0 fullShare f ∗ sep7 (fun k => rowPts c k fullShare f)) := by
  unfold cPts
  rw [scratch_rows]
  exact Entails.refl _

/-- The store into row 0, and the load of row 0, touch only row 0. -/
theorem store_sub : ((cM : Memref sig .tc .vmem S8x512 .f32).access r00).setOn Finset.univ ⊆ (rowM 0).view.set := by
  rw [View.setOn_univ, rowM_set]
  exact (View.set_slice_whole cc0_scratch0 r00).subset
theorem load_sub0 : (cM : Memref sig .tc .vmem S8x512 .f32).view.setOn r00.toLoadRect.set ⊆ (rowM 0).view.set := by
  rw [rowM_set]
  show (r00.toLoadRect.set).map (Function.Embedding.refl _) ⊆ _
  rw [Finset.map_refl]
  exact Finset.Subset.refl _

/-- Row 0 after the store of device `c`'s row sums holds them, whatever the scratch held. -/
theorem stored_row0 (c : Dev nD) (f : Buf (Elt F) ((c : Thread nD τ).loc cc0_scratch0)) :
    (rowPts c 0 fullShare (((cM : Memref sig .tc .vmem S8x512 .f32).access r00).write (Elt F) f (rsum m ρ c) Finset.univ) : sProp 𝕄)
      = rowPts c 0 fullShare (rowsOf m ρ c) := by
  refine rowPts_congr c 0 fullShare fun i hi => ?_
  have he : ((cM : Memref sig .tc .vmem S8x512 .f32).access r00).emb (ValueIdx.ix2 (0 : Fin 1) (i 1)) = i := by
    funext a; fin_cases a
    · exact Fin.ext (by show 0 + 1 * 0 = (i 0).val; exact hi.symm)
    · exact Fin.ext (by show 0 + 1 * (i 1).val = (i 1).val; omega)
  have hw := View.write_emb_of_mem (v := ((cM : Memref sig .tc .vmem S8x512 .f32).access r00)) (Val := Elt F) f (rsum m ρ c)
    (M := Finset.univ) (x := ValueIdx.ix2 (0 : Fin 1) (i 1)) (Finset.mem_univ _)
  rw [he] at hw
  rw [hw]
  exact cast_eq _ _

/-- Row 0 halved: the left half stays, the right half is dealt to the seven send cells. -/
theorem row0_lend (c : Dev nD) :
    (rowPts c 0 fullShare (rowsOf m ρ c) : sProp 𝕄)
      ⊢ iprop(rowPts c 0 fullShare.left (rowsOf m ρ c) ∗ sep7 (fun k => sendPay m ρ c k)) := by
  exact Entails.of_eq (row0_shares c (rowsOf m ρ c))

/-- A row's copy credits its receive cell with the row's credit. -/
theorem amount_row (k j : Fin 8) : (rowM k).view.amount (SemLoc.dma (recvS j)) = N := by
  rfl

/-- Copy `k` of device `c` landed: row `k` of the device `k` places after `c`, rewritten by the copy of `c`'s row 0,
    is that device's receive payload. -/
theorem landing (c : Dev nD) (k : Fin 8) (fd : Buf (Elt F) ((rowM k).view.loc ((fwd k c : Dev nD) : Thread nD τ))) :
    ((rowM k).view.loc ((fwd k c : Dev nD) : Thread nD τ) ↦[(rowM k).view.set]{fullShare}
        ((rowM k).view.write (Elt F) fd ((rowM 0).view.read (Elt F) (rowsOf m ρ c)) Finset.univ) : sProp 𝕄)
      ⊢ recvPay m ρ (fwd k c) k := by
  unfold recvPay
  rw [bwd_fwd]
  refine Entails.of_eq (rowPts_congr (fwd k c) k fullShare fun i hi => ?_)
  have he : (rowM k).view.emb (ValueIdx.ix1 (i 1)) = i := by
    rw [rowM_emb]
    funext a; fin_cases a
    · exact Fin.ext hi.symm
    · rfl
  have hw := View.write_emb_of_mem (v := (rowM k).view) (Val := Elt F) fd ((rowM 0).view.read (Elt F) (rowsOf m ρ c))
    (M := Finset.univ) (x := ValueIdx.ix1 (i 1)) (Finset.mem_univ _)
  rw [he] at hw
  have h1 : ((rowM 0).view.emb (ValueIdx.ix1 (i 1))) (1 : Fin 2) = i 1 := by rw [rowM_emb]
  rw [hw]
  exact (cast_eq _ _).trans ((cast_eq _ _).trans (congrArg (fun j : Fin 512 => rsum m ρ c (ValueIdx.ix2 0 j)) h1))

/-- Before the read of the whole scratch: the left halves of all eight rows make the scratch at the left half share,
    at its final contents; the right halves of rows 1 … 7 are kept aside. -/
theorem load_prep (c : Dev nD) :
    iprop(rowPts c 0 fullShare.left (rowsOf m ρ c) ∗ sep7 (fun k => recvPay m ρ c k))
      ⊢ iprop((((c : Thread nD τ).loc cc0_scratch0) ↦{fullShare.left} commFinal m ρ c)
          ∗ sep7 (fun k => rowPts c k fullShare.right (commFinal m ρ c)) : sProp 𝕄) := by
  rw [scratch_rows, row0_final]
  simp only [sep8, sep7, recvPay, rowk_final]
  rw [rowPts_halves c 1 fullShare (commFinal m ρ c), rowPts_halves c 2 fullShare (commFinal m ρ c),
    rowPts_halves c 3 fullShare (commFinal m ρ c), rowPts_halves c 4 fullShare (commFinal m ρ c),
    rowPts_halves c 5 fullShare (commFinal m ρ c), rowPts_halves c 6 fullShare (commFinal m ρ c),
    rowPts_halves c 7 fullShare (commFinal m ρ c)]
  iintro ⟨H0, ⟨L1, R1⟩, ⟨L2, R2⟩, ⟨L3, R3⟩, ⟨L4, R4⟩, ⟨L5, R5⟩, ⟨L6, R6⟩, ⟨L7, R7⟩⟩
  iframe

/-- Reading the whole scratch reads its contents. -/
theorem read_all (f : (cc0_scratch0 : Ref sig .tc).ty.Contents (Elt F)) :
    (cM : Memref sig .tc .vmem S8x512 .f32).view.readAt (Elt F) rAll.toLoadRect f = f := by
  exact Memref.readAt_unit_zero (Elt F) cc0_scratch0 (off := ![0, 0]) (by funext a; fin_cases a <;> rfl) inb_S8x512_S8x512_0_0 f

/-- At the end: the left half of the scratch, the seven shares of row 0 back from the send cells, and the right halves
    of rows 1 … 7 make the whole scratch at its final contents. -/
theorem final_join (c : Dev nD) :
    iprop((((c : Thread nD τ).loc cc0_scratch0) ↦{fullShare.left} commFinal m ρ c)
        ∗ sep7 (fun k => sendPay m ρ c k) ∗ sep7 (fun k => rowPts c k fullShare.right (commFinal m ρ c)))
      ⊢ (cPts c (commFinal m ρ c) : sProp 𝕄) := by
  unfold cPts
  rw [scratch_rows c fullShare, scratch_rows c fullShare.left]
  simp only [sep8, sendPay]
  rw [← row0_final m ρ c fullShare, row0_shares c (rowsOf m ρ c), row0_final m ρ c fullShare.left]
  simp only [sep7]
  rw [rowPts_halves c 1 fullShare (commFinal m ρ c), rowPts_halves c 2 fullShare (commFinal m ρ c),
    rowPts_halves c 3 fullShare (commFinal m ρ c), rowPts_halves c 4 fullShare (commFinal m ρ c),
    rowPts_halves c 5 fullShare (commFinal m ρ c), rowPts_halves c 6 fullShare (commFinal m ρ c),
    rowPts_halves c 7 fullShare (commFinal m ρ c)]
  iintro ⟨⟨L0, L1, L2, L3, L4, L5, L6, L7⟩, ⟨S1, S2, S3, S4, S5, S6, S7⟩, R1, R2, R3, R4, R5, R6, R7⟩
  iframe

end Cert.KernelIdeal.Proto
-- ==== Proof.Body.lean ====
import proofs.«901009_g7700000000001010_dist_rmsnorm_colshard_i_m512_n256_v7x_i8_f32_1_alg».proof.Proof.Rows

/-! # One device's body

The body of device `c`, stepped once at a symbolic device: seven signals, the store of the row sums, the barrier
wait, seven copies, the seven receive waits, the read of the gathered rows, the store of the block, the seven send
waits. Each synchronising step is one rule of the rounds discipline at the cells of the protocol. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 17 → ℕ)

/-! ## Reading the records -/

theorem kcell_iS (c : Dev nD) (k : Fin 8) : kcell (c, iS k) = sendCell c k := by
  show ((c : Thread nD τ), csem (iS k)) = _; rw [csem_iS]
theorem kcell_iR (c : Dev nD) (k : Fin 8) : kcell (c, iR k) = recvCell c k := by
  show ((c : Thread nD τ), csem (iR k)) = _; rw [csem_iR]

theorem inv_at' (cj : Dev nD × Fin 17) :
    (bigSep Finset.univ fun cj : Dev nD × Fin 17 => (cellInv ER (ringRd m ρ) (K cj) (kcell cj) : sProp 𝕄)) ⊢ cellInv ER (ringRd m ρ) (K cj) (kcell cj) :=
  bigSep_elim (Finset.mem_univ cj)
theorem reached_at' (cj : Dev nD × Fin 17) :
    (bigSep Finset.univ fun cj : Dev nD × Fin 17 => (reached ER (kcell cj) 0 : sProp 𝕄)) ⊢ reached ER (kcell cj) 0 :=
  bigSep_elim (Finset.mem_univ cj)
theorem inv_at (cj : Dev nD × Fin 17) : records m ρ K ⊢ cellInv ER (ringRd m ρ) (K cj) (kcell cj) := by
  unfold records; iintro ⟨HI, -⟩; iapply (inv_at' m ρ K cj); iexact HI
theorem reached_at (cj : Dev nD × Fin 17) : records m ρ K ⊢ reached ER (kcell cj) 0 := by
  unfold records; iintro ⟨-, HR⟩; iapply (reached_at' (F := F) cj); iexact HR

theorem inv_bar (c : Dev nD) : records m ρ K ⊢ cellInv ER (ringRd m ρ) (K (c, iB)) (barCell c) := inv_at m ρ K (c, iB)
theorem inv_send (c : Dev nD) (k : Fin 8) : records m ρ K ⊢ cellInv ER (ringRd m ρ) (K (c, iS k)) (sendCell c k) :=
  (inv_at m ρ K (c, iS k)).trans (Entails.of_eq (by rw [kcell_iS]))
theorem inv_recv (c : Dev nD) (k : Fin 8) : records m ρ K ⊢ cellInv ER (ringRd m ρ) (K (c, iR k)) (recvCell c k) :=
  (inv_at m ρ K (c, iR k)).trans (Entails.of_eq (by rw [kcell_iR]))
theorem reached_bar (c : Dev nD) : records m ρ K ⊢ reached ER (barCell c) 0 := reached_at m ρ K (c, iB)
theorem reached_send (c : Dev nD) (k : Fin 8) : records m ρ K ⊢ reached ER (sendCell c k) 0 :=
  (reached_at m ρ K (c, iS k)).trans (Entails.of_eq (by rw [kcell_iS]))
theorem reached_recv (c : Dev nD) (k : Fin 8) : records m ρ K ⊢ reached ER (recvCell c k) 0 :=
  (reached_at m ρ K (c, iR k)).trans (Entails.of_eq (by rw [kcell_iR]))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 7) ∗ sep7 (fun k => cred (tallyAt (recvCell c k) () N)) ∗ levAts L lv ∗ ∃ f, cPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (gstg m ρ c) ∗ stg c cc0_stg2_0 (outAt m ρ c))

/-! ## The synchronising steps, at a symbolic shift `k` -/

theorem barPay_eq (c : Dev nD) (k : Fin 8) :
    (barPay (F := F) c (neg k)) = iprop((∃ f, rowPts (fwd k c) k fullShare f) ∗ reached ER (recvCell (fwd k c) k) 0) := by
  unfold barPay; rw [bwd_neg, neg_neg]

theorem credit_row (k : Fin 8) : (rowM k).view.dmaCredit = N := by revert k; decide

/-- Signal `k`: one unit on the barrier of the device `k` places after `c`, paying duty `k` there; with it go `c`'s row
    `neg k` (the row that device's copy will fill) and that `c` has reached round 0 of the receive cell of that row. -/
theorem wp_sig (c : Dev nD) (k : Fin 8) (hk : k ≠ 0) (n : Dev nD) (hn : n = fwd k c)
    {α : Type} {Q : α → sProp 𝕄} {kont : PUnit → Prog (TpuEff nD τ sig (Elt F) Λ₀ .tc) α}
    (O₁ O : CellTallies nD τ sig Unit) (hO : O₁ = O + tallyAt (barCell (fwd k c)) () 1) (W : Waits sig Unit) :
    iprop(records m ρ K ∗ owes (c : Thread nD τ) O₁ W ∗ dutyTok ER (barCell (fwd k c)) 0 k ∗ (∃ f, rowPts c (neg k) fullShare f))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((n : Dev nD) : Thread nD τ) barS (1#32 : BitVec 32).toNat) kont) Q) := by
  subst hn
  iintro ⟨#HR, HO, Htok, Hrow⟩
  iapply (Rounds.wp_signal 𝒱₀ ER (ringRd m ρ) (c : Thread nD τ) none (dst := ((fwd k c : Dev nD) : Thread nD τ)) (κ := K (fwd k c, iB))
      (d := k) (by rw [duties_bar]; exact Finset.mem_erase.mpr ⟨hk, Finset.mem_univ _⟩) ((amount_bar m ρ (fwd k c) k).trans (by decide)) () O hO)
    $$ [HO Htok Hrow]
  · isplitr; · iapply (inv_bar m ρ K (fwd k c)); iexact HR
    isplitl [HO]; · iexact HO
    isplitl [Htok]; · iexact Htok
    isplitl [Hrow]
    · rw [payload_bar]; unfold barPay; rw [bwd_fwd]
      isplitl [Hrow]; · iexact Hrow
      iapply (reached_recv m ρ K c (neg k)); iexact HR
    · iapply (reached_bar m ρ K (fwd k c)); iexact HR

/-- Copy `k`: `c`'s row 0 into row `k` of the device `k` places after it, paying the one duty of `c`'s send cell `k`
    (with the share of row 0 lent to it) and the one duty of that device's receive cell `k` (with its row `k` rewritten). -/
theorem wp_copy_k (c : Dev nD) (k : Fin 8) (hk : k ≠ 0) (n : Dev nD) (hn : n = fwd k c)
    {hsc : (rowM k : Memref sig (Dev.tc n : Thread nD τ).2.kind .vmem S512 .f32).view.ref.isScScratch = false}
    {hsrc : (rowM 0 : Memref sig .tc .vmem S512 .f32).view.WordExact} {hdst : (rowM k : Memref sig .tc .vmem S512 .f32).view.WordExact}
    {hsem : DmaTarget.Typed .vmem (.dma (recvS k)) (.remote (Dev.tc n : Thread nD τ) (rowM k : Memref sig .tc .vmem S512 .f32) (.dma (sendS k)) hsc)}
    {α : Type} {Q : α → sProp 𝕄} {kont : PUnit → Prog (TpuEff nD τ sig (Elt F) Λ₀ .tc) α}
    (fn : Buf (Elt F) ((rowM k).view.loc ((fwd k c : Dev nD) : Thread nD τ)))
    (O₁ O : CellTallies nD τ sig Unit) (hO : O₁ = O + tallyAt (recvCell (fwd k c) k) () N) (W : Waits sig Unit) :
    iprop(records m ρ K ∗ sendPay m ρ c k ∗ rowPts (fwd k c) k fullShare fn ∗ owes (c : Thread nD τ) O₁ W
        ∗ dutyTok ER (sendCell c k) 0 0 ∗ dutyTok ER (recvCell (fwd k c) k) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc n : Thread nD τ) (rowM k) (.dma (sendS k)) hsc) (.dma (recvS k)) hsrc hdst hsem) kont) Q) := by
  subst hn
  iintro ⟨#HR, Hsrc, Hdst, HO, Hts, Htr⟩
  unfold sendPay rowPts
  iapply (Rounds.wp_send_pointsTo 𝒱₀ ER (ringRd m ρ) (c : Thread nD τ) none (κ₁ := K (c, iS k)) (κ₂ := K (fwd k c, iR k))
      (r₁ := 0) (r₂ := 0) (d₁ := 0) (d₂ := 0) (fd := fn)
      (by rw [duties_send m ρ c k hk]; exact Finset.mem_singleton_self _) (by rw [duties_recv m ρ (fwd k c) k hk]; exact Finset.mem_singleton_self _)
      () () N (amount_row k k) (amount_send m ρ c k 0) (amount_recv m ρ (fwd k c) k 0) O hO (W := W)
      (by rw [payload_send]; exact BI.Entails.refl _)
      (by rw [payload_recv]; exact landing m ρ c k fn)) $$ [Hsrc Hdst HO Hts Htr]
  isplitr; · iapply (inv_send m ρ K c k); iexact HR
  isplitr; · iapply (inv_recv m ρ K (fwd k c) k); iexact HR
  isplitl [Hsrc]; · iexact Hsrc
  isplitl [Hdst]; · iexact Hdst
  isplitl [HO]; · iexact HO
  isplitl [Hts]; · iexact Hts
  isplitr; · iapply (reached_send m ρ K c k); iexact HR
  isplitl [Htr]; · iexact Htr
  iapply (reached_recv m ρ K (fwd k c) k); iexact HR

/-- The wait on receive cell `k`, owing nothing: row `k` comes back holding the row sums of the device `k` places before `c`. -/
theorem wp_recvwait (c : Dev nD) (k : Fin 8) (hk : k ≠ 0) {src : Memref sig .tc .vmem S512 .f32}
    {hsrc : src.view.WordExact} {hdst : (rowM k : Memref sig .tc .vmem S512 .f32).view.WordExact}
    {α : Type} {Q : α → sProp 𝕄} {kont : PUnit → Prog (TpuEff nD τ sig (Elt F) Λ₀ .tc) α} (W : Waits sig Unit) :
    iprop(records m ρ K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ recvPay m ρ c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k) src (rowM k) hsrc hdst) kont) Q) := by
  iintro ⟨#HR, Hc, HO, Hat⟩ Hk
  iapply (Rounds.wp_wait_rest_token 𝒱₀ ER (ringRd m ρ) (c : Thread nD τ) none (κ := K (c, iR k))
      (wpE_waitDma2_eq 𝒱₀ (c : Thread nD τ) none Set.univ) (Set.mem_univ _) () (O := 0) (W := W) (R := 0) (m := 0) (T := ∅)
      (by rw [Nat.zero_add, expect_recv m ρ c k hk, credit_row])) $$ [Hc HO Hat]
  · isplitr; · iapply (inv_recv m ρ K c k); iexact HR
    isplitl [Hc]; · rw [credit_row]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m ρ c k hk)); iexact Hpay

/-- The wait on send cell `k`, owing nothing: the share of row 0 lent to copy `k` comes back. -/
theorem wp_sendwait (c : Dev nD) (k : Fin 8) (hk : k ≠ 0) {src : Memref sig .tc .vmem S512 .f32}
    {hsrc : src.view.WordExact} {hdst : (rowM 0 : Memref sig .tc .vmem S512 .f32).view.WordExact}
    {α : Type} {Q : α → sProp 𝕄} {kont : PUnit → Prog (TpuEff nD τ sig (Elt F) Λ₀ .tc) α} (W : Waits sig Unit) :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ atPos ER (sendCell c k) 1 ∅ 0 ∗ sendPay m ρ c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k) src (rowM 0) hsrc hdst) kont) Q) := by
  iintro ⟨#HR, Hc, HO, Hat⟩ Hk
  iapply (Rounds.wp_wait_rest_token 𝒱₀ ER (ringRd m ρ) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_send m ρ c k hk])) $$ [Hc HO Hat]
  · isplitr; · iapply (inv_send m ρ K c k); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c k hk)); iexact Hpay

/-- An own cell with no duty from round `R` on, nothing of that round taken, closes: its counter at zero is the core's again. -/
theorem close_send (c : Dev nD) (k : Fin 8) (R : ℕ) (hR : ∀ r, R ≤ r → (ringRd (F := F) m ρ).duties (sendCell c k) r = ∅) :
    iprop(records m ρ K ∗ atPos ER (sendCell c k) R ∅ 0) ⊢ iprop(|={Set.univ}=> semVal (sendCell c k) 0) := by
  iintro ⟨#HR, Hat⟩
  iapply (Rounds.cell_close ER (ringRd m ρ) (Set.mem_univ (K (c, iS k))) (fun h => h) (R := R) hR)
  isplitr; · iapply (inv_send m ρ K c k); iexact HR
  iexact Hat
theorem close_recv (c : Dev nD) (k : Fin 8) (R : ℕ) (hR : ∀ r, R ≤ r → (ringRd (F := F) m ρ).duties (recvCell c k) r = ∅) :
    iprop(records m ρ K ∗ atPos ER (recvCell c k) R ∅ 0) ⊢ iprop(|={Set.univ}=> semVal (recvCell c k) 0) := by
  iintro ⟨#HR, Hat⟩
  iapply (Rounds.cell_close ER (ringRd m ρ) (Set.mem_univ (K (c, iR k))) (fun h => h) (R := R) hR)
  isplitr; · iapply (inv_recv m ρ K c k); iexact HR
  iexact Hat

/-! ## Local steps on row 0 and on the staged blocks -/

abbrev rX : Rect S512x256 := Rect.unit (s := S512x256) ![0, 0] S512x256.size inb_S512x256_S512x256_0_0
abbrev rG : Rect S256 := Rect.unit (s := S256) ![0] S256.size inb_S256_S256_0

theorem hz2 : (![0, 0] : Fin 2 → Nat) = fun _ => 0 := funext fun a => by fin_cases a <;> rfl
theorem hz1 : (![0] : Fin 1 → Nat) = fun _ => 0 := funext fun a => by fin_cases a; rfl
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
theorem read_g (f : (cc0_stg1_0 : Ref sig .tc).ty.Contents (Elt F)) : (gM : Memref sig .tc .vmem S256 .f32).view.readAt (Elt F) rG.toLoadRect f = f :=
  Memref.readAt_unit_zero (Elt F) cc0_stg1_0 hz1 _ f
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-- The kernel's (unused) load of row 0 and its store of the row sums into row 0, holding row 0 alone. -/
theorem row0_load (c : Dev nD) (f : Buf (Elt F) ((c : Thread nD τ).loc cc0_scratch0)) {hl : (cM : Memref sig .tc .vmem S8x512 .f32).view.LoadsAt r00.toLoadRect}
    {α : Type} {Q : α → sProp 𝕄} {kont : (r00.toLoadRect.shape.Idx → Elt F .f32) → Prog (TpuEff nD τ sig (Elt F) Λ₀ .tc) α} :
    (rowPts c 0 fullShare f : sProp 𝕄)
      ⊢ iprop((rowPts c 0 fullShare f -∗ wp frame (wpE (defs₀ (F := F)) 𝒱₀ (c : Thread nD τ) none) Set.univ
            (kont ((cM : Memref sig .tc .vmem S8x512 .f32).view.readAt (Elt F) r00.toLoadRect f)) Q)
          -∗ wp frame (wpE (defs₀ (F := F)) 𝒱₀ (c : Thread nD τ) none) Set.univ (.op (.load cM r00.toLoadRect hl) kont) Q) := by
  unfold rowPts
  exact wp_load 𝒱₀ (c : Thread nD τ) none Set.univ (m := cM) (S := (rowM 0).view.set) load_sub0
theorem row0_store (c : Dev nD) (f : Buf (Elt F) ((c : Thread nD τ).loc cc0_scratch0)) (w : r00.shape.Idx → Elt F .f32)
    {hx : ((cM : Memref sig .tc .vmem S8x512 .f32).access r00).Stores Finset.univ} {hm : (Finset.univ : Finset r00.shape.Idx) = Finset.univ ∨ ∀ a, r00.stride a = 1}
    {α : Type} {Q : α → sProp 𝕄} {kont : PUnit → Prog (TpuEff nD τ sig (Elt F) Λ₀ .tc) α} :
    (rowPts c 0 fullShare f : sProp 𝕄)
      ⊢ iprop((rowPts c 0 fullShare (((cM : Memref sig .tc .vmem S8x512 .f32).access r00).write (Elt F) f w Finset.univ)
            -∗ wp frame (wpE (defs₀ (F := F)) 𝒱₀ (c : Thread nD τ) none) Set.univ (kont ⟨⟩) Q)
          -∗ wp frame (wpE (defs₀ (F := F)) 𝒱₀ (c : Thread nD τ) none) Set.univ (.op (.store cM r00 w Finset.univ hx hm) kont) Q) := by
  unfold rowPts
  exact wp_store 𝒱₀ (c : Thread nD τ) none Set.univ (m := cM) (r := r00) (Mk := Finset.univ) (S := (rowM 0).view.set) store_sub

/-- Row 0 after the store of the row sums, the stored vector spelt as the body computes it. -/
theorem stored_row0' (c : Dev nD) (f : Buf (Elt F) ((c : Thread nD τ).loc cc0_scratch0)) :
    (rowPts c 0 fullShare (((cM : Memref sig .tc .vmem S8x512 .f32).access r00).write (Elt F) f (k0_pay3 (k0_pay2 (xstg m ρ c))) Finset.univ) : sProp 𝕄)
      = rowPts c 0 fullShare (rowsOf m ρ c) := stored_row0 m ρ c f

/-! ## The levels at the barrier wait -/

theorem L_tc (c : Dev nD) (sm : SemLoc sig) : L ((c : Thread nD τ), sm) = {()} := if_pos rfl

/-- Whatever is still owed of the copies is owed to a receive cell. -/
theorem OwS_pos {c : Dev nD} {i : ℕ} {g : GSem nD τ sig} {u : Unit} (h : 0 < OwS c i g u) : ∃ k : Fin 8, g = recvCell (fwd k c) k := by
  induction i with
  | zero => exact absurd h (Nat.lt_irrefl 0)
  | succ i ih =>
    unfold OwS at h
    rw [Pi.add_apply, Finsupp.add_apply, tallyAt_apply] at h
    by_cases hg : g = recvCell (fwd (kk (7 - i)) c) (kk (7 - i)) ∧ u = ()
    · exact ⟨_, hg.1⟩
    · rw [if_neg hg, Nat.add_zero] at h; exact ih h

/-- At its barrier wait a device owes receive credit only: receive cells lie above barrier cells. -/
theorem mayWait_bar (c : Dev nD) : (levAts L lv : sProp 𝕄) ⊢ MayWait (c : Thread nD τ) (.reg barS) () (OwS c 7) :=
  MayOwe.of_cut (L := L) (lev := lv) 1 (fun p hp => by rw [Finset.mem_singleton.mp hp, L_tc]; exact Finset.mem_singleton_self _)
    (fun g u hg => by obtain ⟨k, rfl⟩ := OwS_pos hg; rw [L_tc]; exact Finset.mem_singleton_self _)
    (fun p hp => by rw [Finset.mem_singleton.mp hp]; dsimp only [lv]; rw [if_pos rfl])
    (fun g u hg => by obtain ⟨k, rfl⟩ := OwS_pos hg; dsimp only [lv]; rw [if_pos (by rw [recvS_val]; omega)]; decide)

/-! ## The body -/

set_option maxHeartbeats 4000000 in
set_option maxRecDepth 65536 in
/-- The body, stepped from `bodyPre` in program order to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c]
  unfold bodyPre ghost positions payToks sep8 sep7
  iintro ⟨⟨⟨⟨#HR, ⟨HaB, ⟨HaS0, HaS1, HaS2, HaS3, HaS4, HaS5, HaS6, HaS7⟩, ⟨HaR0, HaR1, HaR2, HaR3, HaR4, HaR5, HaR6, HaR7⟩⟩, ⟨⟨HtB1, HtB2, HtB3, HtB4, HtB5, HtB6, HtB7⟩, ⟨HtR1, HtR2, HtR3, HtR4, HtR5, HtR6, HtR7⟩, ⟨HtS1, HtS2, HtS3, HtS4, HtS5, HtS6, HtS7⟩⟩⟩, HcB, ⟨HcR1, HcR2, HcR3, HcR4, HcR5, HcR6, HcR7⟩, #Hlev, ⟨%f0, Hscr⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch0_0 t₀)]; rfl
  have hgm : g1 = gstg m ρ c := by rw [hg1]; unfold Dat.before; rw [if_pos (fetch0_1 t₀)]; rfl
  subst hx; subst hgm
  unfold Dat.owesAt Pipeline.owesWithin
  icases Ho with ⟨%W, %hW, HO⟩
  rw [show (dats m ρ 0 c).owed t₀.castSucc = OwB c 7 from rfl]
  -- the scratch cut into its rows
  ihave Hrows := (start_split c f0) $$ Hscr
  unfold sep7
  icases Hrows with ⟨Hr0, Hr1, Hr2, Hr3, Hr4, Hr5, Hr6, Hr7⟩
  -- signal 1: to the device 1 after, with row 7
  iapply (wp_sig m ρ K c 1 (by decide) _ rfl (OwB c 7) (OwB c 6) rfl _) $$ [HO HtB1 Hr7]
  · isplitr; · iexact HR
    isplitl [HO]; · iexact HO
    isplitl [HtB1]; · iexact HtB1
    iexists f0; iexact Hr7
  iintro HO
  -- signal 2: to the device 2 after, with row 6
  iapply (wp_sig m ρ K c 2 (by decide) _ rfl (OwB c 6) (OwB c 5) rfl _) $$ [HO HtB2 Hr6]
  · isplitr; · iexact HR
    isplitl [HO]; · iexact HO
    isplitl [HtB2]; · iexact HtB2
    iexists f0; iexact Hr6
  iintro HO
  -- signal 3: to the device 3 after, with row 5
  iapply (wp_sig m ρ K c 3 (by decide) _ rfl (OwB c 5) (OwB c 4) rfl _) $$ [HO HtB3 Hr5]
  · isplitr; · iexact HR
    isplitl [HO]; · iexact HO
    isplitl [HtB3]; · iexact HtB3
    iexists f0; iexact Hr5
  iintro HO
  -- signal 4: to the device 4 after, with row 4
  iapply (wp_sig m ρ K c 4 (by decide) _ rfl (OwB c 4) (OwB c 3) rfl _) $$ [HO HtB4 Hr4]
  · isplitr; · iexact HR
    isplitl [HO]; · iexact HO
    isplitl [HtB4]; · iexact HtB4
    iexists f0; iexact Hr4
  iintro HO
  -- signal 5: to the device 5 after, with row 3
  iapply (wp_sig m ρ K c 5 (by decide) _ rfl (OwB c 3) (OwB c 2) rfl _) $$ [HO HtB5 Hr3]
  · isplitr; · iexact HR
    isplitl [HO]; · iexact HO
    isplitl [HtB5]; · iexact HtB5
    iexists f0; iexact Hr3
  iintro HO
  -- signal 6: to the device 6 after, with row 2
  iapply (wp_sig m ρ K c 6 (by decide) _ rfl (OwB c 2) (OwB c 1) rfl _) $$ [HO HtB6 Hr2]
  · isplitr; · iexact HR
    isplitl [HO]; · iexact HO
    isplitl [HtB6]; · iexact HtB6
    iexists f0; iexact Hr2
  iintro HO
  -- signal 7: to the device 7 after, with row 1
  iapply (wp_sig m ρ K c 7 (by decide) _ rfl (OwB c 1) (OwB c 0) rfl _) $$ [HO HtB7 Hr1]
  · isplitr; · iexact HR
    isplitl [HO]; · iexact HO
    isplitl [HtB7]; · iexact HtB7
    iexists f0; iexact Hr1
  iintro HO
  -- the block of x, the (unused) read of row 0, the row sums into row 0
  iapply (wp_load 𝒱₀ (c : Thread nD τ) none Set.univ (m := xM) (Finset.subset_univ _)) $$ Hx; iintro Hx
  rw [read_x]
  iapply (row0_load c f0) $$ Hr0; iintro Hr0
  iapply (row0_store c f0 _) $$ Hr0; iintro Hr0
  ihave Hr0s := (Entails.of_eq (stored_row0' m ρ c f0)) $$ Hr0
  ihave Hl := (row0_lend m ρ c) $$ Hr0s
  unfold sep7
  icases Hl with ⟨Hr0L, Hs1, Hs2, Hs3, Hs4, Hs5, Hs6, Hs7⟩
  -- the barrier wait, owing the seven copies
  iapply (Rounds.wp_wait_rest_token 𝒱₀ ER (ringRd m ρ) (c : Thread nD τ) none (κ := K (c, iB))
      (wpE_semWait_eq 𝒱₀ (c : Thread nD τ) none Set.univ) (Set.mem_univ _) () (O := OwS c 7) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold sep7
  icases Hp with ⟨Hb1, Hb2, Hb3, Hb4, Hb5, Hb6, Hb7⟩
  -- copy 1: into row 1 of the device 1 after
  ihave Hd := (show ((fun j => barPay (F := F) c j) 7 : sProp 𝕄) ⊢ iprop((∃ f, rowPts (fwd 1 c) 1 fullShare f) ∗ reached ER (recvCell (fwd 1 c) 1) 0)
      from Entails.of_eq (barPay_eq c 1)) $$ Hb7
  icases Hd with ⟨⟨%fn1, Hn1⟩, -⟩
  iapply (wp_copy_k m ρ K c 1 (by decide) _ (dev8_eq c) fn1 (OwS c 7) (OwS c 6) rfl _) $$ [Hs1 Hn1 HO HtS1 HtR1]
  · isplitr; · iexact HR
    isplitl [Hs1]; · iexact Hs1
    isplitl [Hn1]; · iexact Hn1
    isplitl [HO]; · iexact HO
    isplitl [HtS1]; · iexact HtS1
    iexact HtR1
  iintro ⟨HcS1, HO⟩
  -- copy 2: into row 2 of the device 2 after
  ihave Hd := (show ((fun j => barPay (F := F) c j) 6 : sProp 𝕄) ⊢ iprop((∃ f, rowPts (fwd 2 c) 2 fullShare f) ∗ reached ER (recvCell (fwd 2 c) 2) 0)
      from Entails.of_eq (barPay_eq c 2)) $$ Hb6
  icases Hd with ⟨⟨%fn2, Hn2⟩, -⟩
  iapply (wp_copy_k m ρ K c 2 (by decide) _ (dev9_eq c) fn2 (OwS c 6) (OwS c 5) rfl _) $$ [Hs2 Hn2 HO HtS2 HtR2]
  · isplitr; · iexact HR
    isplitl [Hs2]; · iexact Hs2
    isplitl [Hn2]; · iexact Hn2
    isplitl [HO]; · iexact HO
    isplitl [HtS2]; · iexact HtS2
    iexact HtR2
  iintro ⟨HcS2, HO⟩
  -- copy 3: into row 3 of the device 3 after
  ihave Hd := (show ((fun j => barPay (F := F) c j) 5 : sProp 𝕄) ⊢ iprop((∃ f, rowPts (fwd 3 c) 3 fullShare f) ∗ reached ER (recvCell (fwd 3 c) 3) 0)
      from Entails.of_eq (barPay_eq c 3)) $$ Hb5
  icases Hd with ⟨⟨%fn3, Hn3⟩, -⟩
  iapply (wp_copy_k m ρ K c 3 (by decide) _ (dev10_eq c) fn3 (OwS c 5) (OwS c 4) rfl _) $$ [Hs3 Hn3 HO HtS3 HtR3]
  · isplitr; · iexact HR
    isplitl [Hs3]; · iexact Hs3
    isplitl [Hn3]; · iexact Hn3
    isplitl [HO]; · iexact HO
    isplitl [HtS3]; · iexact HtS3
    iexact HtR3
  iintro ⟨HcS3, HO⟩
  -- copy 4: into row 4 of the device 4 after
  ihave Hd := (show ((fun j => barPay (F := F) c j) 4 : sProp 𝕄) ⊢ iprop((∃ f, rowPts (fwd 4 c) 4 fullShare f) ∗ reached ER (recvCell (fwd 4 c) 4) 0)
      from Entails.of_eq (barPay_eq c 4)) $$ Hb4
  icases Hd with ⟨⟨%fn4, Hn4⟩, -⟩
  iapply (wp_copy_k m ρ K c 4 (by decide) _ (dev11_eq c) fn4 (OwS c 4) (OwS c 3) rfl _) $$ [Hs4 Hn4 HO HtS4 HtR4]
  · isplitr; · iexact HR
    isplitl [Hs4]; · iexact Hs4
    isplitl [Hn4]; · iexact Hn4
    isplitl [HO]; · iexact HO
    isplitl [HtS4]; · iexact HtS4
    iexact HtR4
  iintro ⟨HcS4, HO⟩
  -- copy 5: into row 5 of the device 5 after
  ihave Hd := (show ((fun j => barPay (F := F) c j) 3 : sProp 𝕄) ⊢ iprop((∃ f, rowPts (fwd 5 c) 5 fullShare f) ∗ reached ER (recvCell (fwd 5 c) 5) 0)
      from Entails.of_eq (barPay_eq c 5)) $$ Hb3
  icases Hd with ⟨⟨%fn5, Hn5⟩, -⟩
  iapply (wp_copy_k m ρ K c 5 (by decide) _ (dev12_eq c) fn5 (OwS c 3) (OwS c 2) rfl _) $$ [Hs5 Hn5 HO HtS5 HtR5]
  · isplitr; · iexact HR
    isplitl [Hs5]; · iexact Hs5
    isplitl [Hn5]; · iexact Hn5
    isplitl [HO]; · iexact HO
    isplitl [HtS5]; · iexact HtS5
    iexact HtR5
  iintro ⟨HcS5, HO⟩
  -- copy 6: into row 6 of the device 6 after
  ihave Hd := (show ((fun j => barPay (F := F) c j) 2 : sProp 𝕄) ⊢ iprop((∃ f, rowPts (fwd 6 c) 6 fullShare f) ∗ reached ER (recvCell (fwd 6 c) 6) 0)
      from Entails.of_eq (barPay_eq c 6)) $$ Hb2
  icases Hd with ⟨⟨%fn6, Hn6⟩, -⟩
  iapply (wp_copy_k m ρ K c 6 (by decide) _ (dev13_eq c) fn6 (OwS c 2) (OwS c 1) rfl _) $$ [Hs6 Hn6 HO HtS6 HtR6]
  · isplitr; · iexact HR
    isplitl [Hs6]; · iexact Hs6
    isplitl [Hn6]; · iexact Hn6
    isplitl [HO]; · iexact HO
    isplitl [HtS6]; · iexact HtS6
    iexact HtR6
  iintro ⟨HcS6, HO⟩
  -- copy 7: into row 7 of the device 7 after
  ihave Hd := (show ((fun j => barPay (F := F) c j) 1 : sProp 𝕄) ⊢ iprop((∃ f, rowPts (fwd 7 c) 7 fullShare f) ∗ reached ER (recvCell (fwd 7 c) 7) 0)
      from Entails.of_eq (barPay_eq c 7)) $$ Hb1
  icases Hd with ⟨⟨%fn7, Hn7⟩, -⟩
  iapply (wp_copy_k m ρ K c 7 (by decide) _ (dev14_eq c) fn7 (OwS c 1) (OwS c 0) rfl _) $$ [Hs7 Hn7 HO HtS7 HtR7]
  · isplitr; · iexact HR
    isplitl [Hs7]; · iexact Hs7
    isplitl [Hn7]; · iexact Hn7
    isplitl [HO]; · iexact HO
    isplitl [HtS7]; · iexact HtS7
    iexact HtR7
  iintro ⟨HcS7, HO⟩
  -- the block of gamma
  iapply (wp_load 𝒱₀ (c : Thread nD τ) none Set.univ (m := gM) (Finset.subset_univ _)) $$ Hg; iintro Hg
  rw [read_g]
  -- the wait on receive cell 1
  iapply (wp_recvwait m ρ K c 1 (by decide) _) $$ [HcR1 HO HaR1]
  · isplitr; · iexact HR
    isplitl [HcR1]; · iexact HcR1
    isplitl [HO]; · iexact HO
    iexact HaR1
  iintro ⟨HO, HaR1, Hp1⟩
  -- the wait on receive cell 2
  iapply (wp_recvwait m ρ K c 2 (by decide) _) $$ [HcR2 HO HaR2]
  · isplitr; · iexact HR
    isplitl [HcR2]; · iexact HcR2
    isplitl [HO]; · iexact HO
    iexact HaR2
  iintro ⟨HO, HaR2, Hp2⟩
  -- the wait on receive cell 3
  iapply (wp_recvwait m ρ K c 3 (by decide) _) $$ [HcR3 HO HaR3]
  · isplitr; · iexact HR
    isplitl [HcR3]; · iexact HcR3
    isplitl [HO]; · iexact HO
    iexact HaR3
  iintro ⟨HO, HaR3, Hp3⟩
  -- the wait on receive cell 4
  iapply (wp_recvwait m ρ K c 4 (by decide) _) $$ [HcR4 HO HaR4]
  · isplitr; · iexact HR
    isplitl [HcR4]; · iexact HcR4
    isplitl [HO]; · iexact HO
    iexact HaR4
  iintro ⟨HO, HaR4, Hp4⟩
  -- the wait on receive cell 5
  iapply (wp_recvwait m ρ K c 5 (by decide) _) $$ [HcR5 HO HaR5]
  · isplitr; · iexact HR
    isplitl [HcR5]; · iexact HcR5
    isplitl [HO]; · iexact HO
    iexact HaR5
  iintro ⟨HO, HaR5, Hp5⟩
  -- the wait on receive cell 6
  iapply (wp_recvwait m ρ K c 6 (by decide) _) $$ [HcR6 HO HaR6]
  · isplitr; · iexact HR
    isplitl [HcR6]; · iexact HcR6
    isplitl [HO]; · iexact HO
    iexact HaR6
  iintro ⟨HO, HaR6, Hp6⟩
  -- the wait on receive cell 7
  iapply (wp_recvwait m ρ K c 7 (by decide) _) $$ [HcR7 HO HaR7]
  · isplitr; · iexact HR
    isplitl [HcR7]; · iexact HcR7
    isplitl [HO]; · iexact HO
    iexact HaR7
  iintro ⟨HO, HaR7, Hp7⟩
  -- the gathered rows read whole
  ihave Hlp := (load_prep m ρ c) $$ [Hr0L Hp1 Hp2 Hp3 Hp4 Hp5 Hp6 Hp7]
  · isplitl [Hr0L]; · iexact Hr0L
    unfold sep7
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  icases Hlp with ⟨HcL, Hrr⟩
  iapply (wp_load 𝒱₀ (c : Thread nD τ) none Set.univ (m := cM) (Finset.subset_univ _)) $$ HcL; iintro HcL
  rw [read_all]
  -- the block of the result
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the wait on send cell 1
  iapply (wp_sendwait m ρ K c 1 (by decide) _) $$ [HcS1 HO HaS1]
  · isplitr; · iexact HR
    isplitl [HcS1]; · iexact HcS1
    isplitl [HO]; · iexact HO
    iexact HaS1
  iintro ⟨HO, HaS1, Hq1⟩
  -- the wait on send cell 2
  iapply (wp_sendwait m ρ K c 2 (by decide) _) $$ [HcS2 HO HaS2]
  · isplitr; · iexact HR
    isplitl [HcS2]; · iexact HcS2
    isplitl [HO]; · iexact HO
    iexact HaS2
  iintro ⟨HO, HaS2, Hq2⟩
  -- the wait on send cell 3
  iapply (wp_sendwait m ρ K c 3 (by decide) _) $$ [HcS3 HO HaS3]
  · isplitr; · iexact HR
    isplitl [HcS3]; · iexact HcS3
    isplitl [HO]; · iexact HO
    iexact HaS3
  iintro ⟨HO, HaS3, Hq3⟩
  -- the wait on send cell 4
  iapply (wp_sendwait m ρ K c 4 (by decide) _) $$ [HcS4 HO HaS4]
  · isplitr; · iexact HR
    isplitl [HcS4]; · iexact HcS4
    isplitl [HO]; · iexact HO
    iexact HaS4
  iintro ⟨HO, HaS4, Hq4⟩
  -- the wait on send cell 5
  iapply (wp_sendwait m ρ K c 5 (by decide) _) $$ [HcS5 HO HaS5]
  · isplitr; · iexact HR
    isplitl [HcS5]; · iexact HcS5
    isplitl [HO]; · iexact HO
    iexact HaS5
  iintro ⟨HO, HaS5, Hq5⟩
  -- the wait on send cell 6
  iapply (wp_sendwait m ρ K c 6 (by decide) _) $$ [HcS6 HO HaS6]
  · isplitr; · iexact HR
    isplitl [HcS6]; · iexact HcS6
    isplitl [HO]; · iexact HO
    iexact HaS6
  iintro ⟨HO, HaS6, Hq6⟩
  -- the wait on send cell 7
  iapply (wp_sendwait m ρ K c 7 (by decide) _) $$ [HcS7 HO HaS7]
  · isplitr; · iexact HR
    isplitl [HcS7]; · iexact HcS7
    isplitl [HO]; · iexact HO
    iexact HaS7
  iintro ⟨HO, HaS7, Hq7⟩
  -- the sixteen own cells close
  imod (close_send m ρ K c 0 0 (fun r _ => duties_send0 m ρ c r)) $$ [HaS0] with HzS0
  · isplitr; · iexact HR
    iexact HaS0
  imod (close_recv m ρ K c 0 0 (fun r _ => duties_recv0 m ρ c r)) $$ [HaR0] with HzR0
  · isplitr; · iexact HR
    iexact HaR0
  imod (close_send m ρ K c 1 1 (duties_later m ρ _)) $$ [HaS1] with HzS1
  · isplitr; · iexact HR
    iexact HaS1
  imod (close_recv m ρ K c 1 1 (duties_later m ρ _)) $$ [HaR1] with HzR1
  · isplitr; · iexact HR
    iexact HaR1
  imod (close_send m ρ K c 2 1 (duties_later m ρ _)) $$ [HaS2] with HzS2
  · isplitr; · iexact HR
    iexact HaS2
  imod (close_recv m ρ K c 2 1 (duties_later m ρ _)) $$ [HaR2] with HzR2
  · isplitr; · iexact HR
    iexact HaR2
  imod (close_send m ρ K c 3 1 (duties_later m ρ _)) $$ [HaS3] with HzS3
  · isplitr; · iexact HR
    iexact HaS3
  imod (close_recv m ρ K c 3 1 (duties_later m ρ _)) $$ [HaR3] with HzR3
  · isplitr; · iexact HR
    iexact HaR3
  imod (close_send m ρ K c 4 1 (duties_later m ρ _)) $$ [HaS4] with HzS4
  · isplitr; · iexact HR
    iexact HaS4
  imod (close_recv m ρ K c 4 1 (duties_later m ρ _)) $$ [HaR4] with HzR4
  · isplitr; · iexact HR
    iexact HaR4
  imod (close_send m ρ K c 5 1 (duties_later m ρ _)) $$ [HaS5] with HzS5
  · isplitr; · iexact HR
    iexact HaS5
  imod (close_recv m ρ K c 5 1 (duties_later m ρ _)) $$ [HaR5] with HzR5
  · isplitr; · iexact HR
    iexact HaR5
  imod (close_send m ρ K c 6 1 (duties_later m ρ _)) $$ [HaS6] with HzS6
  · isplitr; · iexact HR
    iexact HaS6
  imod (close_recv m ρ K c 6 1 (duties_later m ρ _)) $$ [HaR6] with HzR6
  · isplitr; · iexact HR
    iexact HaR6
  imod (close_send m ρ K c 7 1 (duties_later m ρ _)) $$ [HaS7] with HzS7
  · isplitr; · iexact HR
    iexact HaS7
  imod (close_recv m ρ K c 7 1 (duties_later m ρ _)) $$ [HaR7] with HzR7
  · isplitr; · iexact HR
    iexact HaR7
  -- the scratch whole again
  ihave Hc := (final_join m ρ c) $$ [HcL Hq1 Hq2 Hq3 Hq4 Hq5 Hq6 Hq7 Hrr]
  · isplitl [HcL]; · iexact HcL
    isplitl [Hq1 Hq2 Hq3 Hq4 Hq5 Hq6 Hq7]
    · unfold sep7
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hrr
  rw [wp_ret]; imodintro
  iapply Hk
  unfold bodyPost Φ₁ Dat.owesAt Pipeline.owesWithin sep8 sep7
  rw [show (dats m ρ 0 c).owed t₀.succ = 0 from rfl]
  isplitl [Hc HzS0 HzS1 HzS2 HzS3 HzS4 HzS5 HzS6 HzS7 HzR0 HzR1 HzR2 HzR3 HzR4 HzR5 HzR6 HzR7]
  · isplitl [Hc]; · iexact Hc
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    iexact HzR7
  isplitl [HO]
  · iexists (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (recvS 7), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.reg barS, ()) W)))))))))))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

/-! ## The library's body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hrest⟩, Hscr⟩, Ho, Hx, Hgm, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgm]; · iexact Hgm
    iexact Hout
  · iintro H; iexact H

/-- info: 'Cert.KernelIdeal.Proto.body_obligation' depends on axioms: [propext, Classical.choice, Quot.sound] -/
#guard_msgs in #print axioms body_obligation

end Body

end Cert.KernelIdeal.Proto
-- ==== Proof.Launch.lean ====
import proofs.«901009_g7700000000001010_dist_rmsnorm_colshard_i_m512_n256_v7x_i8_f32_1_alg».proof.Proof.Body

/-! # The launch

The cells of the eight devices are allocated under one update, the duty tokens are dealt along the ring to the
devices that pay them, each device's launch credit is counted from what the others owe it, and the launch theorem
turns the eight body obligations into a run of the program. -/

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Eight, seven, sixteen and seventeen of a family -/

theorem bigSep_fin8 (Φ : Fin 8 → sProp 𝕄) : bigSep Finset.univ Φ = sep8 Φ :=
  bigSep_univ_eq_bigSepL [(0 : Fin 8), 1, 2, 3, 4, 5, 6, 7] (by decide) (by decide) Φ

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem bigSep_fin3' (Φ : Fin 3 → sProp 𝕄) : bigSep Finset.univ Φ = iprop(Φ 0 ∗ Φ 1 ∗ Φ 2) :=
  bigSep_univ_eq_bigSepL [(0 : Fin 3), 1, 2] (by decide) (by decide) Φ

theorem iS_injective : Function.Injective iS := by decide
theorem iR_injective : Function.Injective iR := by decide

/-- A device's seventeen cells: the barrier, the eight send cells, the eight receive cells. -/
theorem bigSep_fin17 (Φ : Fin 17 → sProp 𝕄) :
    bigSep Finset.univ Φ = iprop(Φ iB ∗ sep8 (fun k => Φ (iS k)) ∗ sep8 (fun k => Φ (iR k))) := by
  rw [show (Finset.univ : Finset (Fin 17)) = insert iB ((Finset.univ.map ⟨iS, iS_injective⟩) ∪ (Finset.univ.map ⟨iR, iR_injective⟩)) from by decide,
    bigSep_insert (by decide), bigSep_union (by decide), bigSep_map, bigSep_map, bigSep_fin8, bigSep_fin8]
  rfl

def jS (k : Fin 8) : Fin 16 := ⟨k.val, by omega⟩
def jR (k : Fin 8) : Fin 16 := ⟨8 + k.val, by omega⟩
theorem jS_injective : Function.Injective jS := by decide
theorem jR_injective : Function.Injective jR := by decide
theorem osem_jS (k : Fin 8) : osem (jS k) = .dma (sendS k) := by revert k; decide
theorem osem_jR (k : Fin 8) : osem (jR k) = .dma (recvS k) := by revert k; decide

/-- The sixteen own semaphores: the eight send, the eight receive. -/
theorem bigSep_fin16 (Φ : Fin 16 → sProp 𝕄) :
    bigSep Finset.univ Φ = iprop(sep8 (fun k => Φ (jS k)) ∗ sep8 (fun k => Φ (jR k))) := by
  rw [show (Finset.univ : Finset (Fin 16)) = (Finset.univ.map ⟨jS, jS_injective⟩) ∪ (Finset.univ.map ⟨jR, jR_injective⟩) from by decide,
    bigSep_union (by decide), bigSep_map, bigSep_map, bigSep_fin8, bigSep_fin8]
  rfl

theorem kcell_iB (c : Dev nD) : kcell (c, iB) = barCell c := rfl

/-- A device's seventeen cells, by name. -/
theorem bigSep_cells17 (c : Dev nD) (Φ : GSem nD τ sig → sProp 𝕄) :
    (bigSep Finset.univ fun j : Fin 17 => Φ (kcell (c, j)))
      = iprop(Φ (barCell c) ∗ sep8 (fun k => Φ (sendCell c k)) ∗ sep8 (fun k => Φ (recvCell c k))) := by
  rw [bigSep_fin17]; simp only [kcell_iB, kcell_iS, kcell_iR]

theorem bigSep_range7 (Φ : ℕ → sProp 𝕄) : bigSep (Finset.range 7) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ

/-- Seven of a family over all devices. -/
theorem bigSep_sep7 (Φ : Dev nD → Fin 8 → sProp 𝕄) :
    (bigSep Finset.univ fun c : Dev nD => sep7 (Φ c)) = sep7 (fun k => bigSep Finset.univ fun c : Dev nD => Φ c k) := by
  unfold sep7; simp only [bigSep_sep']

/-! ## The launch's side facts -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- The duty tokens of one device's cells as minted: (which family, which of the seven). -/
def tokS : Fin 3 × Fin 7 → SemLoc sig × Fin 8
  | (0, j) => (.reg barS, j.succ)
  | (1, j) => (.dma (sendS j.succ), 0)
  | (2, j) => (.dma (recvS j.succ), 0)
theorem tokS_injective : Function.Injective tokS := by decide
def tokOf (ca : Dev nD × Fin 3 × Fin 7) : GSem nD τ sig × ℕ × Fin 8 := (((ca.1 : Thread nD τ), (tokS ca.2).1), 0, (tokS ca.2).2)
theorem tokOf_injective : Function.Injective tokOf := by
  rintro ⟨c, a⟩ ⟨c', a'⟩ h
  have h1 : c = c' := by have := congrArg (fun x : GSem nD τ sig × ℕ × Fin 8 => x.1.1.1) h; exact this
  subst h1
  have h2 : tokS a = tokS a' := Prod.ext (congrArg (fun x : GSem nD τ sig × ℕ × Fin 8 => x.1.2) h) (congrArg (fun x : GSem nD τ sig × ℕ × Fin 8 => x.2.2) h)
  have : a = a' := tokS_injective h2
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(sep7 (fun k => dutyTok ER (barCell c) 0 k) ∗ sep7 (fun k => dutyTok ER (sendCell c k) 0 0) ∗ sep7 (fun k => dutyTok ER (recvCell c k) 0 0))

/-- What the launch element deals device `c`. -/
def G (c : Dev nD) : sProp 𝕄 :=
  iprop((bigSep Finset.univ fun j : Fin 17 => roundState ER (ringRd m ρ) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod, bigSep_fin3']; simp only [bigSep_fin7]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(sep8 (fun k => semVal (sendCell c k) 0) ∗ sep8 (fun k => semVal (recvCell c k) 0)) := by
  unfold Pipeline.ownSems0; rw [bigSep_fin16]; simp only [osem_jS, osem_jR]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  rw [ownSems0_eq, unscopedSems0_eq,
    show (bigSep Finset.univ fun j : Fin 17 => semVal (kcell (c, j)) 0 : sProp 𝕄) = _ from bigSep_cells17 c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (ringRd m ρ) κ (kcell (c, j))))
          ∗ (bigSep Finset.univ fun j : Fin 17 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (ringRd m ρ) (kcell (c, j)) 0)
      ⊢ (|={Set.univ}=> bigSep Finset.univ fun j => iprop(∃ κ : ℕ, cellInv ER (ringRd m ρ) κ (kcell (c, j))) : sProp 𝕄) from by
        rw [← bigSep_sep']
        exact (bigSep_mono fun j _ => (Rounds.body_intro ER (ringRd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The tokens travel along the ring: the device `k` places before the owner of a barrier duty `k`, or of receive cell
    `k`'s one duty, pays it. -/
theorem toks_around : (bigSep Finset.univ fun c : Dev nD => (toks c : sProp 𝕄)) ⊢ bigSep Finset.univ fun c : Dev nD => payToks c := by
  have e1 (k : Fin 8) : (bigSep Finset.univ fun c : Dev nD => (dutyTok ER (barCell (fwd k c)) 0 k : sProp 𝕄)) = bigSep Finset.univ fun c : Dev nD => dutyTok ER (barCell c) 0 k :=
    (bigSep_univ_equiv (fwdEquiv k) (fun c : Dev nD => (dutyTok ER (barCell c) 0 k : sProp 𝕄))).symm
  have e2 (k : Fin 8) : (bigSep Finset.univ fun c : Dev nD => (dutyTok ER (recvCell (fwd k c) k) 0 0 : sProp 𝕄)) = bigSep Finset.univ fun c : Dev nD => dutyTok ER (recvCell c k) 0 0 :=
    (bigSep_univ_equiv (fwdEquiv k) (fun c : Dev nD => (dutyTok ER (recvCell c k) 0 0 : sProp 𝕄))).symm
  unfold toks payToks
  simp only [bigSep_sep', bigSep_sep7, e1, e2]
  iintro ⟨H1, H2, H3⟩
  isplitl [H1]; · iexact H1
  isplitl [H3]; · iexact H3
  iexact H2

/-- What stays with device `c`: its positions and the tokens of the duties it pays. -/
def linear (c : Dev nD) : sProp 𝕄 := iprop(positions c ∗ payToks c)

theorem ghost_intro (K : Dev nD × Fin 17 → ℕ) (c : Dev nD) : iprop(records m ρ K ∗ linear c) ⊢ G' m ρ c := by
  unfold linear G' ghost
  iintro H
  iexists K
  iexact H

theorem regroup :
    (bigSep Finset.univ fun c : Dev nD => iprop((bigSep Finset.univ fun j => iprop(∃ κ : ℕ, cellInv ER (ringRd m ρ) κ (kcell (c, j))))
          ∗ (bigSep Finset.univ fun j : Fin 17 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 17 => iprop(∃ κ : ℕ, cellInv ER (ringRd m ρ) κ (kcell cj))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun cj : Dev nD × Fin 17 => (reached ER (kcell cj) 0 : sProp 𝕄))]
  iintro ⟨HI, ⟨Hat, #HR⟩, Htok⟩
  ihave HK := (BI.bigSep_exists_pi Finset.univ (fun (cj : Dev nD × Fin 17) (κ : ℕ) => (cellInv ER (ringRd m ρ) κ (kcell cj) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => show _ ⊢ linear c from Entails.of_eq (by
        unfold linear positions
        rw [show (bigSep Finset.univ fun j : Fin 17 => (atPos ER (kcell (c, j)) 0 ∅ 0 : sProp 𝕄)) = _ from bigSep_cells17 c (fun g => atPos ER g 0 ∅ 0)])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem OwS_eq (c : Dev nD) : ∀ i, OwS c i = ∑ j ∈ Finset.range i, tallyAt (recvCell (fwd (kk (7 - j)) c) (kk (7 - j))) () N
  | 0 => by rw [Finset.sum_range_zero]; rfl
  | i + 1 => by rw [Finset.sum_range_succ, ← OwS_eq c i]; rfl
theorem OwB_eq (c : Dev nD) : ∀ i, OwB c i = OwS c 7 + ∑ j ∈ Finset.range i, tallyAt (barCell (fwd (kk (7 - j)) c)) () 1
  | 0 => by rw [Finset.sum_range_zero, add_zero]; rfl
  | i + 1 => by rw [Finset.sum_range_succ, ← add_assoc, ← OwB_eq c i]; rfl
/-- What a device owes at launch: the seven copies' credit and the seven barrier units. -/
theorem O₀_eq (c : Dev nD) : O₀ c = (∑ j ∈ Finset.range 7, tallyAt (recvCell (fwd (kk (7 - j)) c) (kk (7 - j))) () N)
    + ∑ j ∈ Finset.range 7, tallyAt (barCell (fwd (kk (7 - j)) c)) () 1 := by
  unfold O₀; rw [OwB_eq, OwS_eq]

/-- What a device is owed: the credit of its seven receive cells and of its barrier's seven units. -/
def T (d : Dev nD) : CellTallies nD τ sig Unit :=
  (∑ j ∈ Finset.range 7, tallyAt (recvCell d (kk (7 - j))) () N) + ∑ j ∈ Finset.range 7, tallyAt (barCell d) () 1

/-- Summed over the ring, what is owed is what is due: each shift is a bijection of the devices. -/
theorem sum_shift {M : Type} [AddCommMonoid M] (A : Fin 8 → Dev nD → M) :
    (∑ d, ∑ j ∈ Finset.range 7, A (kk (7 - j)) (fwd (kk (7 - j)) d)) = ∑ d, ∑ j ∈ Finset.range 7, A (kk (7 - j)) d :=
  calc (∑ d, ∑ j ∈ Finset.range 7, A (kk (7 - j)) (fwd (kk (7 - j)) d))
      = ∑ j ∈ Finset.range 7, ∑ d, A (kk (7 - j)) (fwd (kk (7 - j)) d) := Finset.sum_comm
    _ = ∑ j ∈ Finset.range 7, ∑ d, A (kk (7 - j)) d :=
        Finset.sum_congr rfl fun j _ => Equiv.sum_comp (fwdEquiv (kk (7 - j))) (A (kk (7 - j)))
    _ = ∑ d, ∑ j ∈ Finset.range 7, A (kk (7 - j)) d := Finset.sum_comm

theorem sum_O₀ : (∑ d, O₀ d) = ∑ d, T d := by
  simp only [O₀_eq, T, Finset.sum_add_distrib]
  exact congrArg₂ (· + ·) (sum_shift (fun k d => (tallyAt (recvCell d k) () N : CellTallies nD τ sig Unit)))
    (sum_shift (fun k d => (tallyAt (barCell d) () 1 : CellTallies nD τ sig Unit)))

theorem T_on (d : Dev nD) (g : GSem nD τ sig) (h : T d g ≠ 0) : g.1 = (d : Thread nD τ) := by
  by_contra hne
  apply h
  unfold T
  rw [Pi.add_apply, Finset.sum_apply, Finset.sum_apply,
    Finset.sum_eq_zero fun j _ => tallyAt_ne_cell (fun e => hne (by rw [e])) () N,
    Finset.sum_eq_zero fun j _ => tallyAt_ne_cell (fun e => hne (by rw [e])) () 1, add_zero]

theorem creds (c : Dev nD) :
    (Pipeline.launchCred O₀ c : sProp 𝕄) ⊢ iprop(cred (tallyAt (barCell c) () 7) ∗ sep7 (fun k => cred (tallyAt (recvCell c k) () N))) := by
  have e7 : (∑ j ∈ Finset.range 7, (tallyAt (barCell c) () 1 : CellTallies nD τ sig Unit)) = tallyAt (barCell c) () 7 := by
    simp only [Finset.sum_range_succ, Finset.sum_range_zero, zero_add, tallyAt_add]
  rw [Pipeline.launchCred_of_sum O₀ T sum_O₀ T_on c]
  unfold T
  rw [e7]
  refine (cred_add _ _).1.trans ?_
  rw [Pipeline.cred_finsetSum, bigSep_range7]
  iintro ⟨⟨H7, H6, H5, H4, H3, H2, H1⟩, HB⟩
  isplitl [HB]; · iexact HB
  unfold sep7
  isplitl [H1]; · iexact H1
  isplitl [H2]; · iexact H2
  isplitl [H3]; · iexact H3
  isplitl [H4]; · iexact H4
  isplitl [H5]; · iexact H5
  isplitl [H6]; · iexact H6
  iexact H7

/-! ## The levels -/

/-- Everything a device owes at launch is owed to a receive cell or to a barrier cell. -/
theorem O₀_pos {c : Dev nD} {g : GSem nD τ sig} {u : Unit} (h : 0 < O₀ c g u) :
    (∃ d k, g = recvCell d k) ∨ ∃ d, g = barCell d := by
  rw [O₀_eq] at h
  rcases Pipeline.add_pos_cases h with h | h
  · obtain ⟨j, -, hj⟩ := Pipeline.sum_pos_exists h
    exact .inl ⟨_, _, (Pipeline.tallyAt_pos hj).1⟩
  · obtain ⟨j, -, hj⟩ := Pipeline.sum_pos_exists h
    exact .inr ⟨_, (Pipeline.tallyAt_pos hj).1⟩

theorem lv_recv (d : Dev nD) (k : Fin 8) (u : Unit) : lv (recvCell d k) u = 2 := by
  show (if 11 ≤ (recvS k).val then 2 else 0) = 2
  rw [if_pos (by rw [recvS_val]; omega)]
theorem lv_bar (d : Dev nD) (u : Unit) : lv (barCell d) u = 1 := by
  show (if barS = barS then 1 else 0) = 1
  exact if_pos rfl

/-! ## The theorem's side conditions -/

theorem L_of_ne (g : GSem nD τ sig) (h : g.1.2 ≠ .tc) : L g = ∅ := if_neg h

/-- A wait on a staging cell (level 0) while owing what is owed at launch (levels 1 and 2), or nothing. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> (rw [L_tc]; exact Finset.mem_singleton_self _))
      (fun p hp => by
        rw [Finset.mem_singleton.mp hp]
        show (if 11 ≤ q.val then 2 else 0) ≤ 0
        rw [if_neg (by omega)])
      (fun g u hg => by
        rcases O₀_pos hg with ⟨d, k, rfl⟩ | ⟨d, rfl⟩
        · rw [lv_recv]; decide
        · rw [lv_bar]; decide)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ cPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ cPts
  iintro ⟨Hr, HzS, HzV⟩
  isplitr; · iempintro
  isplitl [HzS HzV]
  · isplitl [HzS] <;> iassumption
  iexists (commFinal m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` and `gamma` arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_g (c : Dev nD) : finalA m ρ c (1 : Fin 3) = (s₀ m ρ).mem (win0_1.arr.view.loc (c : Thread nD τ)) :=
  (dats (F := F) m ρ 0 c).arrAt_in (1 : Fin 3) rfl _
/-- The result array after the run holds the block the body stored. -/
theorem finalA_out (c : Dev nD) : finalA m ρ c (2 : Fin 3) = outAt m ρ c := by
  unfold finalA
  rw [show cfg0.N = (t₀ : Fin cfg0.N).val + 1 from cfg0_N, Dat.arrAt_succ, if_pos (flush0_2 t₀)]
  exact Memref.write_access_unit_zero_univ (Elt F) main_v1 (funext fun a => Nat.zero_mul _) _ _ _

/-- info: 'Cert.KernelIdeal.Proto.run_main' depends on axioms: [propext, Classical.choice, Quot.sound] -/
#guard_msgs in #print axioms run_main

end Cert.KernelIdeal.Proto

end
-- ==== Proof.BitsRing.lean ====
import proofs.«901009_g7700000000001010_dist_rmsnorm_colshard_i_m512_n256_v7x_i8_f32_1_alg».proof.Proof.Gen.Kernel

/-! # The ring of eight devices

Device `c` addresses its peers by a shift of its own position: `fwd k c` is the device `k` places after `c` on the
ring of eight, `bwd k c` the device `k` places before it, and `neg k` the shift that undoes `k`. The kernel's fourteen
printed device chains (seven signals, seven copies) are the shifts `1 … 7`, decided over the mesh. -/

namespace Cert.Kernel.Ring

open Idealize.ShloMosaic Cert.Kernel Cert.Kernel.Gen

/-- The device `k` places after `c`. -/
def fwd (k : Fin 8) (c : Dev nD) : Dev nD := ⟨(c.val + k.val) % 8, Nat.mod_lt _ (by decide)⟩
/-- The device `k` places before `c`. -/
def bwd (k : Fin 8) (c : Dev nD) : Dev nD := ⟨(c.val + (8 - k.val)) % 8, Nat.mod_lt _ (by decide)⟩
/-- The shift that undoes `k`. -/
def neg (k : Fin 8) : Fin 8 := ⟨(8 - k.val) % 8, Nat.mod_lt _ (by decide)⟩

theorem bwd_fwd (k : Fin 8) (c : Dev nD) : bwd k (fwd k c) = c := by revert k c; decide
theorem fwd_bwd (k : Fin 8) (c : Dev nD) : fwd k (bwd k c) = c := by revert k c; decide
theorem fwd_neg (k : Fin 8) (c : Dev nD) : fwd (neg k) c = bwd k c := by revert k c; decide
theorem bwd_neg (k : Fin 8) (c : Dev nD) : bwd (neg k) c = fwd k c := by revert k c; decide
theorem neg_neg (k : Fin 8) : neg (neg k) = k := by revert k; decide
theorem neg_ne_zero {k : Fin 8} (h : k ≠ 0) : neg k ≠ 0 := by revert k; decide
theorem fwd_zero (c : Dev nD) : fwd 0 c = c := by revert c; decide
theorem bwd_zero (c : Dev nD) : bwd 0 c = c := by revert c; decide
theorem fwd_ne_self {k : Fin 8} (h : k ≠ 0) (c : Dev nD) : fwd k c ≠ c := by revert k c; decide
theorem fwd_inj (k : Fin 8) {a b : Dev nD} (h : fwd k a = fwd k b) : a = b := by
  have := congrArg (bwd k) h; rwa [bwd_fwd, bwd_fwd] at this
theorem bwd_inj (k : Fin 8) {a b : Dev nD} (h : bwd k a = bwd k b) : a = b := by
  have := congrArg (fwd k) h; rwa [fwd_bwd, fwd_bwd] at this
/-- Two shifts of one device agree only if they are the same shift. -/
theorem fwd_left_inj (c : Dev nD) {j k : Fin 8} (h : fwd j c = fwd k c) : j = k := by revert j k c; decide
theorem bwd_left_inj (c : Dev nD) {j k : Fin 8} (h : bwd j c = bwd k c) : j = k := by revert j k c; decide

def fwdEquiv (k : Fin 8) : Dev nD ≃ Dev nD := ⟨fwd k, bwd k, bwd_fwd k, fwd_bwd k⟩
/-- Read along the ring from `c`: the shift `k` names the device `bwd k c`, and every device is named once. -/
def bwdAt (c : Dev nD) : Fin 8 ≃ Dev nD :=
  ⟨fun k => bwd k c, fun d => ⟨(c.val + (8 - d.val)) % 8, Nat.mod_lt _ (by decide)⟩, by revert c; decide, by revert c; decide⟩

/-! The printed device chains: signal `k` and copy `k` both address `fwd k c`. -/
theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 4 c := by revert c; decide +kernel
theorem dev5_eq (c : Dev nD) : (⟨k0_dev5 c, k0_dev5_lt c⟩ : Dev nD) = fwd 5 c := by revert c; decide +kernel
theorem dev6_eq (c : Dev nD) : (⟨k0_dev6 c, k0_dev6_lt c⟩ : Dev nD) = fwd 6 c := by revert c; decide +kernel
theorem dev7_eq (c : Dev nD) : (⟨k0_dev7 c, k0_dev7_lt c⟩ : Dev nD) = fwd 7 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel
theorem dev10_eq (c : Dev nD) : (⟨k0_dev10 c, k0_dev10_lt c⟩ : Dev nD) = fwd 3 c := by revert c; decide +kernel
theorem dev11_eq (c : Dev nD) : (⟨k0_dev11 c, k0_dev11_lt c⟩ : Dev nD) = fwd 4 c := by revert c; decide +kernel
theorem dev12_eq (c : Dev nD) : (⟨k0_dev12 c, k0_dev12_lt c⟩ : Dev nD) = fwd 5 c := by revert c; decide +kernel
theorem dev13_eq (c : Dev nD) : (⟨k0_dev13 c, k0_dev13_lt c⟩ : Dev nD) = fwd 6 c := by revert c; decide +kernel
theorem dev14_eq (c : Dev nD) : (⟨k0_dev14 c, k0_dev14_lt c⟩ : Dev nD) = fwd 7 c := by revert c; decide +kernel

end Cert.Kernel.Ring
-- ==== Proof.BitsSched.lean ====
import proofs.«901009_g7700000000001010_dist_rmsnorm_colshard_i_m512_n256_v7x_i8_f32_1_alg».proof.Proof.BitsRing
import proofs.«901009_g7700000000001010_dist_rmsnorm_colshard_i_m512_n256_v7x_i8_f32_1_alg».proof.Proof.Gen.Kernel.Skeleton
import proofs.«901009_g7700000000001010_dist_rmsnorm_colshard_i_m512_n256_v7x_i8_f32_1_alg».proof.Proof.Gen.Kernel.Launch
import proofs.«901009_g7700000000001010_dist_rmsnorm_colshard_i_m512_n256_v7x_i8_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

/-! # The all-gather of row sums: cells, rounds, and what each device holds

Every device `c` computes the 512 row sums of squares of its block of `x` into row 0 of an 8×512 scratch, tells
each of its seven peers (one unit on the peer's barrier semaphore) that it is inside the kernel, waits for the seven
units of its own barrier, copies row 0 into row `k` of the scratch of the device `k` places after it (`k = 1 … 7`),
waits for the seven copies that land in its own rows `1 … 7`, sums the eight rows and stores the normalised block.
So at the end row `k` of device `c`'s scratch holds the row sums of the device `k` places BEFORE `c`.

The protocol in rounds, one round per cell, duties named by `Fin 8`:
* the barrier cell of `c` has the seven duties `j = 1 … 7`, duty `j` one unit paid by the device `j` places before
  `c`; with it that device hands `c` the row of its own scratch that `c`'s copy will fill, and the fact that it has
  reached round 0 of the matching receive cell;
* receive cell `k` of `c` has one duty, the copy by the device `k` places before `c`; it hands `c` its row `k`
  holding that device's row sums;
* send cell `k` of `c` has one duty, the same copy read out of `c`'s row 0; it hands back the share of row 0 lent
  to it. -/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' copy (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, semaphores, cells -/

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0
abbrev cM : Memref sig .tc .vmem S8x512 .f32 := Memref.whole cc0_scratch0

theorem inbS (k : Fin 8) : ∀ a, (![k.val] : Fin 1 → Nat) a + S1.size a ≤ S8.size a := by revert k; decide
theorem inbR (k : Fin 8) : ∀ a, (![k.val, 0] : Fin 2 → Nat) a + S1x512.size a ≤ S8x512.size a := by revert k; decide

/-- Row `k` of the scratch, as the kernel's copies and waits name it. -/
def rowM (k : Fin 8) : Memref sig .tc .vmem S512 .f32 :=
  ((cM : Memref sig .tc .vmem S8x512 .f32).slice (Rect.unit (s := S8x512) ![k.val, 0] S1x512.size (inbR k)) (fun _ => rfl)).squeeze S512 squeezes_S1x512_S512

/-- The runtime's barrier semaphore of collective id 0; the `k`-th send and receive DMA semaphores. -/
abbrev barS : Sem sig := (SemArray.scalar (sig.barrier 0 rfl) : Sems sig S_).sem
def sendS (k : Fin 8) : DmaSem sig := ((cc0_scratch1.slice (Rect.unit (s := S8) ![k.val] S1.size (inbS k))).squeeze S_ squeezes_S1_S_).sem
def recvS (k : Fin 8) : DmaSem sig := ((cc0_scratch2.slice (Rect.unit (s := S8) ![k.val] S1.size (inbS k))).squeeze S_ squeezes_S1_S_).sem

theorem sendS_val (k : Fin 8) : (sendS k).val = 3 + k.val := by revert k; decide
theorem recvS_val (k : Fin 8) : (recvS k).val = 11 + k.val := by revert k; decide

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The index of a DMA semaphore among the eight of its array. -/
def xk (q : DmaSem sig) : Fin 8 := ⟨(q.val + 5) % 8, Nat.mod_lt _ (by decide)⟩
theorem xk_sendS (k : Fin 8) : xk (sendS k) = k := by revert k; decide
theorem xk_recvS (k : Fin 8) : xk (recvS k) = k := by revert k; decide

/-- A device's seventeen cells as this proof indexes them: the barrier, send `0 … 7`, receive `0 … 7`
    (send 0 and receive 0 are never used and have no duty). -/
def csem (j : Fin 17) : SemLoc sig :=
  if j.val = 0 then .reg barS else if h : j.val ≤ 8 then .dma (sendS ⟨j.val - 1, by omega⟩) else .dma (recvS ⟨j.val - 9, by omega⟩)
def iB : Fin 17 := 0
def iS (k : Fin 8) : Fin 17 := ⟨1 + k.val, by omega⟩
def iR (k : Fin 8) : Fin 17 := ⟨9 + k.val, by omega⟩
theorem csem_iB : csem iB = .reg barS := rfl
theorem csem_iS (k : Fin 8) : csem (iS k) = .dma (sendS k) := by revert k; decide
theorem csem_iR (k : Fin 8) : csem (iR k) = .dma (recvS k) := by revert k; decide
abbrev kcell (cj : Dev nD × Fin 17) : GSem nD τ sig := ((cj.1 : Thread nD τ), csem cj.2)
/-- The kernel's OWN (scoped) semaphores, as the launch indexes them: the sixteen DMA semaphores of its two arrays. -/
def osem (j : Fin 16) : SemLoc sig := csem ⟨j.val + 1, by omega⟩

/-- The credit of one row's copy. -/
abbrev N : ℕ := (rowM 0).view.dmaCredit

/-! ## Contents -/

/-- Device `d`'s block of `x` and of `gamma` as staged. -/
def xstg (d : Dev nD) : (cc0_stg0_0 : Ref sig .tc).ty.Contents (Elt F) :=
  (win0_0.blk (0 : Fin 1)).view.read (Elt F) ((s₀ m ρ).mem ((d : Thread nD τ).loc main_arg0))
def gstg (d : Dev nD) : (cc0_stg1_0 : Ref sig .tc).ty.Contents (Elt F) :=
  (win0_1.blk (0 : Fin 1)).view.read (Elt F) ((s₀ m ρ).mem ((d : Thread nD τ).loc main_arg1))

/-- The 512 row sums of squares of device `d`'s block, as the 1×512 vector the kernel stores. -/
def rsum (d : Dev nD) : FVec F S1x512 .f32 := k0_pay3 (k0_pay2 (xstg m ρ d))

/-- A scratch every row of which is device `d`'s row sums (only one row of it is ever spoken of). -/
def rowsOf (d : Dev nD) : (cc0_scratch0 : Ref sig .tc).ty.Contents (Elt F) := fun i => rsum m ρ d (ValueIdx.ix2 0 (i 1))

/-- Device `c`'s scratch at the end: row `k` holds the row sums of the device `k` places before `c`. -/
def commFinal (c : Dev nD) : (cc0_scratch0 : Ref sig .tc).ty.Contents (Elt F) := fun i => rsum m ρ (bwd (i 0) c) (ValueIdx.ix2 0 (i 1))

/-- Device `c`'s result block. -/
def outAt (c : Dev nD) : (cc0_stg2_0 : Ref sig .tc).ty.Contents (Elt F) :=
  k0_pay5 (k0_pay4 (k0_pay1 (xstg m ρ c)) (gstg m ρ c)) (commFinal m ρ c)

/-- The shares of row 0: the device keeps the left half for its own read of the scratch; the right half is dealt to the
    seven copies, copy `k ≤ 6` taking the left half of what copies `1 … k - 1` left (`rst (k - 1)`), copy 7 all the rest. -/
def rst : ℕ → PosShare TreeShare
  | 0 => fullShare.right
  | n + 1 => (rst n).right
def shr (k : Fin 8) : PosShare TreeShare := if k.val = 7 then rst 6 else (rst (k.val - 1)).left

/-- Row `k` of device `c`'s scratch at share `q`, holding (on that row) what `f` holds there. -/
def rowPts (c : Dev nD) (k : Fin 8) (q : PosShare TreeShare) (f : Buf (Elt F) ((rowM k).view.loc (c : Thread nD τ))) : sProp 𝕄 :=
  (rowM k).view.loc (c : Thread nD τ) ↦[(rowM k).view.set]{q} f
/-- The whole scratch of device `c`. -/
def cPts (c : Dev nD) (f : Buf (Elt F) ((c : Thread nD τ).loc cc0_scratch0)) : sProp 𝕄 :=
  ((c : Thread nD τ).loc cc0_scratch0) ↦{fullShare} f

omit [FloatOps F] in
instance rowPts_storable (c : Dev nD) (k : Fin 8) (q) (f) : BI.Storable (upEmb : UEmb _ 𝕄) (rowPts (F := F) c k q f) := by unfold rowPts; infer_instance

/-! ## The schedule -/

/-- What the device `j` places before `c` hands `c` with its unit on `c`'s barrier: the row of its scratch that `c`'s copy
    fills (row `neg j`), and that it has reached round 0 of the receive cell of that row. -/
def barPay (c : Dev nD) (j : Fin 8) : sProp 𝕄 :=
  iprop((∃ f, rowPts (bwd j c) (neg j) fullShare f) ∗ reached ER (recvCell (bwd j c) (neg j)) 0)
/-- Receive cell `k` of `c`: row `k`, holding the row sums of the device `k` places before `c`. -/
def recvPay (c : Dev nD) (k : Fin 8) : sProp 𝕄 := rowPts c k fullShare (rowsOf m ρ (bwd k c))
/-- Send cell `k` of `c`: the share of row 0 lent to copy `k`, holding `c`'s own row sums. -/
def sendPay (c : Dev nD) (k : Fin 8) : sProp 𝕄 := rowPts c 0 (shr k) (rowsOf m ρ c)

abbrev IsBar (g : GSem nD τ sig) : Prop := g.1.2 = .tc ∧ g.2 = .reg barS
abbrev IsXfer (g : GSem nD τ sig) : Prop :=
  g.1.2 = .tc ∧ ∃ k : Fin 8, k ≠ 0 ∧ (g.2 = .dma (sendS k) ∨ g.2 = .dma (recvS k))

/-- One round, round 0. -/
def ringRd : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else N
  payload g _ d := match g.2 with
    | .reg s => if s = barS then barPay g.1.1 d else iprop(emp)
    | .dma q => if 11 ≤ q.val then recvPay m ρ g.1.1 (xk q) else if 3 ≤ q.val then sendPay m ρ g.1.1 (xk q) else iprop(emp)
  amount_pos g _ _ _ := by
    by_cases h : g.2 = .reg barS
    · rw [if_pos h]; exact Nat.one_pos
    · rw [if_neg h]; exact View.dmaCredit_pos _ (by decide)

/-! ## What each device owes at launch; the levels -/

def kk (n : ℕ) : Fin 8 := ⟨n % 8, Nat.mod_lt _ (by decide)⟩

/-- What device `c` still owes of its seven copies when the last `i` of them remain (copies `8 - i … 7`): the credit
    of the receive cell each lands on. Copy `8 - i` is the last summand, so the copies peel in program order. -/
def OwS (c : Dev nD) : ℕ → CellTallies nD τ sig Unit
  | 0 => 0
  | i + 1 => OwS c i + tallyAt (recvCell (fwd (kk (7 - i)) c) (kk (7 - i))) () N
/-- … and of its seven barrier units when the last `i` of them remain, all seven copies still owed. -/
def OwB (c : Dev nD) : ℕ → CellTallies nD τ sig Unit
  | 0 => OwS c 7
  | i + 1 => OwB c i + tallyAt (barCell (fwd (kk (7 - i)) c)) () 1
/-- What device `c` owes at launch. -/
def O₀ (c : Dev nD) : CellTallies nD τ sig Unit := OwB c 7

def L (g : GSem nD τ sig) : Finset Unit := if g.1.2 = .tc then {()} else ∅
/-- Barrier cells at 1, receive cells at 2, everything else (staging, send) at 0: a device waits on its barrier owing
    only receive credit, and on its staging, send and receive cells owing nothing or only what lies above. -/
def lv (g : GSem nD τ sig) (_ : Unit) : ℕ := match g.2 with
  | .reg s => if s = barS then 1 else 0
  | .dma q => if 11 ≤ q.val then 2 else 0

/-! ## The ghost state -/

/-- Seven of a family, `k = 1 … 7`; eight of it, `k = 0 … 7`. -/
def sep7 (Φ : Fin 8 → sProp 𝕄) : sProp 𝕄 := iprop(Φ 1 ∗ Φ 2 ∗ Φ 3 ∗ Φ 4 ∗ Φ 5 ∗ Φ 6 ∗ Φ 7)
def sep8 (Φ : Fin 8 → sProp 𝕄) : sProp 𝕄 := iprop(Φ 0 ∗ sep7 Φ)

/-- Every cell's invariant, under the names the launch allocated them at, and that round 0 of every cell is reached. -/
def records (K : Dev nD × Fin 17 → ℕ) : sProp 𝕄 :=
  iprop((bigSep Finset.univ fun cj : Dev nD × Fin 17 => cellInv ER (ringRd m ρ) (K cj) (kcell cj))
    ∗ bigSep Finset.univ fun cj : Dev nD × Fin 17 => reached ER (kcell cj) 0)

instance records_persistent (K : Dev nD × Fin 17 → ℕ) : BI.Persistent (records m ρ K) := by unfold records; infer_instance

/-- Device `c`'s positions at round 0 of its seventeen cells. -/
def positions (c : Dev nD) : sProp 𝕄 :=
  iprop(atPos ER (barCell c) 0 ∅ 0 ∗ sep8 (fun k => atPos ER (sendCell c k) 0 ∅ 0) ∗ sep8 (fun k => atPos ER (recvCell c k) 0 ∅ 0))
/-- The tokens of the duties device `c` PAYS: duty `k` of the barrier of the device `k` places after it, the one duty
    of that device's receive cell `k`, the one duty of its own send cell `k`. -/
def payToks (c : Dev nD) : sProp 𝕄 :=
  iprop(sep7 (fun k => dutyTok ER (barCell (fwd k c)) 0 k) ∗ sep7 (fun k => dutyTok ER (recvCell (fwd k c) k) 0 0)
    ∗ sep7 (fun k => dutyTok ER (sendCell c k) 0 0))

def ghost (K : Dev nD × Fin 17 → ℕ) (c : Dev nD) : sProp 𝕄 := iprop(records m ρ K ∗ positions c ∗ payToks c)

/-- What device `c`'s body starts from: the ghost state at some names, the credit of its barrier's seven units and of
    its seven receive cells, and the level facts. -/
def start (c : Dev nD) : sProp 𝕄 :=
  iprop((∃ K, ghost m ρ K c) ∗ cred (tallyAt (barCell c) () 7) ∗ sep7 (fun k => cred (tallyAt (recvCell c k) () N)) ∗ levAts L lv)

def Φ₀ (c : Dev nD) : sProp 𝕄 := iprop(start m ρ c ∗ ∃ f, cPts c f)
/-- After the point: the scratch whole again at its final contents, the sixteen OWN cells at zero, closed. -/
def Φ₁ (c : Dev nD) : sProp 𝕄 :=
  iprop(cPts c (commFinal m ρ c) ∗ sep8 (fun k => semVal (sendCell c k) 0) ∗ sep8 (fun k => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.Proto
-- ==== Proof.BitsTables.lean ====
import proofs.«901009_g7700000000001010_dist_rmsnorm_colshard_i_m512_n256_v7x_i8_f32_1_alg».proof.Proof.BitsSched

/-! # The schedule's tables, cell by cell

Round 0 of a barrier cell has the seven unit duties `1 … 7`; round 0 of send cell `k` and of receive cell `k`
(`k ≠ 0`) the one duty `0` of a row's credit; no cell has a later round, and send 0 and receive 0 have none at all. -/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem N_pos : 0 < N := View.dmaCredit_pos _ (by decide)

section Sched
variable (c : Dev nD) (k : Fin 8)

theorem send_ne_bar : (SemLoc.dma (sendS k) : SemLoc sig) ≠ .reg barS := fun h => by cases h
theorem recv_ne_bar : (SemLoc.dma (recvS k) : SemLoc sig) ≠ .reg barS := fun h => by cases h
theorem not_bar_send : ¬ IsBar (sendCell c k) := fun h => send_ne_bar k h.2
theorem not_bar_recv : ¬ IsBar (recvCell c k) := fun h => recv_ne_bar k h.2
theorem sendS_inj {j k : Fin 8} (h : sendS j = sendS k) : j = k := by revert j k; decide
theorem recvS_inj {j k : Fin 8} (h : recvS j = recvS k) : j = k := by revert j k; decide
theorem sendS_ne_recvS (j k : Fin 8) : sendS j ≠ recvS k := by revert j k; decide

theorem duties_bar : (ringRd (F := F) m ρ).duties (barCell c) 0 = Finset.univ.erase 0 := by
  dsimp only [ringRd]; exact if_pos ⟨rfl, rfl, rfl⟩
theorem duties_send (hk : k ≠ 0) : (ringRd (F := F) m ρ).duties (sendCell c k) 0 = {0} := by
  dsimp only [ringRd]; rw [if_neg (fun h => not_bar_send c k h.2)]; exact if_pos ⟨rfl, rfl, k, hk, .inl rfl⟩
theorem duties_recv (hk : k ≠ 0) : (ringRd (F := F) m ρ).duties (recvCell c k) 0 = {0} := by
  dsimp only [ringRd]; rw [if_neg (fun h => not_bar_recv c k h.2)]; exact if_pos ⟨rfl, rfl, k, hk, .inr rfl⟩
theorem duties_send0 (r : ℕ) : (ringRd (F := F) m ρ).duties (sendCell c 0) r = ∅ := by
  dsimp only [ringRd]; rw [if_neg (fun h => not_bar_send c 0 h.2), if_neg]
  rintro ⟨-, -, j, hj, h | h⟩
  · exact hj (sendS_inj (SemLoc.dma.inj h)).symm
  · exact sendS_ne_recvS 0 j (SemLoc.dma.inj h)
theorem duties_recv0 (r : ℕ) : (ringRd (F := F) m ρ).duties (recvCell c 0) r = ∅ := by
  dsimp only [ringRd]; rw [if_neg (fun h => not_bar_recv c 0 h.2), if_neg]
  rintro ⟨-, -, j, hj, h | h⟩
  · exact sendS_ne_recvS j 0 (SemLoc.dma.inj h).symm
  · exact hj (recvS_inj (SemLoc.dma.inj h)).symm
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 8) : (ringRd (F := F) m ρ).amount (barCell c) 0 d = 1 := by dsimp only [ringRd]; exact if_pos rfl
theorem amount_send (d : Fin 8) : (ringRd (F := F) m ρ).amount (sendCell c k) 0 d = N := by dsimp only [ringRd]; exact if_neg (send_ne_bar k)
theorem amount_recv (d : Fin 8) : (ringRd (F := F) m ρ).amount (recvCell c k) 0 d = N := by dsimp only [ringRd]; exact if_neg (recv_ne_bar k)

theorem expect_bar : (ringRd (F := F) m ρ).expect (barCell c) 0 = 7 := by
  unfold Schedule.expect Schedule.amountOf
  rw [duties_bar, Finset.sum_congr rfl fun d _ => amount_bar m ρ c d, Finset.sum_const, smul_eq_mul, Nat.mul_one]
  decide
theorem expect_send (hk : k ≠ 0) : (ringRd (F := F) m ρ).expect (sendCell c k) 0 = N := by
  unfold Schedule.expect Schedule.amountOf; rw [duties_send m ρ c k hk, Finset.sum_singleton, amount_send]
theorem expect_recv (hk : k ≠ 0) : (ringRd (F := F) m ρ).expect (recvCell c k) 0 = N := by
  unfold Schedule.expect Schedule.amountOf; rw [duties_recv m ρ c k hk, Finset.sum_singleton, amount_recv]

theorem payload_bar (j : Fin 8) : (ringRd (F := F) m ρ).payload (barCell c) 0 j = barPay c j := by
  dsimp only [ringRd]; exact if_pos rfl
theorem payload_send (d : Fin 8) : (ringRd (F := F) m ρ).payload (sendCell c k) 0 d = sendPay m ρ c k := by
  dsimp only [ringRd]
  rw [if_neg (by rw [sendS_val]; omega), if_pos (by rw [sendS_val]; omega), xk_sendS]
theorem payload_recv (d : Fin 8) : (ringRd (F := F) m ρ).payload (recvCell c k) 0 d = recvPay m ρ c k := by
  dsimp only [ringRd]
  rw [if_pos (by rw [recvS_val]; omega), xk_recvS]

/-- The rest of the barrier cell's round, no duty taken: the seven peers' payloads. -/
theorem rest_bar : bigSep ((ringRd (F := F) m ρ).duties (barCell c) 0 \ ∅) (fun d => (ringRd (F := F) m ρ).payload (barCell c) 0 d)
    = sep7 (fun j => barPay (F := F) c j) := by
  rw [Finset.sdiff_empty, duties_bar, bigSep_eq_bigSepL_of_eq [(1 : Fin 8), 2, 3, 4, 5, 6, 7] (by decide) (by decide)]
  simp only [bigSepL_cons_cons, bigSepL_singleton, payload_bar]
  rfl
theorem rest_send (hk : k ≠ 0) : bigSep ((ringRd (F := F) m ρ).duties (sendCell c k) 0 \ ∅) (fun d => (ringRd (F := F) m ρ).payload (sendCell c k) 0 d)
    = sendPay m ρ c k := by
  rw [Finset.sdiff_empty, duties_send m ρ c k hk, bigSep_singleton, payload_send]
theorem rest_recv (hk : k ≠ 0) : bigSep ((ringRd (F := F) m ρ).duties (recvCell c k) 0 \ ∅) (fun d => (ringRd (F := F) m ρ).payload (recvCell c k) 0 d)
    = recvPay m ρ c k := by
  rw [Finset.sdiff_empty, duties_recv m ρ c k hk, bigSep_singleton, payload_recv]

end Sched

instance ringRd_payload_storable (g : GSem nD τ sig) (r : ℕ) (d : Fin 8) :
    BI.Storable (upEmb : UEmb _ 𝕄) ((ringRd (F := F) m ρ).payload g r d) := by
  dsimp only [ringRd]
  unfold barPay recvPay sendPay
  (repeat' split) <;> first | infer_instance | exact rowPts_storable _ _ _ _

end Cert.Kernel.Proto
-- ==== Proof.BitsRows.lean ====
import proofs.«901009_g7700000000001010_dist_rmsnorm_colshard_i_m512_n256_v7x_i8_f32_1_alg».proof.Proof.BitsTables
import Idealize.ShloMosaic.Lib.Pipeline.Value

/-! # The scratch by rows and by shares

The 8×512 scratch of a device is the disjoint union of its eight rows; a row's points-to depends only on what a
valuation holds on that row; row 0 is halved, the left half staying with the device, the right half dealt to the seven
copies. The lemmas below cut the scratch for the protocol and put it back together. -/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Row 0 of the scratch as the kernel's store names it, and the whole scratch as its last load names it. -/
abbrev r00 : Rect S8x512 := Rect.unit (s := S8x512) ![0, 0] S1x512.size inb_S8x512_S1x512_0_0
abbrev rAll : Rect S8x512 := Rect.unit (s := S8x512) ![0, 0] S8x512.size inb_S8x512_S8x512_0_0

/-! ## The rows' element sets; a row's points-to by valuation and by share -/

/-- The rectangle of row `k`. -/
abbrev rowR (k : Fin 8) : Rect S8x512 := Rect.unit (s := S8x512) ![k.val, 0] S1x512.size (inbR k)

/-- A row's element set is its rectangle's. -/
theorem rowM_set (k : Fin 8) : (rowM k).view.set = (rowR k).set :=
  (View.set_reshape _ _).trans (View.set_slice_whole cc0_scratch0 _)

/-- An element of the scratch lies in row `k` exactly when its first coordinate is `k`. -/
theorem mem_rowR (k : Fin 8) (i : S8x512.Idx) : i ∈ (rowR k).set ↔ (i 0).val = k.val := by
  rw [Rect.mem_set_unit]
  have h1 : (i 1).val < 512 := (i 1).isLt
  constructor
  · intro h
    have h0 := h 0
    change k.val ≤ (i 0).val ∧ (i 0).val < k.val + 1 at h0
    omega
  · intro h a
    fin_cases a
    · change k.val ≤ (i 0).val ∧ (i 0).val < k.val + 1; omega
    · change 0 ≤ (i 1).val ∧ (i 1).val < 0 + 512; omega

theorem rowR_disjoint {k k' : Fin 8} (h : k ≠ k') : Disjoint (rowR k).set (rowR k').set := by
  rw [Finset.disjoint_left]
  intro i hi hi'
  exact h (Fin.ext (((mem_rowR k i).mp hi).symm.trans ((mem_rowR k' i).mp hi')))

theorem rowR_cover : (Finset.univ : Finset (Fin 8)).biUnion (fun k => (rowR k).set) = (Finset.univ : Finset S8x512.Idx) := by
  ext i
  rw [Finset.mem_biUnion]
  exact ⟨fun _ => Finset.mem_univ i, fun _ => ⟨⟨(i 0).val, (i 0).isLt⟩, Finset.mem_univ _, (mem_rowR _ i).mpr rfl⟩⟩

/-- The whole scratch at a share is its eight rows at that share. -/
theorem scratch_rows (c : Dev nD) (q : PosShare TreeShare) (f : Buf (Elt F) ((c : Thread nD τ).loc cc0_scratch0)) :
    ((((c : Thread nD τ).loc cc0_scratch0) ↦{q} f) : sProp 𝕄) = sep8 (fun k => rowPts c k q f) := by
  have h := pointsTo_biUnion (nD := nD) (τ := τ) (sig := sig) (Ix := Unit) (Val := Elt F) (Name := ℕ) (U := UU) (Lvl := ℕ)
    (ℓ := (c : Thread nD τ).loc cc0_scratch0) (q := q) (f := f)
    (Finset.univ : Finset (Fin 8)) (fun k => (rowR k).set) (fun k _ k' _ hkk' => rowR_disjoint hkk')
  have hc : ((((c : Thread nD τ).loc cc0_scratch0) ↦{q} f) : sProp 𝕄)
      = (((c : Thread nD τ).loc cc0_scratch0) ↦[(Finset.univ : Finset (Fin 8)).biUnion (fun k => (rowR k).set)]{q} f) :=
    congrArg (fun S => ((((c : Thread nD τ).loc cc0_scratch0) ↦[S]{q} f) : sProp 𝕄)) rowR_cover.symm
  have hr : ∀ k : Fin 8, ((((c : Thread nD τ).loc cc0_scratch0) ↦[(rowR k).set]{q} f) : sProp 𝕄) = rowPts c k q f := fun k =>
    congrArg (fun S => ((((c : Thread nD τ).loc cc0_scratch0) ↦[S]{q} f) : sProp 𝕄)) (rowM_set k).symm
  rw [hc, h, bigSep_univ_eq_bigSepL [(0 : Fin 8), 1, 2, 3, 4, 5, 6, 7] (by decide) (by decide)]
  simp only [bigSepL_cons_cons, bigSepL_singleton, hr]
  rfl

theorem mem_row (k : Fin 8) (i : S8x512.Idx) : i ∈ (rowM k).view.set ↔ (i 0).val = k.val :=
  (rowM_set k).symm ▸ mem_rowR k i

theorem bwd_val_eq (c : Dev nD) (j k : Fin 8) (h : j.val = k.val) : bwd j c = bwd k c := by rw [Fin.ext h]
theorem bwd_val_zero (c : Dev nD) (j : Fin 8) (h : j.val = (0 : Fin 8).val) : bwd j c = c := by
  rw [bwd_val_eq c j 0 h, bwd_zero]

/-- A row's points-to depends only on what the valuation holds on that row. -/
theorem rowPts_congr (c : Dev nD) (k : Fin 8) (q : PosShare TreeShare) {f g : Buf (Elt F) ((rowM k).view.loc (c : Thread nD τ))}
    (h : ∀ i : S8x512.Idx, (i 0).val = k.val → f i = g i) : (rowPts c k q f : sProp 𝕄) = rowPts c k q g := by
  unfold rowPts
  exact pointsTo_congr fun i hi => h i ((mem_row k i).mp hi)

/-- A row at a share is its two halves. -/
theorem rowPts_halves (c : Dev nD) (k : Fin 8) (q : PosShare TreeShare) (f : Buf (Elt F) ((rowM k).view.loc (c : Thread nD τ))) :
    (rowPts c k q f : sProp 𝕄) = iprop(rowPts c k q.left f ∗ rowPts c k q.right f) := by
  unfold rowPts
  have hu := pointsTo_share (nD := nD) (τ := τ) (sig := sig) (Ix := Unit) (Val := Elt F) (Name := ℕ) (U := UU) (Lvl := ℕ)
    (ℓ := (rowM k).view.loc (c : Thread nD τ)) (I := (rowM k).view.set) (f := f) (PosShare.mem_left_op_right q)
  exact BI.equiv_iff.mp ⟨hu.1, hu.2⟩

/-- Row 0 at full share: the left half, and the right half dealt in seven. -/
theorem row0_shares (c : Dev nD) (g : Buf (Elt F) ((rowM 0).view.loc (c : Thread nD τ))) :
    (rowPts c 0 fullShare g : sProp 𝕄) = iprop(rowPts c 0 fullShare.left g ∗ sep7 (fun k => rowPts c 0 (shr k) g)) := by
  have hs := fun q => rowPts_halves (F := F) c 0 q g
  rw [hs fullShare, hs fullShare.right, hs fullShare.right.right, hs fullShare.right.right.right,
    hs fullShare.right.right.right.right, hs fullShare.right.right.right.right.right,
    hs fullShare.right.right.right.right.right.right]
  rfl

/-- Where an index of a row sits in the scratch. -/
theorem rowM_emb (k : Fin 8) (y : S512.Idx) : (rowM k).view.emb y = ValueIdx.ix2 k (y 0) := by
  show (rowR k).emb (Shape.reshapeEquiv squeezes_S1x512_S512.numel_eq y) = _
  rw [Shape.reshapeEquiv_cons_one]
  funext a; fin_cases a
  · exact Fin.ext (by show k.val + 1 * 0 = k.val; omega)
  · exact Fin.ext (by show 0 + 1 * (y 0).val = (y 0).val; omega)

/-- On row 0 the final contents are the device's own row sums; on row `k` those of the device `k` places before. -/
theorem row0_final (c : Dev nD) (q : PosShare TreeShare) :
    (rowPts c 0 q (rowsOf m ρ c) : sProp 𝕄) = rowPts c 0 q (commFinal m ρ c) :=
  rowPts_congr c 0 q fun i hi => by
    exact congrArg (fun d => rsum m ρ d (ValueIdx.ix2 0 (i 1))) (bwd_val_zero c (i 0) hi).symm
theorem rowk_final (c : Dev nD) (k : Fin 8) (q : PosShare TreeShare) :
    (rowPts c k q (rowsOf m ρ (bwd k c)) : sProp 𝕄) = rowPts c k q (commFinal m ρ c) :=
  rowPts_congr c k q fun i hi => by
    exact congrArg (fun d => rsum m ρ d (ValueIdx.ix2 0 (i 1))) (bwd_val_eq c (i 0) k hi).symm

/-! ## Cutting the scratch and putting it back -/

/-- At entry: the scratch cut into row 0 and rows 1 … 7. -/
theorem start_split (c : Dev nD) (f : Buf (Elt F) ((c : Thread nD τ).loc cc0_scratch0)) :
    (cPts c f : sProp 𝕄) ⊢ iprop(rowPts c 0 fullShare f ∗ sep7 (fun k => rowPts c k fullShare f)) := by
  unfold cPts
  rw [scratch_rows]
  exact Entails.refl _

/-- The store into row 0, and the load of row 0, touch only row 0. -/
theorem store_sub : ((cM : Memref sig .tc .vmem S8x512 .f32).access r00).setOn Finset.univ ⊆ (rowM 0).view.set := by
  rw [View.setOn_univ, rowM_set]
  exact (View.set_slice_whole cc0_scratch0 r00).subset
theorem load_sub0 : (cM : Memref sig .tc .vmem S8x512 .f32).view.setOn r00.toLoadRect.set ⊆ (rowM 0).view.set := by
  rw [rowM_set]
  show (r00.toLoadRect.set).map (Function.Embedding.refl _) ⊆ _
  rw [Finset.map_refl]
  exact Finset.Subset.refl _

/-- Row 0 after the store of device `c`'s row sums holds them, whatever the scratch held. -/
theorem stored_row0 (c : Dev nD) (f : Buf (Elt F) ((c : Thread nD τ).loc cc0_scratch0)) :
    (rowPts c 0 fullShare (((cM : Memref sig .tc .vmem S8x512 .f32).access r00).write (Elt F) f (rsum m ρ c) Finset.univ) : sProp 𝕄)
      = rowPts c 0 fullShare (rowsOf m ρ c) := by
  refine rowPts_congr c 0 fullShare fun i hi => ?_
  have he : ((cM : Memref sig .tc .vmem S8x512 .f32).access r00).emb (ValueIdx.ix2 (0 : Fin 1) (i 1)) = i := by
    funext a; fin_cases a
    · exact Fin.ext (by show 0 + 1 * 0 = (i 0).val; exact hi.symm)
    · exact Fin.ext (by show 0 + 1 * (i 1).val = (i 1).val; omega)
  have hw := View.write_emb_of_mem (v := ((cM : Memref sig .tc .vmem S8x512 .f32).access r00)) (Val := Elt F) f (rsum m ρ c)
    (M := Finset.univ) (x := ValueIdx.ix2 (0 : Fin 1) (i 1)) (Finset.mem_univ _)
  rw [he] at hw
  rw [hw]
  exact cast_eq _ _

/-- Row 0 halved: the left half stays, the right half is dealt to the seven send cells. -/
theorem row0_lend (c : Dev nD) :
    (rowPts c 0 fullShare (rowsOf m ρ c) : sProp 𝕄)
      ⊢ iprop(rowPts c 0 fullShare.left (rowsOf m ρ c) ∗ sep7 (fun k => sendPay m ρ c k)) := by
  exact Entails.of_eq (row0_shares c (rowsOf m ρ c))

/-- A row's copy credits its receive cell with the row's credit. -/
theorem amount_row (k j : Fin 8) : (rowM k).view.amount (SemLoc.dma (recvS j)) = N := by
  rfl

/-- Copy `k` of device `c` landed: row `k` of the device `k` places after `c`, rewritten by the copy of `c`'s row 0,
    is that device's receive payload. -/
theorem landing (c : Dev nD) (k : Fin 8) (fd : Buf (Elt F) ((rowM k).view.loc ((fwd k c : Dev nD) : Thread nD τ))) :
    ((rowM k).view.loc ((fwd k c : Dev nD) : Thread nD τ) ↦[(rowM k).view.set]{fullShare}
        ((rowM k).view.write (Elt F) fd ((rowM 0).view.read (Elt F) (rowsOf m ρ c)) Finset.univ) : sProp 𝕄)
      ⊢ recvPay m ρ (fwd k c) k := by
  unfold recvPay
  rw [bwd_fwd]
  refine Entails.of_eq (rowPts_congr (fwd k c) k fullShare fun i hi => ?_)
  have he : (rowM k).view.emb (ValueIdx.ix1 (i 1)) = i := by
    rw [rowM_emb]
    funext a; fin_cases a
    · exact Fin.ext hi.symm
    · rfl
  have hw := View.write_emb_of_mem (v := (rowM k).view) (Val := Elt F) fd ((rowM 0).view.read (Elt F) (rowsOf m ρ c))
    (M := Finset.univ) (x := ValueIdx.ix1 (i 1)) (Finset.mem_univ _)
  rw [he] at hw
  have h1 : ((rowM 0).view.emb (ValueIdx.ix1 (i 1))) (1 : Fin 2) = i 1 := by rw [rowM_emb]
  rw [hw]
  exact (cast_eq _ _).trans ((cast_eq _ _).trans (congrArg (fun j : Fin 512 => rsum m ρ c (ValueIdx.ix2 0 j)) h1))

/-- Before the read of the whole scratch: the left halves of all eight rows make the scratch at the left half share,
    at its final contents; the right halves of rows 1 … 7 are kept aside. -/
theorem load_prep (c : Dev nD) :
    iprop(rowPts c 0 fullShare.left (rowsOf m ρ c) ∗ sep7 (fun k => recvPay m ρ c k))
      ⊢ iprop((((c : Thread nD τ).loc cc0_scratch0) ↦{fullShare.left} commFinal m ρ c)
          ∗ sep7 (fun k => rowPts c k fullShare.right (commFinal m ρ c)) : sProp 𝕄) := by
  rw [scratch_rows, row0_final]
  simp only [sep8, sep7, recvPay, rowk_final]
  rw [rowPts_halves c 1 fullShare (commFinal m ρ c), rowPts_halves c 2 fullShare (commFinal m ρ c),
    rowPts_halves c 3 fullShare (commFinal m ρ c), rowPts_halves c 4 fullShare (commFinal m ρ c),
    rowPts_halves c 5 fullShare (commFinal m ρ c), rowPts_halves c 6 fullShare (commFinal m ρ c),
    rowPts_halves c 7 fullShare (commFinal m ρ c)]
  iintro ⟨H0, ⟨L1, R1⟩, ⟨L2, R2⟩, ⟨L3, R3⟩, ⟨L4, R4⟩, ⟨L5, R5⟩, ⟨L6, R6⟩, ⟨L7, R7⟩⟩
  iframe

/-- Reading the whole scratch reads its contents. -/
theorem read_all (f : (cc0_scratch0 : Ref sig .tc).ty.Contents (Elt F)) :
    (cM : Memref sig .tc .vmem S8x512 .f32).view.readAt (Elt F) rAll.toLoadRect f = f := by
  exact Memref.readAt_unit_zero (Elt F) cc0_scratch0 (off := ![0, 0]) (by funext a; fin_cases a <;> rfl) inb_S8x512_S8x512_0_0 f

/-- At the end: the left half of the scratch, the seven shares of row 0 back from the send cells, and the right halves
    of rows 1 … 7 make the whole scratch at its final contents. -/
theorem final_join (c : Dev nD) :
    iprop((((c : Thread nD τ).loc cc0_scratch0) ↦{fullShare.left} commFinal m ρ c)
        ∗ sep7 (fun k => sendPay m ρ c k) ∗ sep7 (fun k => rowPts c k fullShare.right (commFinal m ρ c)))
      ⊢ (cPts c (commFinal m ρ c) : sProp 𝕄) := by
  unfold cPts
  rw [scratch_rows c fullShare, scratch_rows c fullShare.left]
  simp only [sep8, sendPay]
  rw [← row0_final m ρ c fullShare, row0_shares c (rowsOf m ρ c), row0_final m ρ c fullShare.left]
  simp only [sep7]
  rw [rowPts_halves c 1 fullShare (commFinal m ρ c), rowPts_halves c 2 fullShare (commFinal m ρ c),
    rowPts_halves c 3 fullShare (commFinal m ρ c), rowPts_halves c 4 fullShare (commFinal m ρ c),
    rowPts_halves c 5 fullShare (commFinal m ρ c), rowPts_halves c 6 fullShare (commFinal m ρ c),
    rowPts_halves c 7 fullShare (commFinal m ρ c)]
  iintro ⟨⟨L0, L1, L2, L3, L4, L5, L6, L7⟩, ⟨S1, S2, S3, S4, S5, S6, S7⟩, R1, R2, R3, R4, R5, R6, R7⟩
  iframe

end Cert.Kernel.Proto
-- ==== Proof.BitsBody.lean ====
import proofs.«901009_g7700000000001010_dist_rmsnorm_colshard_i_m512_n256_v7x_i8_f32_1_alg».proof.Proof.BitsRows

/-! # One device's body

The body of device `c`, stepped once at a symbolic device: seven signals, the store of the row sums, the barrier
wait, seven copies, the seven receive waits, the read of the gathered rows, the store of the block, the seven send
waits. Each synchronising step is one rule of the rounds discipline at the cells of the protocol. -/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 17 → ℕ)

/-! ## Reading the records -/

theorem kcell_iS (c : Dev nD) (k : Fin 8) : kcell (c, iS k) = sendCell c k := by
  show ((c : Thread nD τ), csem (iS k)) = _; rw [csem_iS]
theorem kcell_iR (c : Dev nD) (k : Fin 8) : kcell (c, iR k) = recvCell c k := by
  show ((c : Thread nD τ), csem (iR k)) = _; rw [csem_iR]

theorem inv_at' (cj : Dev nD × Fin 17) :
    (bigSep Finset.univ fun cj : Dev nD × Fin 17 => (cellInv ER (ringRd m ρ) (K cj) (kcell cj) : sProp 𝕄)) ⊢ cellInv ER (ringRd m ρ) (K cj) (kcell cj) :=
  bigSep_elim (Finset.mem_univ cj)
theorem reached_at' (cj : Dev nD × Fin 17) :
    (bigSep Finset.univ fun cj : Dev nD × Fin 17 => (reached ER (kcell cj) 0 : sProp 𝕄)) ⊢ reached ER (kcell cj) 0 :=
  bigSep_elim (Finset.mem_univ cj)
theorem inv_at (cj : Dev nD × Fin 17) : records m ρ K ⊢ cellInv ER (ringRd m ρ) (K cj) (kcell cj) := by
  unfold records; iintro ⟨HI, -⟩; iapply (inv_at' m ρ K cj); iexact HI
theorem reached_at (cj : Dev nD × Fin 17) : records m ρ K ⊢ reached ER (kcell cj) 0 := by
  unfold records; iintro ⟨-, HR⟩; iapply (reached_at' (F := F) cj); iexact HR

theorem inv_bar (c : Dev nD) : records m ρ K ⊢ cellInv ER (ringRd m ρ) (K (c, iB)) (barCell c) := inv_at m ρ K (c, iB)
theorem inv_send (c : Dev nD) (k : Fin 8) : records m ρ K ⊢ cellInv ER (ringRd m ρ) (K (c, iS k)) (sendCell c k) :=
  (inv_at m ρ K (c, iS k)).trans (Entails.of_eq (by rw [kcell_iS]))
theorem inv_recv (c : Dev nD) (k : Fin 8) : records m ρ K ⊢ cellInv ER (ringRd m ρ) (K (c, iR k)) (recvCell c k) :=
  (inv_at m ρ K (c, iR k)).trans (Entails.of_eq (by rw [kcell_iR]))
theorem reached_bar (c : Dev nD) : records m ρ K ⊢ reached ER (barCell c) 0 := reached_at m ρ K (c, iB)
theorem reached_send (c : Dev nD) (k : Fin 8) : records m ρ K ⊢ reached ER (sendCell c k) 0 :=
  (reached_at m ρ K (c, iS k)).trans (Entails.of_eq (by rw [kcell_iS]))
theorem reached_recv (c : Dev nD) (k : Fin 8) : records m ρ K ⊢ reached ER (recvCell c k) 0 :=
  (reached_at m ρ K (c, iR k)).trans (Entails.of_eq (by rw [kcell_iR]))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 7) ∗ sep7 (fun k => cred (tallyAt (recvCell c k) () N)) ∗ levAts L lv ∗ ∃ f, cPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (gstg m ρ c) ∗ stg c cc0_stg2_0 (outAt m ρ c))

/-! ## The synchronising steps, at a symbolic shift `k` -/

theorem barPay_eq (c : Dev nD) (k : Fin 8) :
    (barPay (F := F) c (neg k)) = iprop((∃ f, rowPts (fwd k c) k fullShare f) ∗ reached ER (recvCell (fwd k c) k) 0) := by
  unfold barPay; rw [bwd_neg, neg_neg]

theorem credit_row (k : Fin 8) : (rowM k).view.dmaCredit = N := by revert k; decide

/-- Signal `k`: one unit on the barrier of the device `k` places after `c`, paying duty `k` there; with it go `c`'s row
    `neg k` (the row that device's copy will fill) and that `c` has reached round 0 of the receive cell of that row. -/
theorem wp_sig (c : Dev nD) (k : Fin 8) (hk : k ≠ 0) (n : Dev nD) (hn : n = fwd k c)
    {α : Type} {Q : α → sProp 𝕄} {kont : PUnit → Prog (TpuEff nD τ sig (Elt F) Λ₀ .tc) α}
    (O₁ O : CellTallies nD τ sig Unit) (hO : O₁ = O + tallyAt (barCell (fwd k c)) () 1) (W : Waits sig Unit) :
    iprop(records m ρ K ∗ owes (c : Thread nD τ) O₁ W ∗ dutyTok ER (barCell (fwd k c)) 0 k ∗ (∃ f, rowPts c (neg k) fullShare f))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal ((n : Dev nD) : Thread nD τ) barS (1#32 : BitVec 32).toNat) kont) Q) := by
  subst hn
  iintro ⟨#HR, HO, Htok, Hrow⟩
  iapply (Rounds.wp_signal 𝒱₀ ER (ringRd m ρ) (c : Thread nD τ) none (dst := ((fwd k c : Dev nD) : Thread nD τ)) (κ := K (fwd k c, iB))
      (d := k) (by rw [duties_bar]; exact Finset.mem_erase.mpr ⟨hk, Finset.mem_univ _⟩) ((amount_bar m ρ (fwd k c) k).trans (by decide)) () O hO)
    $$ [HO Htok Hrow]
  · isplitr; · iapply (inv_bar m ρ K (fwd k c)); iexact HR
    isplitl [HO]; · iexact HO
    isplitl [Htok]; · iexact Htok
    isplitl [Hrow]
    · rw [payload_bar]; unfold barPay; rw [bwd_fwd]
      isplitl [Hrow]; · iexact Hrow
      iapply (reached_recv m ρ K c (neg k)); iexact HR
    · iapply (reached_bar m ρ K (fwd k c)); iexact HR

/-- Copy `k`: `c`'s row 0 into row `k` of the device `k` places after it, paying the one duty of `c`'s send cell `k`
    (with the share of row 0 lent to it) and the one duty of that device's receive cell `k` (with its row `k` rewritten). -/
theorem wp_copy_k (c : Dev nD) (k : Fin 8) (hk : k ≠ 0) (n : Dev nD) (hn : n = fwd k c)
    {hsc : (rowM k : Memref sig (Dev.tc n : Thread nD τ).2.kind .vmem S512 .f32).view.ref.isScScratch = false}
    {hsrc : (rowM 0 : Memref sig .tc .vmem S512 .f32).view.WordExact} {hdst : (rowM k : Memref sig .tc .vmem S512 .f32).view.WordExact}
    {hsem : DmaTarget.Typed .vmem (.dma (recvS k)) (.remote (Dev.tc n : Thread nD τ) (rowM k : Memref sig .tc .vmem S512 .f32) (.dma (sendS k)) hsc)}
    {α : Type} {Q : α → sProp 𝕄} {kont : PUnit → Prog (TpuEff nD τ sig (Elt F) Λ₀ .tc) α}
    (fn : Buf (Elt F) ((rowM k).view.loc ((fwd k c : Dev nD) : Thread nD τ)))
    (O₁ O : CellTallies nD τ sig Unit) (hO : O₁ = O + tallyAt (recvCell (fwd k c) k) () N) (W : Waits sig Unit) :
    iprop(records m ρ K ∗ sendPay m ρ c k ∗ rowPts (fwd k c) k fullShare fn ∗ owes (c : Thread nD τ) O₁ W
        ∗ dutyTok ER (sendCell c k) 0 0 ∗ dutyTok ER (recvCell (fwd k c) k) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM 0) (.remote (Dev.tc n : Thread nD τ) (rowM k) (.dma (sendS k)) hsc) (.dma (recvS k)) hsrc hdst hsem) kont) Q) := by
  subst hn
  iintro ⟨#HR, Hsrc, Hdst, HO, Hts, Htr⟩
  unfold sendPay rowPts
  iapply (Rounds.wp_send_pointsTo 𝒱₀ ER (ringRd m ρ) (c : Thread nD τ) none (κ₁ := K (c, iS k)) (κ₂ := K (fwd k c, iR k))
      (r₁ := 0) (r₂ := 0) (d₁ := 0) (d₂ := 0) (fd := fn)
      (by rw [duties_send m ρ c k hk]; exact Finset.mem_singleton_self _) (by rw [duties_recv m ρ (fwd k c) k hk]; exact Finset.mem_singleton_self _)
      () () N (amount_row k k) (amount_send m ρ c k 0) (amount_recv m ρ (fwd k c) k 0) O hO (W := W)
      (by rw [payload_send]; exact BI.Entails.refl _)
      (by rw [payload_recv]; exact landing m ρ c k fn)) $$ [Hsrc Hdst HO Hts Htr]
  isplitr; · iapply (inv_send m ρ K c k); iexact HR
  isplitr; · iapply (inv_recv m ρ K (fwd k c) k); iexact HR
  isplitl [Hsrc]; · iexact Hsrc
  isplitl [Hdst]; · iexact Hdst
  isplitl [HO]; · iexact HO
  isplitl [Hts]; · iexact Hts
  isplitr; · iapply (reached_send m ρ K c k); iexact HR
  isplitl [Htr]; · iexact Htr
  iapply (reached_recv m ρ K (fwd k c) k); iexact HR

/-- The wait on receive cell `k`, owing nothing: row `k` comes back holding the row sums of the device `k` places before `c`. -/
theorem wp_recvwait (c : Dev nD) (k : Fin 8) (hk : k ≠ 0) {src : Memref sig .tc .vmem S512 .f32}
    {hsrc : src.view.WordExact} {hdst : (rowM k : Memref sig .tc .vmem S512 .f32).view.WordExact}
    {α : Type} {Q : α → sProp 𝕄} {kont : PUnit → Prog (TpuEff nD τ sig (Elt F) Λ₀ .tc) α} (W : Waits sig Unit) :
    iprop(records m ρ K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) 1 ∅ 0 ∗ recvPay m ρ c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k) src (rowM k) hsrc hdst) kont) Q) := by
  iintro ⟨#HR, Hc, HO, Hat⟩ Hk
  iapply (Rounds.wp_wait_rest_token 𝒱₀ ER (ringRd m ρ) (c : Thread nD τ) none (κ := K (c, iR k))
      (wpE_waitDma2_eq 𝒱₀ (c : Thread nD τ) none Set.univ) (Set.mem_univ _) () (O := 0) (W := W) (R := 0) (m := 0) (T := ∅)
      (by rw [Nat.zero_add, expect_recv m ρ c k hk, credit_row])) $$ [Hc HO Hat]
  · isplitr; · iapply (inv_recv m ρ K c k); iexact HR
    isplitl [Hc]; · rw [credit_row]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m ρ c k hk)); iexact Hpay

/-- The wait on send cell `k`, owing nothing: the share of row 0 lent to copy `k` comes back. -/
theorem wp_sendwait (c : Dev nD) (k : Fin 8) (hk : k ≠ 0) {src : Memref sig .tc .vmem S512 .f32}
    {hsrc : src.view.WordExact} {hdst : (rowM 0 : Memref sig .tc .vmem S512 .f32).view.WordExact}
    {α : Type} {Q : α → sProp 𝕄} {kont : PUnit → Prog (TpuEff nD τ sig (Elt F) Λ₀ .tc) α} (W : Waits sig Unit) :
    iprop(records m ρ K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ atPos ER (sendCell c k) 1 ∅ 0 ∗ sendPay m ρ c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k) src (rowM 0) hsrc hdst) kont) Q) := by
  iintro ⟨#HR, Hc, HO, Hat⟩ Hk
  iapply (Rounds.wp_wait_rest_token 𝒱₀ ER (ringRd m ρ) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_send m ρ c k hk])) $$ [Hc HO Hat]
  · isplitr; · iapply (inv_send m ρ K c k); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m ρ c k hk)); iexact Hpay

/-- An own cell with no duty from round `R` on, nothing of that round taken, closes: its counter at zero is the core's again. -/
theorem close_send (c : Dev nD) (k : Fin 8) (R : ℕ) (hR : ∀ r, R ≤ r → (ringRd (F := F) m ρ).duties (sendCell c k) r = ∅) :
    iprop(records m ρ K ∗ atPos ER (sendCell c k) R ∅ 0) ⊢ iprop(|={Set.univ}=> semVal (sendCell c k) 0) := by
  iintro ⟨#HR, Hat⟩
  iapply (Rounds.cell_close ER (ringRd m ρ) (Set.mem_univ (K (c, iS k))) (fun h => h) (R := R) hR)
  isplitr; · iapply (inv_send m ρ K c k); iexact HR
  iexact Hat
theorem close_recv (c : Dev nD) (k : Fin 8) (R : ℕ) (hR : ∀ r, R ≤ r → (ringRd (F := F) m ρ).duties (recvCell c k) r = ∅) :
    iprop(records m ρ K ∗ atPos ER (recvCell c k) R ∅ 0) ⊢ iprop(|={Set.univ}=> semVal (recvCell c k) 0) := by
  iintro ⟨#HR, Hat⟩
  iapply (Rounds.cell_close ER (ringRd m ρ) (Set.mem_univ (K (c, iR k))) (fun h => h) (R := R) hR)
  isplitr; · iapply (inv_recv m ρ K c k); iexact HR
  iexact Hat

/-! ## Local steps on row 0 and on the staged blocks -/

abbrev rX : Rect S512x256 := Rect.unit (s := S512x256) ![0, 0] S512x256.size inb_S512x256_S512x256_0_0
abbrev rG : Rect S256 := Rect.unit (s := S256) ![0] S256.size inb_S256_S256_0

theorem hz2 : (![0, 0] : Fin 2 → Nat) = fun _ => 0 := funext fun a => by fin_cases a <;> rfl
theorem hz1 : (![0] : Fin 1 → Nat) = fun _ => 0 := funext fun a => by fin_cases a; rfl
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
theorem read_g (f : (cc0_stg1_0 : Ref sig .tc).ty.Contents (Elt F)) : (gM : Memref sig .tc .vmem S256 .f32).view.readAt (Elt F) rG.toLoadRect f = f :=
  Memref.readAt_unit_zero (Elt F) cc0_stg1_0 hz1 _ f
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-- The kernel's (unused) load of row 0 and its store of the row sums into row 0, holding row 0 alone. -/
theorem row0_load (c : Dev nD) (f : Buf (Elt F) ((c : Thread nD τ).loc cc0_scratch0)) {hl : (cM : Memref sig .tc .vmem S8x512 .f32).view.LoadsAt r00.toLoadRect}
    {α : Type} {Q : α → sProp 𝕄} {kont : (r00.toLoadRect.shape.Idx → Elt F .f32) → Prog (TpuEff nD τ sig (Elt F) Λ₀ .tc) α} :
    (rowPts c 0 fullShare f : sProp 𝕄)
      ⊢ iprop((rowPts c 0 fullShare f -∗ wp frame (wpE (defs₀ (F := F)) 𝒱₀ (c : Thread nD τ) none) Set.univ
            (kont ((cM : Memref sig .tc .vmem S8x512 .f32).view.readAt (Elt F) r00.toLoadRect f)) Q)
          -∗ wp frame (wpE (defs₀ (F := F)) 𝒱₀ (c : Thread nD τ) none) Set.univ (.op (.load cM r00.toLoadRect hl) kont) Q) := by
  unfold rowPts
  exact wp_load 𝒱₀ (c : Thread nD τ) none Set.univ (m := cM) (S := (rowM 0).view.set) load_sub0
theorem row0_store (c : Dev nD) (f : Buf (Elt F) ((c : Thread nD τ).loc cc0_scratch0)) (w : r00.shape.Idx → Elt F .f32)
    {hx : ((cM : Memref sig .tc .vmem S8x512 .f32).access r00).Stores Finset.univ} {hm : (Finset.univ : Finset r00.shape.Idx) = Finset.univ ∨ ∀ a, r00.stride a = 1}
    {α : Type} {Q : α → sProp 𝕄} {kont : PUnit → Prog (TpuEff nD τ sig (Elt F) Λ₀ .tc) α} :
    (rowPts c 0 fullShare f : sProp 𝕄)
      ⊢ iprop((rowPts c 0 fullShare (((cM : Memref sig .tc .vmem S8x512 .f32).access r00).write (Elt F) f w Finset.univ)
            -∗ wp frame (wpE (defs₀ (F := F)) 𝒱₀ (c : Thread nD τ) none) Set.univ (kont ⟨⟩) Q)
          -∗ wp frame (wpE (defs₀ (F := F)) 𝒱₀ (c : Thread nD τ) none) Set.univ (.op (.store cM r00 w Finset.univ hx hm) kont) Q) := by
  unfold rowPts
  exact wp_store 𝒱₀ (c : Thread nD τ) none Set.univ (m := cM) (r := r00) (Mk := Finset.univ) (S := (rowM 0).view.set) store_sub

/-- Row 0 after the store of the row sums, the stored vector spelt as the body computes it. -/
theorem stored_row0' (c : Dev nD) (f : Buf (Elt F) ((c : Thread nD τ).loc cc0_scratch0)) :
    (rowPts c 0 fullShare (((cM : Memref sig .tc .vmem S8x512 .f32).access r00).write (Elt F) f (k0_pay3 (k0_pay2 (xstg m ρ c))) Finset.univ) : sProp 𝕄)
      = rowPts c 0 fullShare (rowsOf m ρ c) := stored_row0 m ρ c f

/-! ## The levels at the barrier wait -/

theorem L_tc (c : Dev nD) (sm : SemLoc sig) : L ((c : Thread nD τ), sm) = {()} := if_pos rfl

/-- Whatever is still owed of the copies is owed to a receive cell. -/
theorem OwS_pos {c : Dev nD} {i : ℕ} {g : GSem nD τ sig} {u : Unit} (h : 0 < OwS c i g u) : ∃ k : Fin 8, g = recvCell (fwd k c) k := by
  induction i with
  | zero => exact absurd h (Nat.lt_irrefl 0)
  | succ i ih =>
    unfold OwS at h
    rw [Pi.add_apply, Finsupp.add_apply, tallyAt_apply] at h
    by_cases hg : g = recvCell (fwd (kk (7 - i)) c) (kk (7 - i)) ∧ u = ()
    · exact ⟨_, hg.1⟩
    · rw [if_neg hg, Nat.add_zero] at h; exact ih h

/-- At its barrier wait a device owes receive credit only: receive cells lie above barrier cells. -/
theorem mayWait_bar (c : Dev nD) : (levAts L lv : sProp 𝕄) ⊢ MayWait (c : Thread nD τ) (.reg barS) () (OwS c 7) :=
  MayOwe.of_cut (L := L) (lev := lv) 1 (fun p hp => by rw [Finset.mem_singleton.mp hp, L_tc]; exact Finset.mem_singleton_self _)
    (fun g u hg => by obtain ⟨k, rfl⟩ := OwS_pos hg; rw [L_tc]; exact Finset.mem_singleton_self _)
    (fun p hp => by rw [Finset.mem_singleton.mp hp]; dsimp only [lv]; rw [if_pos rfl])
    (fun g u hg => by obtain ⟨k, rfl⟩ := OwS_pos hg; dsimp only [lv]; rw [if_pos (by rw [recvS_val]; omega)]; decide)

/-! ## The body -/

set_option maxHeartbeats 4000000 in
set_option maxRecDepth 65536 in
/-- The body, stepped from `bodyPre` in program order to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c]
  unfold bodyPre ghost positions payToks sep8 sep7
  iintro ⟨⟨⟨⟨#HR, ⟨HaB, ⟨HaS0, HaS1, HaS2, HaS3, HaS4, HaS5, HaS6, HaS7⟩, ⟨HaR0, HaR1, HaR2, HaR3, HaR4, HaR5, HaR6, HaR7⟩⟩, ⟨⟨HtB1, HtB2, HtB3, HtB4, HtB5, HtB6, HtB7⟩, ⟨HtR1, HtR2, HtR3, HtR4, HtR5, HtR6, HtR7⟩, ⟨HtS1, HtS2, HtS3, HtS4, HtS5, HtS6, HtS7⟩⟩⟩, HcB, ⟨HcR1, HcR2, HcR3, HcR4, HcR5, HcR6, HcR7⟩, #Hlev, ⟨%f0, Hscr⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch0_0 t₀)]; rfl
  have hgm : g1 = gstg m ρ c := by rw [hg1]; unfold Dat.before; rw [if_pos (fetch0_1 t₀)]; rfl
  subst hx; subst hgm
  unfold Dat.owesAt Pipeline.owesWithin
  icases Ho with ⟨%W, %hW, HO⟩
  rw [show (dats m ρ 0 c).owed t₀.castSucc = OwB c 7 from rfl]
  -- the scratch cut into its rows
  ihave Hrows := (start_split c f0) $$ Hscr
  unfold sep7
  icases Hrows with ⟨Hr0, Hr1, Hr2, Hr3, Hr4, Hr5, Hr6, Hr7⟩
  -- signal 1: to the device 1 after, with row 7
  iapply (wp_sig m ρ K c 1 (by decide) _ rfl (OwB c 7) (OwB c 6) rfl _) $$ [HO HtB1 Hr7]
  · isplitr; · iexact HR
    isplitl [HO]; · iexact HO
    isplitl [HtB1]; · iexact HtB1
    iexists f0; iexact Hr7
  iintro HO
  -- signal 2: to the device 2 after, with row 6
  iapply (wp_sig m ρ K c 2 (by decide) _ rfl (OwB c 6) (OwB c 5) rfl _) $$ [HO HtB2 Hr6]
  · isplitr; · iexact HR
    isplitl [HO]; · iexact HO
    isplitl [HtB2]; · iexact HtB2
    iexists f0; iexact Hr6
  iintro HO
  -- signal 3: to the device 3 after, with row 5
  iapply (wp_sig m ρ K c 3 (by decide) _ rfl (OwB c 5) (OwB c 4) rfl _) $$ [HO HtB3 Hr5]
  · isplitr; · iexact HR
    isplitl [HO]; · iexact HO
    isplitl [HtB3]; · iexact HtB3
    iexists f0; iexact Hr5
  iintro HO
  -- signal 4: to the device 4 after, with row 4
  iapply (wp_sig m ρ K c 4 (by decide) _ rfl (OwB c 4) (OwB c 3) rfl _) $$ [HO HtB4 Hr4]
  · isplitr; · iexact HR
    isplitl [HO]; · iexact HO
    isplitl [HtB4]; · iexact HtB4
    iexists f0; iexact Hr4
  iintro HO
  -- signal 5: to the device 5 after, with row 3
  iapply (wp_sig m ρ K c 5 (by decide) _ rfl (OwB c 3) (OwB c 2) rfl _) $$ [HO HtB5 Hr3]
  · isplitr; · iexact HR
    isplitl [HO]; · iexact HO
    isplitl [HtB5]; · iexact HtB5
    iexists f0; iexact Hr3
  iintro HO
  -- signal 6: to the device 6 after, with row 2
  iapply (wp_sig m ρ K c 6 (by decide) _ rfl (OwB c 2) (OwB c 1) rfl _) $$ [HO HtB6 Hr2]
  · isplitr; · iexact HR
    isplitl [HO]; · iexact HO
    isplitl [HtB6]; · iexact HtB6
    iexists f0; iexact Hr2
  iintro HO
  -- signal 7: to the device 7 after, with row 1
  iapply (wp_sig m ρ K c 7 (by decide) _ rfl (OwB c 1) (OwB c 0) rfl _) $$ [HO HtB7 Hr1]
  · isplitr; · iexact HR
    isplitl [HO]; · iexact HO
    isplitl [HtB7]; · iexact HtB7
    iexists f0; iexact Hr1
  iintro HO
  -- the block of x, the (unused) read of row 0, the row sums into row 0
  iapply (wp_load 𝒱₀ (c : Thread nD τ) none Set.univ (m := xM) (Finset.subset_univ _)) $$ Hx; iintro Hx
  rw [read_x]
  iapply (row0_load c f0) $$ Hr0; iintro Hr0
  iapply (row0_store c f0 _) $$ Hr0; iintro Hr0
  ihave Hr0s := (Entails.of_eq (stored_row0' m ρ c f0)) $$ Hr0
  ihave Hl := (row0_lend m ρ c) $$ Hr0s
  unfold sep7
  icases Hl with ⟨Hr0L, Hs1, Hs2, Hs3, Hs4, Hs5, Hs6, Hs7⟩
  -- the barrier wait, owing the seven copies
  iapply (Rounds.wp_wait_rest_token 𝒱₀ ER (ringRd m ρ) (c : Thread nD τ) none (κ := K (c, iB))
      (wpE_semWait_eq 𝒱₀ (c : Thread nD τ) none Set.univ) (Set.mem_univ _) () (O := OwS c 7) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold sep7
  icases Hp with ⟨Hb1, Hb2, Hb3, Hb4, Hb5, Hb6, Hb7⟩
  -- copy 1: into row 1 of the device 1 after
  ihave Hd := (show ((fun j => barPay (F := F) c j) 7 : sProp 𝕄) ⊢ iprop((∃ f, rowPts (fwd 1 c) 1 fullShare f) ∗ reached ER (recvCell (fwd 1 c) 1) 0)
      from Entails.of_eq (barPay_eq c 1)) $$ Hb7
  icases Hd with ⟨⟨%fn1, Hn1⟩, -⟩
  iapply (wp_copy_k m ρ K c 1 (by decide) _ (dev8_eq c) fn1 (OwS c 7) (OwS c 6) rfl _) $$ [Hs1 Hn1 HO HtS1 HtR1]
  · isplitr; · iexact HR
    isplitl [Hs1]; · iexact Hs1
    isplitl [Hn1]; · iexact Hn1
    isplitl [HO]; · iexact HO
    isplitl [HtS1]; · iexact HtS1
    iexact HtR1
  iintro ⟨HcS1, HO⟩
  -- copy 2: into row 2 of the device 2 after
  ihave Hd := (show ((fun j => barPay (F := F) c j) 6 : sProp 𝕄) ⊢ iprop((∃ f, rowPts (fwd 2 c) 2 fullShare f) ∗ reached ER (recvCell (fwd 2 c) 2) 0)
      from Entails.of_eq (barPay_eq c 2)) $$ Hb6
  icases Hd with ⟨⟨%fn2, Hn2⟩, -⟩
  iapply (wp_copy_k m ρ K c 2 (by decide) _ (dev9_eq c) fn2 (OwS c 6) (OwS c 5) rfl _) $$ [Hs2 Hn2 HO HtS2 HtR2]
  · isplitr; · iexact HR
    isplitl [Hs2]; · iexact Hs2
    isplitl [Hn2]; · iexact Hn2
    isplitl [HO]; · iexact HO
    isplitl [HtS2]; · iexact HtS2
    iexact HtR2
  iintro ⟨HcS2, HO⟩
  -- copy 3: into row 3 of the device 3 after
  ihave Hd := (show ((fun j => barPay (F := F) c j) 5 : sProp 𝕄) ⊢ iprop((∃ f, rowPts (fwd 3 c) 3 fullShare f) ∗ reached ER (recvCell (fwd 3 c) 3) 0)
      from Entails.of_eq (barPay_eq c 3)) $$ Hb5
  icases Hd with ⟨⟨%fn3, Hn3⟩, -⟩
  iapply (wp_copy_k m ρ K c 3 (by decide) _ (dev10_eq c) fn3 (OwS c 5) (OwS c 4) rfl _) $$ [Hs3 Hn3 HO HtS3 HtR3]
  · isplitr; · iexact HR
    isplitl [Hs3]; · iexact Hs3
    isplitl [Hn3]; · iexact Hn3
    isplitl [HO]; · iexact HO
    isplitl [HtS3]; · iexact HtS3
    iexact HtR3
  iintro ⟨HcS3, HO⟩
  -- copy 4: into row 4 of the device 4 after
  ihave Hd := (show ((fun j => barPay (F := F) c j) 4 : sProp 𝕄) ⊢ iprop((∃ f, rowPts (fwd 4 c) 4 fullShare f) ∗ reached ER (recvCell (fwd 4 c) 4) 0)
      from Entails.of_eq (barPay_eq c 4)) $$ Hb4
  icases Hd with ⟨⟨%fn4, Hn4⟩, -⟩
  iapply (wp_copy_k m ρ K c 4 (by decide) _ (dev11_eq c) fn4 (OwS c 4) (OwS c 3) rfl _) $$ [Hs4 Hn4 HO HtS4 HtR4]
  · isplitr; · iexact HR
    isplitl [Hs4]; · iexact Hs4
    isplitl [Hn4]; · iexact Hn4
    isplitl [HO]; · iexact HO
    isplitl [HtS4]; · iexact HtS4
    iexact HtR4
  iintro ⟨HcS4, HO⟩
  -- copy 5: into row 5 of the device 5 after
  ihave Hd := (show ((fun j => barPay (F := F) c j) 3 : sProp 𝕄) ⊢ iprop((∃ f, rowPts (fwd 5 c) 5 fullShare f) ∗ reached ER (recvCell (fwd 5 c) 5) 0)
      from Entails.of_eq (barPay_eq c 5)) $$ Hb3
  icases Hd with ⟨⟨%fn5, Hn5⟩, -⟩
  iapply (wp_copy_k m ρ K c 5 (by decide) _ (dev12_eq c) fn5 (OwS c 3) (OwS c 2) rfl _) $$ [Hs5 Hn5 HO HtS5 HtR5]
  · isplitr; · iexact HR
    isplitl [Hs5]; · iexact Hs5
    isplitl [Hn5]; · iexact Hn5
    isplitl [HO]; · iexact HO
    isplitl [HtS5]; · iexact HtS5
    iexact HtR5
  iintro ⟨HcS5, HO⟩
  -- copy 6: into row 6 of the device 6 after
  ihave Hd := (show ((fun j => barPay (F := F) c j) 2 : sProp 𝕄) ⊢ iprop((∃ f, rowPts (fwd 6 c) 6 fullShare f) ∗ reached ER (recvCell (fwd 6 c) 6) 0)
      from Entails.of_eq (barPay_eq c 6)) $$ Hb2
  icases Hd with ⟨⟨%fn6, Hn6⟩, -⟩
  iapply (wp_copy_k m ρ K c 6 (by decide) _ (dev13_eq c) fn6 (OwS c 2) (OwS c 1) rfl _) $$ [Hs6 Hn6 HO HtS6 HtR6]
  · isplitr; · iexact HR
    isplitl [Hs6]; · iexact Hs6
    isplitl [Hn6]; · iexact Hn6
    isplitl [HO]; · iexact HO
    isplitl [HtS6]; · iexact HtS6
    iexact HtR6
  iintro ⟨HcS6, HO⟩
  -- copy 7: into row 7 of the device 7 after
  ihave Hd := (show ((fun j => barPay (F := F) c j) 1 : sProp 𝕄) ⊢ iprop((∃ f, rowPts (fwd 7 c) 7 fullShare f) ∗ reached ER (recvCell (fwd 7 c) 7) 0)
      from Entails.of_eq (barPay_eq c 7)) $$ Hb1
  icases Hd with ⟨⟨%fn7, Hn7⟩, -⟩
  iapply (wp_copy_k m ρ K c 7 (by decide) _ (dev14_eq c) fn7 (OwS c 1) (OwS c 0) rfl _) $$ [Hs7 Hn7 HO HtS7 HtR7]
  · isplitr; · iexact HR
    isplitl [Hs7]; · iexact Hs7
    isplitl [Hn7]; · iexact Hn7
    isplitl [HO]; · iexact HO
    isplitl [HtS7]; · iexact HtS7
    iexact HtR7
  iintro ⟨HcS7, HO⟩
  -- the block of gamma
  iapply (wp_load 𝒱₀ (c : Thread nD τ) none Set.univ (m := gM) (Finset.subset_univ _)) $$ Hg; iintro Hg
  rw [read_g]
  -- the wait on receive cell 1
  iapply (wp_recvwait m ρ K c 1 (by decide) _) $$ [HcR1 HO HaR1]
  · isplitr; · iexact HR
    isplitl [HcR1]; · iexact HcR1
    isplitl [HO]; · iexact HO
    iexact HaR1
  iintro ⟨HO, HaR1, Hp1⟩
  -- the wait on receive cell 2
  iapply (wp_recvwait m ρ K c 2 (by decide) _) $$ [HcR2 HO HaR2]
  · isplitr; · iexact HR
    isplitl [HcR2]; · iexact HcR2
    isplitl [HO]; · iexact HO
    iexact HaR2
  iintro ⟨HO, HaR2, Hp2⟩
  -- the wait on receive cell 3
  iapply (wp_recvwait m ρ K c 3 (by decide) _) $$ [HcR3 HO HaR3]
  · isplitr; · iexact HR
    isplitl [HcR3]; · iexact HcR3
    isplitl [HO]; · iexact HO
    iexact HaR3
  iintro ⟨HO, HaR3, Hp3⟩
  -- the wait on receive cell 4
  iapply (wp_recvwait m ρ K c 4 (by decide) _) $$ [HcR4 HO HaR4]
  · isplitr; · iexact HR
    isplitl [HcR4]; · iexact HcR4
    isplitl [HO]; · iexact HO
    iexact HaR4
  iintro ⟨HO, HaR4, Hp4⟩
  -- the wait on receive cell 5
  iapply (wp_recvwait m ρ K c 5 (by decide) _) $$ [HcR5 HO HaR5]
  · isplitr; · iexact HR
    isplitl [HcR5]; · iexact HcR5
    isplitl [HO]; · iexact HO
    iexact HaR5
  iintro ⟨HO, HaR5, Hp5⟩
  -- the wait on receive cell 6
  iapply (wp_recvwait m ρ K c 6 (by decide) _) $$ [HcR6 HO HaR6]
  · isplitr; · iexact HR
    isplitl [HcR6]; · iexact HcR6
    isplitl [HO]; · iexact HO
    iexact HaR6
  iintro ⟨HO, HaR6, Hp6⟩
  -- the wait on receive cell 7
  iapply (wp_recvwait m ρ K c 7 (by decide) _) $$ [HcR7 HO HaR7]
  · isplitr; · iexact HR
    isplitl [HcR7]; · iexact HcR7
    isplitl [HO]; · iexact HO
    iexact HaR7
  iintro ⟨HO, HaR7, Hp7⟩
  -- the gathered rows read whole
  ihave Hlp := (load_prep m ρ c) $$ [Hr0L Hp1 Hp2 Hp3 Hp4 Hp5 Hp6 Hp7]
  · isplitl [Hr0L]; · iexact Hr0L
    unfold sep7
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  icases Hlp with ⟨HcL, Hrr⟩
  iapply (wp_load 𝒱₀ (c : Thread nD τ) none Set.univ (m := cM) (Finset.subset_univ _)) $$ HcL; iintro HcL
  rw [read_all]
  -- the block of the result
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the wait on send cell 1
  iapply (wp_sendwait m ρ K c 1 (by decide) _) $$ [HcS1 HO HaS1]
  · isplitr; · iexact HR
    isplitl [HcS1]; · iexact HcS1
    isplitl [HO]; · iexact HO
    iexact HaS1
  iintro ⟨HO, HaS1, Hq1⟩
  -- the wait on send cell 2
  iapply (wp_sendwait m ρ K c 2 (by decide) _) $$ [HcS2 HO HaS2]
  · isplitr; · iexact HR
    isplitl [HcS2]; · iexact HcS2
    isplitl [HO]; · iexact HO
    iexact HaS2
  iintro ⟨HO, HaS2, Hq2⟩
  -- the wait on send cell 3
  iapply (wp_sendwait m ρ K c 3 (by decide) _) $$ [HcS3 HO HaS3]
  · isplitr; · iexact HR
    isplitl [HcS3]; · iexact HcS3
    isplitl [HO]; · iexact HO
    iexact HaS3
  iintro ⟨HO, HaS3, Hq3⟩
  -- the wait on send cell 4
  iapply (wp_sendwait m ρ K c 4 (by decide) _) $$ [HcS4 HO HaS4]
  · isplitr; · iexact HR
    isplitl [HcS4]; · iexact HcS4
    isplitl [HO]; · iexact HO
    iexact HaS4
  iintro ⟨HO, HaS4, Hq4⟩
  -- the wait on send cell 5
  iapply (wp_sendwait m ρ K c 5 (by decide) _) $$ [HcS5 HO HaS5]
  · isplitr; · iexact HR
    isplitl [HcS5]; · iexact HcS5
    isplitl [HO]; · iexact HO
    iexact HaS5
  iintro ⟨HO, HaS5, Hq5⟩
  -- the wait on send cell 6
  iapply (wp_sendwait m ρ K c 6 (by decide) _) $$ [HcS6 HO HaS6]
  · isplitr; · iexact HR
    isplitl [HcS6]; · iexact HcS6
    isplitl [HO]; · iexact HO
    iexact HaS6
  iintro ⟨HO, HaS6, Hq6⟩
  -- the wait on send cell 7
  iapply (wp_sendwait m ρ K c 7 (by decide) _) $$ [HcS7 HO HaS7]
  · isplitr; · iexact HR
    isplitl [HcS7]; · iexact HcS7
    isplitl [HO]; · iexact HO
    iexact HaS7
  iintro ⟨HO, HaS7, Hq7⟩
  -- the sixteen own cells close
  imod (close_send m ρ K c 0 0 (fun r _ => duties_send0 m ρ c r)) $$ [HaS0] with HzS0
  · isplitr; · iexact HR
    iexact HaS0
  imod (close_recv m ρ K c 0 0 (fun r _ => duties_recv0 m ρ c r)) $$ [HaR0] with HzR0
  · isplitr; · iexact HR
    iexact HaR0
  imod (close_send m ρ K c 1 1 (duties_later m ρ _)) $$ [HaS1] with HzS1
  · isplitr; · iexact HR
    iexact HaS1
  imod (close_recv m ρ K c 1 1 (duties_later m ρ _)) $$ [HaR1] with HzR1
  · isplitr; · iexact HR
    iexact HaR1
  imod (close_send m ρ K c 2 1 (duties_later m ρ _)) $$ [HaS2] with HzS2
  · isplitr; · iexact HR
    iexact HaS2
  imod (close_recv m ρ K c 2 1 (duties_later m ρ _)) $$ [HaR2] with HzR2
  · isplitr; · iexact HR
    iexact HaR2
  imod (close_send m ρ K c 3 1 (duties_later m ρ _)) $$ [HaS3] with HzS3
  · isplitr; · iexact HR
    iexact HaS3
  imod (close_recv m ρ K c 3 1 (duties_later m ρ _)) $$ [HaR3] with HzR3
  · isplitr; · iexact HR
    iexact HaR3
  imod (close_send m ρ K c 4 1 (duties_later m ρ _)) $$ [HaS4] with HzS4
  · isplitr; · iexact HR
    iexact HaS4
  imod (close_recv m ρ K c 4 1 (duties_later m ρ _)) $$ [HaR4] with HzR4
  · isplitr; · iexact HR
    iexact HaR4
  imod (close_send m ρ K c 5 1 (duties_later m ρ _)) $$ [HaS5] with HzS5
  · isplitr; · iexact HR
    iexact HaS5
  imod (close_recv m ρ K c 5 1 (duties_later m ρ _)) $$ [HaR5] with HzR5
  · isplitr; · iexact HR
    iexact HaR5
  imod (close_send m ρ K c 6 1 (duties_later m ρ _)) $$ [HaS6] with HzS6
  · isplitr; · iexact HR
    iexact HaS6
  imod (close_recv m ρ K c 6 1 (duties_later m ρ _)) $$ [HaR6] with HzR6
  · isplitr; · iexact HR
    iexact HaR6
  imod (close_send m ρ K c 7 1 (duties_later m ρ _)) $$ [HaS7] with HzS7
  · isplitr; · iexact HR
    iexact HaS7
  imod (close_recv m ρ K c 7 1 (duties_later m ρ _)) $$ [HaR7] with HzR7
  · isplitr; · iexact HR
    iexact HaR7
  -- the scratch whole again
  ihave Hc := (final_join m ρ c) $$ [HcL Hq1 Hq2 Hq3 Hq4 Hq5 Hq6 Hq7 Hrr]
  · isplitl [HcL]; · iexact HcL
    isplitl [Hq1 Hq2 Hq3 Hq4 Hq5 Hq6 Hq7]
    · unfold sep7
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hrr
  rw [wp_ret]; imodintro
  iapply Hk
  unfold bodyPost Φ₁ Dat.owesAt Pipeline.owesWithin sep8 sep7
  rw [show (dats m ρ 0 c).owed t₀.succ = 0 from rfl]
  isplitl [Hc HzS0 HzS1 HzS2 HzS3 HzS4 HzS5 HzS6 HzS7 HzR0 HzR1 HzR2 HzR3 HzR4 HzR5 HzR6 HzR7]
  · isplitl [Hc]; · iexact Hc
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    iexact HzR7
  isplitl [HO]
  · iexists (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (recvS 7), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.reg barS, ()) W)))))))))))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

/-! ## The library's body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, Hrest⟩, Hscr⟩, Ho, Hx, Hgm, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hgm]; · iexact Hgm
    iexact Hout
  · iintro H; iexact H

/-- info: 'Cert.Kernel.Proto.body_obligation' depends on axioms: [propext, Classical.choice, Quot.sound] -/
#guard_msgs in #print axioms body_obligation

end Body

end Cert.Kernel.Proto
-- ==== Proof.BitsLaunch.lean ====
import proofs.«901009_g7700000000001010_dist_rmsnorm_colshard_i_m512_n256_v7x_i8_f32_1_alg».proof.Proof.BitsBody

/-! # The launch

The cells of the eight devices are allocated under one update, the duty tokens are dealt along the ring to the
devices that pay them, each device's launch credit is counted from what the others owe it, and the launch theorem
turns the eight body obligations into a run of the program. -/

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Eight, seven, sixteen and seventeen of a family -/

theorem bigSep_fin8 (Φ : Fin 8 → sProp 𝕄) : bigSep Finset.univ Φ = sep8 Φ :=
  bigSep_univ_eq_bigSepL [(0 : Fin 8), 1, 2, 3, 4, 5, 6, 7] (by decide) (by decide) Φ

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem bigSep_fin3' (Φ : Fin 3 → sProp 𝕄) : bigSep Finset.univ Φ = iprop(Φ 0 ∗ Φ 1 ∗ Φ 2) :=
  bigSep_univ_eq_bigSepL [(0 : Fin 3), 1, 2] (by decide) (by decide) Φ

theorem iS_injective : Function.Injective iS := by decide
theorem iR_injective : Function.Injective iR := by decide

/-- A device's seventeen cells: the barrier, the eight send cells, the eight receive cells. -/
theorem bigSep_fin17 (Φ : Fin 17 → sProp 𝕄) :
    bigSep Finset.univ Φ = iprop(Φ iB ∗ sep8 (fun k => Φ (iS k)) ∗ sep8 (fun k => Φ (iR k))) := by
  rw [show (Finset.univ : Finset (Fin 17)) = insert iB ((Finset.univ.map ⟨iS, iS_injective⟩) ∪ (Finset.univ.map ⟨iR, iR_injective⟩)) from by decide,
    bigSep_insert (by decide), bigSep_union (by decide), bigSep_map, bigSep_map, bigSep_fin8, bigSep_fin8]
  rfl

def jS (k : Fin 8) : Fin 16 := ⟨k.val, by omega⟩
def jR (k : Fin 8) : Fin 16 := ⟨8 + k.val, by omega⟩
theorem jS_injective : Function.Injective jS := by decide
theorem jR_injective : Function.Injective jR := by decide
theorem osem_jS (k : Fin 8) : osem (jS k) = .dma (sendS k) := by revert k; decide
theorem osem_jR (k : Fin 8) : osem (jR k) = .dma (recvS k) := by revert k; decide

/-- The sixteen own semaphores: the eight send, the eight receive. -/
theorem bigSep_fin16 (Φ : Fin 16 → sProp 𝕄) :
    bigSep Finset.univ Φ = iprop(sep8 (fun k => Φ (jS k)) ∗ sep8 (fun k => Φ (jR k))) := by
  rw [show (Finset.univ : Finset (Fin 16)) = (Finset.univ.map ⟨jS, jS_injective⟩) ∪ (Finset.univ.map ⟨jR, jR_injective⟩) from by decide,
    bigSep_union (by decide), bigSep_map, bigSep_map, bigSep_fin8, bigSep_fin8]
  rfl

theorem kcell_iB (c : Dev nD) : kcell (c, iB) = barCell c := rfl

/-- A device's seventeen cells, by name. -/
theorem bigSep_cells17 (c : Dev nD) (Φ : GSem nD τ sig → sProp 𝕄) :
    (bigSep Finset.univ fun j : Fin 17 => Φ (kcell (c, j)))
      = iprop(Φ (barCell c) ∗ sep8 (fun k => Φ (sendCell c k)) ∗ sep8 (fun k => Φ (recvCell c k))) := by
  rw [bigSep_fin17]; simp only [kcell_iB, kcell_iS, kcell_iR]

theorem bigSep_range7 (Φ : ℕ → sProp 𝕄) : bigSep (Finset.range 7) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ

/-- Seven of a family over all devices. -/
theorem bigSep_sep7 (Φ : Dev nD → Fin 8 → sProp 𝕄) :
    (bigSep Finset.univ fun c : Dev nD => sep7 (Φ c)) = sep7 (fun k => bigSep Finset.univ fun c : Dev nD => Φ c k) := by
  unfold sep7; simp only [bigSep_sep']

/-! ## The launch's side facts -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- The duty tokens of one device's cells as minted: (which family, which of the seven). -/
def tokS : Fin 3 × Fin 7 → SemLoc sig × Fin 8
  | (0, j) => (.reg barS, j.succ)
  | (1, j) => (.dma (sendS j.succ), 0)
  | (2, j) => (.dma (recvS j.succ), 0)
theorem tokS_injective : Function.Injective tokS := by decide
def tokOf (ca : Dev nD × Fin 3 × Fin 7) : GSem nD τ sig × ℕ × Fin 8 := (((ca.1 : Thread nD τ), (tokS ca.2).1), 0, (tokS ca.2).2)
theorem tokOf_injective : Function.Injective tokOf := by
  rintro ⟨c, a⟩ ⟨c', a'⟩ h
  have h1 : c = c' := by have := congrArg (fun x : GSem nD τ sig × ℕ × Fin 8 => x.1.1.1) h; exact this
  subst h1
  have h2 : tokS a = tokS a' := Prod.ext (congrArg (fun x : GSem nD τ sig × ℕ × Fin 8 => x.1.2) h) (congrArg (fun x : GSem nD τ sig × ℕ × Fin 8 => x.2.2) h)
  have : a = a' := tokS_injective h2
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(sep7 (fun k => dutyTok ER (barCell c) 0 k) ∗ sep7 (fun k => dutyTok ER (sendCell c k) 0 0) ∗ sep7 (fun k => dutyTok ER (recvCell c k) 0 0))

/-- What the launch element deals device `c`. -/
def G (c : Dev nD) : sProp 𝕄 :=
  iprop((bigSep Finset.univ fun j : Fin 17 => roundState ER (ringRd m ρ) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod, bigSep_fin3']; simp only [bigSep_fin7]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(sep8 (fun k => semVal (sendCell c k) 0) ∗ sep8 (fun k => semVal (recvCell c k) 0)) := by
  unfold Pipeline.ownSems0; rw [bigSep_fin16]; simp only [osem_jS, osem_jR]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  rw [ownSems0_eq, unscopedSems0_eq,
    show (bigSep Finset.univ fun j : Fin 17 => semVal (kcell (c, j)) 0 : sProp 𝕄) = _ from bigSep_cells17 c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (ringRd m ρ) κ (kcell (c, j))))
          ∗ (bigSep Finset.univ fun j : Fin 17 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (ringRd m ρ) (kcell (c, j)) 0)
      ⊢ (|={Set.univ}=> bigSep Finset.univ fun j => iprop(∃ κ : ℕ, cellInv ER (ringRd m ρ) κ (kcell (c, j))) : sProp 𝕄) from by
        rw [← bigSep_sep']
        exact (bigSep_mono fun j _ => (Rounds.body_intro ER (ringRd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The tokens travel along the ring: the device `k` places before the owner of a barrier duty `k`, or of receive cell
    `k`'s one duty, pays it. -/
theorem toks_around : (bigSep Finset.univ fun c : Dev nD => (toks c : sProp 𝕄)) ⊢ bigSep Finset.univ fun c : Dev nD => payToks c := by
  have e1 (k : Fin 8) : (bigSep Finset.univ fun c : Dev nD => (dutyTok ER (barCell (fwd k c)) 0 k : sProp 𝕄)) = bigSep Finset.univ fun c : Dev nD => dutyTok ER (barCell c) 0 k :=
    (bigSep_univ_equiv (fwdEquiv k) (fun c : Dev nD => (dutyTok ER (barCell c) 0 k : sProp 𝕄))).symm
  have e2 (k : Fin 8) : (bigSep Finset.univ fun c : Dev nD => (dutyTok ER (recvCell (fwd k c) k) 0 0 : sProp 𝕄)) = bigSep Finset.univ fun c : Dev nD => dutyTok ER (recvCell c k) 0 0 :=
    (bigSep_univ_equiv (fwdEquiv k) (fun c : Dev nD => (dutyTok ER (recvCell c k) 0 0 : sProp 𝕄))).symm
  unfold toks payToks
  simp only [bigSep_sep', bigSep_sep7, e1, e2]
  iintro ⟨H1, H2, H3⟩
  isplitl [H1]; · iexact H1
  isplitl [H3]; · iexact H3
  iexact H2

/-- What stays with device `c`: its positions and the tokens of the duties it pays. -/
def linear (c : Dev nD) : sProp 𝕄 := iprop(positions c ∗ payToks c)

theorem ghost_intro (K : Dev nD × Fin 17 → ℕ) (c : Dev nD) : iprop(records m ρ K ∗ linear c) ⊢ G' m ρ c := by
  unfold linear G' ghost
  iintro H
  iexists K
  iexact H

theorem regroup :
    (bigSep Finset.univ fun c : Dev nD => iprop((bigSep Finset.univ fun j => iprop(∃ κ : ℕ, cellInv ER (ringRd m ρ) κ (kcell (c, j))))
          ∗ (bigSep Finset.univ fun j : Fin 17 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 17 => iprop(∃ κ : ℕ, cellInv ER (ringRd m ρ) κ (kcell cj))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun cj : Dev nD × Fin 17 => (reached ER (kcell cj) 0 : sProp 𝕄))]
  iintro ⟨HI, ⟨Hat, #HR⟩, Htok⟩
  ihave HK := (BI.bigSep_exists_pi Finset.univ (fun (cj : Dev nD × Fin 17) (κ : ℕ) => (cellInv ER (ringRd m ρ) κ (kcell cj) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => show _ ⊢ linear c from Entails.of_eq (by
        unfold linear positions
        rw [show (bigSep Finset.univ fun j : Fin 17 => (atPos ER (kcell (c, j)) 0 ∅ 0 : sProp 𝕄)) = _ from bigSep_cells17 c (fun g => atPos ER g 0 ∅ 0)])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem OwS_eq (c : Dev nD) : ∀ i, OwS c i = ∑ j ∈ Finset.range i, tallyAt (recvCell (fwd (kk (7 - j)) c) (kk (7 - j))) () N
  | 0 => by rw [Finset.sum_range_zero]; rfl
  | i + 1 => by rw [Finset.sum_range_succ, ← OwS_eq c i]; rfl
theorem OwB_eq (c : Dev nD) : ∀ i, OwB c i = OwS c 7 + ∑ j ∈ Finset.range i, tallyAt (barCell (fwd (kk (7 - j)) c)) () 1
  | 0 => by rw [Finset.sum_range_zero, add_zero]; rfl
  | i + 1 => by rw [Finset.sum_range_succ, ← add_assoc, ← OwB_eq c i]; rfl
/-- What a device owes at launch: the seven copies' credit and the seven barrier units. -/
theorem O₀_eq (c : Dev nD) : O₀ c = (∑ j ∈ Finset.range 7, tallyAt (recvCell (fwd (kk (7 - j)) c) (kk (7 - j))) () N)
    + ∑ j ∈ Finset.range 7, tallyAt (barCell (fwd (kk (7 - j)) c)) () 1 := by
  unfold O₀; rw [OwB_eq, OwS_eq]

/-- What a device is owed: the credit of its seven receive cells and of its barrier's seven units. -/
def T (d : Dev nD) : CellTallies nD τ sig Unit :=
  (∑ j ∈ Finset.range 7, tallyAt (recvCell d (kk (7 - j))) () N) + ∑ j ∈ Finset.range 7, tallyAt (barCell d) () 1

/-- Summed over the ring, what is owed is what is due: each shift is a bijection of the devices. -/
theorem sum_shift {M : Type} [AddCommMonoid M] (A : Fin 8 → Dev nD → M) :
    (∑ d, ∑ j ∈ Finset.range 7, A (kk (7 - j)) (fwd (kk (7 - j)) d)) = ∑ d, ∑ j ∈ Finset.range 7, A (kk (7 - j)) d :=
  calc (∑ d, ∑ j ∈ Finset.range 7, A (kk (7 - j)) (fwd (kk (7 - j)) d))
      = ∑ j ∈ Finset.range 7, ∑ d, A (kk (7 - j)) (fwd (kk (7 - j)) d) := Finset.sum_comm
    _ = ∑ j ∈ Finset.range 7, ∑ d, A (kk (7 - j)) d :=
        Finset.sum_congr rfl fun j _ => Equiv.sum_comp (fwdEquiv (kk (7 - j))) (A (kk (7 - j)))
    _ = ∑ d, ∑ j ∈ Finset.range 7, A (kk (7 - j)) d := Finset.sum_comm

theorem sum_O₀ : (∑ d, O₀ d) = ∑ d, T d := by
  simp only [O₀_eq, T, Finset.sum_add_distrib]
  exact congrArg₂ (· + ·) (sum_shift (fun k d => (tallyAt (recvCell d k) () N : CellTallies nD τ sig Unit)))
    (sum_shift (fun k d => (tallyAt (barCell d) () 1 : CellTallies nD τ sig Unit)))

theorem T_on (d : Dev nD) (g : GSem nD τ sig) (h : T d g ≠ 0) : g.1 = (d : Thread nD τ) := by
  by_contra hne
  apply h
  unfold T
  rw [Pi.add_apply, Finset.sum_apply, Finset.sum_apply,
    Finset.sum_eq_zero fun j _ => tallyAt_ne_cell (fun e => hne (by rw [e])) () N,
    Finset.sum_eq_zero fun j _ => tallyAt_ne_cell (fun e => hne (by rw [e])) () 1, add_zero]

theorem creds (c : Dev nD) :
    (Pipeline.launchCred O₀ c : sProp 𝕄) ⊢ iprop(cred (tallyAt (barCell c) () 7) ∗ sep7 (fun k => cred (tallyAt (recvCell c k) () N))) := by
  have e7 : (∑ j ∈ Finset.range 7, (tallyAt (barCell c) () 1 : CellTallies nD τ sig Unit)) = tallyAt (barCell c) () 7 := by
    simp only [Finset.sum_range_succ, Finset.sum_range_zero, zero_add, tallyAt_add]
  rw [Pipeline.launchCred_of_sum O₀ T sum_O₀ T_on c]
  unfold T
  rw [e7]
  refine (cred_add _ _).1.trans ?_
  rw [Pipeline.cred_finsetSum, bigSep_range7]
  iintro ⟨⟨H7, H6, H5, H4, H3, H2, H1⟩, HB⟩
  isplitl [HB]; · iexact HB
  unfold sep7
  isplitl [H1]; · iexact H1
  isplitl [H2]; · iexact H2
  isplitl [H3]; · iexact H3
  isplitl [H4]; · iexact H4
  isplitl [H5]; · iexact H5
  isplitl [H6]; · iexact H6
  iexact H7

/-! ## The levels -/

/-- Everything a device owes at launch is owed to a receive cell or to a barrier cell. -/
theorem O₀_pos {c : Dev nD} {g : GSem nD τ sig} {u : Unit} (h : 0 < O₀ c g u) :
    (∃ d k, g = recvCell d k) ∨ ∃ d, g = barCell d := by
  rw [O₀_eq] at h
  rcases Pipeline.add_pos_cases h with h | h
  · obtain ⟨j, -, hj⟩ := Pipeline.sum_pos_exists h
    exact .inl ⟨_, _, (Pipeline.tallyAt_pos hj).1⟩
  · obtain ⟨j, -, hj⟩ := Pipeline.sum_pos_exists h
    exact .inr ⟨_, (Pipeline.tallyAt_pos hj).1⟩

theorem lv_recv (d : Dev nD) (k : Fin 8) (u : Unit) : lv (recvCell d k) u = 2 := by
  show (if 11 ≤ (recvS k).val then 2 else 0) = 2
  rw [if_pos (by rw [recvS_val]; omega)]
theorem lv_bar (d : Dev nD) (u : Unit) : lv (barCell d) u = 1 := by
  show (if barS = barS then 1 else 0) = 1
  exact if_pos rfl

/-! ## The theorem's side conditions -/

theorem L_of_ne (g : GSem nD τ sig) (h : g.1.2 ≠ .tc) : L g = ∅ := if_neg h

/-- A wait on a staging cell (level 0) while owing what is owed at launch (levels 1 and 2), or nothing. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> (rw [L_tc]; exact Finset.mem_singleton_self _))
      (fun p hp => by
        rw [Finset.mem_singleton.mp hp]
        show (if 11 ≤ q.val then 2 else 0) ≤ 0
        rw [if_neg (by omega)])
      (fun g u hg => by
        rcases O₀_pos hg with ⟨d, k, rfl⟩ | ⟨d, rfl⟩
        · rw [lv_recv]; decide
        · rw [lv_bar]; decide)
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ cPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ cPts
  iintro ⟨Hr, HzS, HzV⟩
  isplitr; · iempintro
  isplitl [HzS HzV]
  · isplitl [HzS] <;> iassumption
  iexists (commFinal m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` and `gamma` arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_g (c : Dev nD) : finalA m ρ c (1 : Fin 3) = (s₀ m ρ).mem (win0_1.arr.view.loc (c : Thread nD τ)) :=
  (dats (F := F) m ρ 0 c).arrAt_in (1 : Fin 3) rfl _
/-- The result array after the run holds the block the body stored. -/
theorem finalA_out (c : Dev nD) : finalA m ρ c (2 : Fin 3) = outAt m ρ c := by
  unfold finalA
  rw [show cfg0.N = (t₀ : Fin cfg0.N).val + 1 from cfg0_N, Dat.arrAt_succ, if_pos (flush0_2 t₀)]
  exact Memref.write_access_unit_zero_univ (Elt F) main_v1 (funext fun a => Nat.zero_mul _) _ _ _

/-- info: 'Cert.Kernel.Proto.run_main' depends on axioms: [propext, Classical.choice, Quot.sound] -/
#guard_msgs in #print axioms run_main

end Cert.Kernel.Proto

end
-- ==== Proof.Claims.lean ====
import proofs.«901009_g7700000000001010_dist_rmsnorm_colshard_i_m512_n256_v7x_i8_f32_1_alg».proof.Proof.Value
import proofs.«901009_g7700000000001010_dist_rmsnorm_colshard_i_m512_n256_v7x_i8_f32_1_alg».proof.Proof.Staged
import proofs.«901009_g7700000000001010_dist_rmsnorm_colshard_i_m512_n256_v7x_i8_f32_1_alg».proof.Proof.Launch
import proofs.«901009_g7700000000001010_dist_rmsnorm_colshard_i_m512_n256_v7x_i8_f32_1_alg».proof.Proof.BitsLaunch
import proofs.«901009_g7700000000001010_dist_rmsnorm_colshard_i_m512_n256_v7x_i8_f32_1_alg».proof.Proof.Gen.ReferenceIdeal
import proofs.«901009_g7700000000001010_dist_rmsnorm_colshard_i_m512_n256_v7x_i8_f32_1_alg».proof.Proof.Gen.Pre_finite_inputs_Kernel
import proofs.«901009_g7700000000001010_dist_rmsnorm_colshard_i_m512_n256_v7x_i8_f32_1_alg».proof.Proof.Gen.Pre_finite_inputs_ReferenceIdeal

/-! # The five claims

The three frames are the runs with the values dropped: the kernel's run (at the word-level instance and at the ideal
one) leaves both argument arrays as launched, and so does the reference's. The ideal pass rewrote nothing, so
`preserves` has nothing to state. For `algebraic`: after the kernel's run device `c`'s result array is the stored block,
computed from its own blocks of `x` and `gamma` and from a scratch whose row `k` holds the row sums of squares of the
block of the device `k` places before `c`; the eight rows, read along the ring, are the eight blocks' row sums, their
total the sum of squares over all 2048 columns, and the stored block is block `c` of the reference's result. -/

noncomputable section

namespace Cert.Proof.Claims

open Idealize.ShloMosaic Idealize.ShloMosaic.TcCoe Idealize.SL.Sem

theorem frame_k : Cert.frame_Kernel := fun m ρ _ =>
  (θ_run Cert.Kernel.defs _ _).mono
    (fun r h c => ⟨(h c (0 : Fin 3)).trans (Cert.Kernel.Proto.finalA_x m ρ c), (h c (1 : Fin 3)).trans (Cert.Kernel.Proto.finalA_g m ρ c)⟩)
    (Cert.Kernel.Proto.run_main (F := Bits) m ρ)

theorem frame_ki : Cert.frame_KernelIdeal := fun m ρ _ =>
  (θ_run Cert.KernelIdeal.defs _ _).mono
    (fun r h c => ⟨(h c (0 : Fin 3)).trans (Cert.KernelIdeal.Proto.finalA_x m ρ c), (h c (1 : Fin 3)).trans (Cert.KernelIdeal.Proto.finalA_g m ρ c)⟩)
    (Cert.KernelIdeal.Proto.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨Cert.KernelIdeal.ValueBridge.RefG (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, Cert.KernelIdeal.ValueBridge.ref_run m' ρ'⟩
  refine (θ_run Cert.KernelIdeal.defs _ _).mono
    (fun r h c => ⟨?_, (h c (0 : Fin 3)).trans (Cert.KernelIdeal.Proto.finalA_x m ρ c), (h c (1 : Fin 3)).trans (Cert.KernelIdeal.Proto.finalA_g m ρ c)⟩)
    (Cert.KernelIdeal.Proto.run_main (F := Ideal) m ρ)
  refine ((h c (2 : Fin 3)).trans (Cert.KernelIdeal.Proto.finalA_out m ρ c)).trans ?_
  unfold Cert.KernelIdeal.Proto.outAt
  rw [Cert.KernelIdeal.Proto.xstg_eq, Cert.KernelIdeal.Proto.gstg_eq, (hagree c).1, (hagree c).2]
  refine Cert.KernelIdeal.ValueBridge.bridge _ _ c
    (fun d i => by rw [← (hagree d).1]; exact Cert.KernelIdeal.ValueBridge.fin_of_pre m hpre d i) _ (fun k r => ?_)
  show Cert.KernelIdeal.Proto.rsum m ρ (Cert.KernelIdeal.Ring.bwd k c) (ValueIdx.ix2 0 r) = _
  unfold Cert.KernelIdeal.Proto.rsum
  rw [Cert.KernelIdeal.Proto.xstg_eq, (hagree _).1]

end Cert.Proof.Claims

end
-- ==== Proof.lean ====
/- The proof of `Cert.Claim`: an RMS norm over 2048 columns cut along the columns on a ring of eight devices, against
   its one-device reference.

   Device `c` holds block `c` of `x` (512 × 256) and of `gamma` (256). It computes the 512 row sums of squares of its
   block, gathers the eight devices' row sums into an 8 × 512 scratch (row `k` from the device `k` places before it on
   the ring) by seven copies behind an entry handshake on the barrier semaphore, sums the eight rows, and stores
   `(x · gamma) · rsqrt(total · 2⁻¹¹ + ε)`. The reference computes `(gamma · x) / sqrt(Σ_columns x² / 2048 + ε)` with the
   same `ε`. Over the extended reals, with every entry of `x` a real, the eight rows' total is the sum of squares over
   all 2048 columns, the radicand is a positive real, and the two quotients agree; so each device's stored block is its
   block of the reference's result.

   The modules: `Ring` (the shifts on the ring of eight and the printed device chains), `Sched` and `Tables` (the cells,
   the rounds, what each landing hands over, what is owed and at which level), `Rows` (the scratch by rows and by
   shares), `Body` (one device's body, stepped once at a symbolic device), `Launch` (all eight devices launched together
   and the arrays after the run), `Staged` and `Value` (the staged blocks are the arrays; the reference as one function
   of the whole arrays; the bridge from the gathered rows to the reference's block), `Claims` (the five conjuncts). The
   modules named `Bits…` are the same text at the word-level program. -/
import proofs.«901009_g7700000000001010_dist_rmsnorm_colshard_i_m512_n256_v7x_i8_f32_1_alg».proof.Defs
import proofs.«901009_g7700000000001010_dist_rmsnorm_colshard_i_m512_n256_v7x_i8_f32_1_alg».proof.Proof.Gen.Kernel
import proofs.«901009_g7700000000001010_dist_rmsnorm_colshard_i_m512_n256_v7x_i8_f32_1_alg».proof.Proof.Gen.KernelIdeal
import proofs.«901009_g7700000000001010_dist_rmsnorm_colshard_i_m512_n256_v7x_i8_f32_1_alg».proof.Proof.Gen.ReferenceIdeal
import proofs.«901009_g7700000000001010_dist_rmsnorm_colshard_i_m512_n256_v7x_i8_f32_1_alg».proof.Proof.Gen.Pre_finite_inputs_Kernel
import proofs.«901009_g7700000000001010_dist_rmsnorm_colshard_i_m512_n256_v7x_i8_f32_1_alg».proof.Proof.Gen.Pre_finite_inputs_ReferenceIdeal
import proofs.«901009_g7700000000001010_dist_rmsnorm_colshard_i_m512_n256_v7x_i8_f32_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Claims.frame_k, Claims.frame_ki, Claims.frame_ri, Claims.preserves, Claims.algebraic⟩

end Cert.Proof

end
